-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1x28x28 : Shape := ⟨4, ![32768, 1, 28, 28]⟩
abbrev S787x10 : Shape := ⟨2, ![787, 10]⟩
abbrev S10 : Shape := ⟨1, ![10]⟩
abbrev S4 : Shape := ⟨1, ![4]⟩
abbrev S_ : Shape := ⟨0, ![]⟩

class Facts : Prop where
  bcast_S_S32768x1x28x28 : S_.BroadcastsInDim S32768x1x28x28 (![] : Fin 0 → Fin S32768x1x28x28.rank)
  reducesTo_S32768x1x28x28_S_d0_1_2_3 : S32768x1x28x28.ReducesTo [0, 1, 2, 3] S_
  h_S_ : 0 < S_.numel
  bcast_S_S787x10 : S_.BroadcastsInDim S787x10 (![] : Fin 0 → Fin S787x10.rank)
  reducesTo_S787x10_S_d0_1 : S787x10.ReducesTo [0, 1] S_
  bcast_S_S10 : S_.BroadcastsInDim S10 (![] : Fin 0 → Fin S10.rank)
  reducesTo_S10_S_d0 : S10.ReducesTo [0] S_
  bcast_S_S4 : S_.BroadcastsInDim S4 (![] : Fin 0 → Fin S4.rank)
  reducesTo_S4_S_d0 : S4.ReducesTo [0] S_

variable [Facts]

def fn_part1 {F : FTy → Type} [FloatOps F] (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  main_v18

def fn {F : FTy → Type} [FloatOps F] (main_arg0 : FVec F S32768x1x28x28 .f32) (main_arg1 : FVec F S787x10 .f32) (main_arg2 : FVec F S10 .f32) (main_arg3 : FVec F S4 .f32) : IVec S_ 1 :=
  let main_v0 : FVec F S32768x1x28x28 .f32 := Host.absf main_arg0
  let main_cst : FVec F S_ .f32 := constant S_ .f32 0x7F800000#32
  let main_v1 : FVec F S32768x1x28x28 .f32 := broadcastInDim S32768x1x28x28 ![] bcast_S_S32768x1x28x28 main_cst
  let main_v2 : IVec S32768x1x28x28 1 := cmpf .olt main_v0 main_v1
  let main_c : IVec S_ 1 := constantI S_ 1 1#1
  let main_v3 : IVec S_ 1 := (fun x v => Host.reduce IntOp.andi x v reducesTo_S32768x1x28x28_S_d0_1_2_3 h_S_) main_v2 main_c
  let main_v4 : FVec F S787x10 .f32 := Host.absf main_arg1
  let main_cst_0 : FVec F S_ .f32 := constant S_ .f32 0x7F800000#32
  let main_v5 : FVec F S787x10 .f32 := broadcastInDim S787x10 ![] bcast_S_S787x10 main_cst_0
  let main_v6 : IVec S787x10 1 := cmpf .olt main_v4 main_v5
  let main_c_1 : IVec S_ 1 := constantI S_ 1 1#1
  let main_v7 : IVec S_ 1 := (fun x v => Host.reduce IntOp.andi x v reducesTo_S787x10_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_v13 main_v16
-- ==== Kernel.lean ====
abbrev S32768x1x28x28 : Shape := ⟨4, ![32768, 1, 28, 28]⟩
abbrev S787x10 : Shape := ⟨2, ![787, 10]⟩
abbrev S10 : Shape := ⟨1, ![10]⟩
abbrev S4 : Shape := ⟨1, ![4]⟩
abbrev S32768x784 : Shape := ⟨2, ![32768, 784]⟩
abbrev S784x10 : Shape := ⟨2, ![784, 10]⟩
abbrev S14x14x4x10 : Shape := ⟨4, ![14, 14, 4, 10]⟩
abbrev S14x14x1x10 : Shape := ⟨4, ![14, 14, 1, 10]⟩
abbrev S14x14x10 : Shape := ⟨3, ![14, 14, 10]⟩
abbrev S14x1x14x10 : Shape := ⟨4, ![14, 1, 14, 10]⟩
abbrev S14x2x14x10 : Shape := ⟨4, ![14, 2, 14, 10]⟩
abbrev S_ : Shape := ⟨0, ![]⟩
abbrev S14x2x14x1x10 : Shape := ⟨5, ![14, 2, 14, 1, 10]⟩
abbrev S14x2x14x2x10 : Shape := ⟨5, ![14, 2, 14, 2, 10]⟩
abbrev S1x10 : Shape := ⟨2, ![1, 10]⟩
abbrev S4x10 : Shape := ⟨2, ![4, 10]⟩
abbrev S1 : Shape := ⟨1, ![1]⟩
abbrev S2 : Shape := ⟨1, ![2]⟩
abbrev S1x2 : Shape := ⟨2, ![1, 2]⟩
abbrev S32768x10 : Shape := ⟨2, ![32768, 10]⟩
abbrev S1024x784 : Shape := ⟨2, ![1024, 784]⟩
abbrev S1024x10 : Shape := ⟨2, ![1024, 10]⟩
abbrev S1024x1 : Shape := ⟨2, ![1024, 1]⟩
abbrev S1x1 : Shape := ⟨2, ![1, 1]⟩
abbrev S1024 : Shape := ⟨1, ![1024]⟩

abbrev nBuf : Space → Nat
  | .hbm => 59
  | .vmem => 8
  | .smem => 0
  | _ => 0

abbrev bufTy : (tb : Table) → Fin (tcTables nBuf tb) → BufTy
  | .hbm, ⟨0, _⟩ => ⟨S32768x1x28x28, .f32⟩
  | .hbm, ⟨1, _⟩ => ⟨S787x10, .f32⟩
  | .hbm, ⟨2, _⟩ => ⟨S10, .f32⟩
  | .hbm, ⟨3, _⟩ => ⟨S4, .f32⟩
  | .hbm, ⟨4, _⟩ => ⟨S32768x784, .f32⟩
  | .hbm, ⟨5, _⟩ => ⟨S784x10, .f32⟩
  | .hbm, ⟨6, _⟩ => ⟨S14x14x4x10, .f32⟩
  | .hbm, ⟨7, _⟩ => ⟨S14x14x1x10, .f32⟩
  | .hbm, ⟨8, _⟩ => ⟨S14x14x10, .f32⟩
  | .hbm, ⟨9, _⟩ => ⟨S14x14x1x10, .f32⟩
  | .hbm, ⟨10, _⟩ => ⟨S14x14x10, .f32⟩
  | .hbm, ⟨11, _⟩ => ⟨S14x1x14x10, .f32⟩
  | .hbm, ⟨12, _⟩ => ⟨S14x1x14x10, .f32⟩
  | .hbm, ⟨13, _⟩ => ⟨S14x2x14x10, .f32⟩
  | .hbm, ⟨14, _⟩ => ⟨S_, .f32⟩
  | .hbm, ⟨15, _⟩ => ⟨S14x2x14x10, .f32⟩
  | .hbm, ⟨16, _⟩ => ⟨S14x2x14x1x10, .f32⟩
  | .hbm, ⟨17, _⟩ => ⟨S14x2x14x1x10, .f32⟩
  | .hbm, ⟨18, _⟩ => ⟨S14x2x14x2x10, .f32⟩
  | .hbm, ⟨19, _⟩ => ⟨S784x10, .f32⟩
  | .hbm, ⟨20, _⟩ => ⟨S14x14x1x10, .f32⟩
  | .hbm, ⟨21, _⟩ => ⟨S14x14x10, .f32⟩
  | .hbm, ⟨22, _⟩ => ⟨S14x14x1x10, .f32⟩
  | .hbm, ⟨23, _⟩ => ⟨S14x14x10, .f32⟩
  | .hbm, ⟨24, _⟩ => ⟨S14x1x14x10, .f32⟩
  | .hbm, ⟨25, _⟩ => ⟨S14x1x14x10, .f32⟩
  | .hbm, ⟨26, _⟩ => ⟨S14x2x14x10, .f32⟩
  | .hbm, ⟨27, _⟩ => ⟨S_, .f32⟩
  | .hbm, ⟨28, _⟩ => ⟨S14x2x14x10, .f32⟩
  | .hbm, ⟨29, _⟩ => ⟨S14x2x14x1x10, .f32⟩
  | .hbm, ⟨30, _⟩ => ⟨S14x2x14x1x10, .f32⟩
  | .hbm, ⟨31, _⟩ => ⟨S14x2x14x2x10, .f32⟩
  | .hbm, ⟨32, _⟩ => ⟨S784x10, .f32⟩
  | .hbm, ⟨33, _⟩ => ⟨S1x10, .f32⟩
  | .hbm, ⟨34, _⟩ => ⟨S10, .f32⟩
  | .hbm, ⟨35, _⟩ => ⟨S1x10, .f32⟩
  | .hbm, ⟨36, _⟩ => ⟨S10, .f32⟩
  | .hbm, ⟨37, _⟩ => ⟨S1x10, .f32⟩
  | .hbm, ⟨38, _⟩ => ⟨S10, .f32⟩
  | .hbm, ⟨39, _⟩ => ⟨S1x10, .f32⟩
  | .hbm, ⟨40, _⟩ => ⟨S1x10, .f32⟩
  | .hbm, ⟨41, _⟩ => ⟨S1x10, .f32⟩
  | .hbm, ⟨42, _⟩ => ⟨S1x10, .f32⟩
  | .hbm, ⟨43, _⟩ => ⟨S4x10, .f32⟩
  | .hbm, ⟨44, _⟩ => ⟨S1, .f32⟩
  | .hbm, ⟨45, _⟩ => ⟨S_, .f32⟩
  | .hbm, ⟨46, _⟩ => ⟨S1, .f32⟩
  | .hbm, ⟨47, _⟩ => ⟨S_, .f32⟩
  | .hbm, ⟨48, _⟩ => ⟨S_, .f32⟩
  | .hbm, ⟨49, _⟩ => ⟨S1, .f32⟩
  | .hbm, ⟨50, _⟩ => ⟨S_, .f32⟩
  | .hbm, ⟨51, _⟩ => ⟨S1, .f32⟩
  | .hbm, ⟨52, _⟩ => ⟨S_, .f32⟩
  | .hbm, ⟨53, _⟩ => ⟨S_, .f32⟩
  | .hbm, ⟨54, _⟩ => ⟨S1, .f32⟩
  | .hbm, ⟨55, _⟩ => ⟨S1, .f32⟩
  | .hbm, ⟨56, _⟩ => ⟨S2, .f32⟩
  | .hbm, ⟨57, _⟩ => ⟨S1x2, .f32⟩
  | .hbm, ⟨58, _⟩ => ⟨S32768x10, .f32⟩
  | .local _ .vmem, ⟨0, _⟩ => ⟨S1024x784, .f32⟩
  | .local _ .vmem, ⟨1, _⟩ => ⟨S1024x784, .f32⟩
  | .local _ .vmem, ⟨2, _⟩ => ⟨S784x10, .f32⟩
  | .local _ .vmem, ⟨3, _⟩ => ⟨S784x10, .f32⟩
  | .local _ .vmem, ⟨4, _⟩ => ⟨S4x10, .f32⟩
  | .local _ .vmem, ⟨5, _⟩ => ⟨S1x2, .f32⟩
  | .local _ .vmem, ⟨6, _⟩ => ⟨S1024x10, .f32⟩
  | .local _ .vmem, ⟨7, _⟩ => ⟨S1024x10, .f32⟩
  | _, _ => ⟨S32768x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S784x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32768x1x28x28_S32768x784 : S32768x1x28x28.ShapeCasts S32768x784
  slices_S787x10_S784x10_0_0 : S787x10.Slices ![0, 0] S784x10
  shapeCasts_S784x10_S14x14x4x10 : S784x10.ShapeCasts S14x14x4x10
  slices_S14x14x4x10_S14x14x1x10_0_0_0_0 : S14x14x4x10.Slices ![0, 0, 0, 0] S14x14x1x10
  shapeCasts_S14x14x1x10_S14x14x10 : S14x14x1x10.ShapeCasts S14x14x10
  slices_S14x14x4x10_S14x14x1x10_0_0_2_0 : S14x14x4x10.Slices ![0, 0, 2, 0] S14x14x1x10
  bcast_S14x14x10_S14x1x14x10_0_2_3 : S14x14x10.BroadcastsInDim S14x1x14x10 (![0, 2, 3] : Fin 3 → Fin S14x1x14x10.rank)
  concatenates_S14x1x14x10_S14x1x14x10_S14x2x14x10_d1 : Shape.Concatenates [S14x1x14x10, S14x1x14x10] S14x2x14x10 1
  bcast_S_S14x2x14x10 : S_.BroadcastsInDim S14x2x14x10 (![] : Fin 0 → Fin S14x2x14x10.rank)
  bcast_S14x2x14x10_S14x2x14x1x10_0_1_2_4 : S14x2x14x10.BroadcastsInDim S14x2x14x1x10 (![0, 1, 2, 4] : Fin 4 → Fin S14x2x14x1x10.rank)
  concatenates_S14x2x14x1x10_S14x2x14x1x10_S14x2x14x2x10_d3 : Shape.Concatenates [S14x2x14x1x10, S14x2x14x1x10] S14x2x14x2x10 3
  shapeCasts_S14x2x14x2x10_S784x10 : S14x2x14x2x10.ShapeCasts S784x10
  slices_S14x14x4x10_S14x14x1x10_0_0_1_0 : S14x14x4x10.Slices ![0, 0, 1, 0] S14x14x1x10
  slices_S14x14x4x10_S14x14x1x10_0_0_3_0 : S14x14x4x10.Slices ![0, 0, 3, 0] S14x14x1x10
  slices_S787x10_S1x10_784_0 : S787x10.Slices ![784, 0] S1x10
  shapeCasts_S1x10_S10 : S1x10.ShapeCasts S10
  slices_S787x10_S1x10_785_0 : S787x10.Slices ![785, 0] S1x10
  slices_S787x10_S1x10_786_0 : S787x10.Slices ![786, 0] S1x10
  bcast_S10_S1x10_1 : S10.BroadcastsInDim S1x10 (![1] : Fin 1 → Fin S1x10.rank)
  concatenates_S1x10_S1x10_S1x10_S1x10_S4x10_d0 : Shape.Concatenates [S1x10, S1x10, S1x10, S1x10] S4x10 0
  slices_S4_S1_0 : S4.Slices ![0] S1
  shapeCasts_S1_S_ : S1.ShapeCasts S_
  slices_S4_S1_2 : S4.Slices ![2] S1
  slices_S4_S1_1 : S4.Slices ![1] S1
  slices_S4_S1_3 : S4.Slices ![3] S1
  bcast_S_S1 : S_.BroadcastsInDim S1 (![] : Fin 0 → Fin S1.rank)
  concatenates_S1_S1_S2_d0 : Shape.Concatenates [S1, S1] S2 0
  shapeCasts_S2_S1x2 : S2.ShapeCasts S1x2
  inb_S1024x784_S1024x784_0_0 : ∀ a, (![0, 0] : Fin 2 → Nat) a + S1024x784.size a ≤ S1024x784.size a
  h_S1024x784 : 0 < S1024x784.numel
  shapeCasts_S1024x784_S1024x784 : S1024x784.ShapeCasts S1024x784
  rotates_S1024x784_d1 : S1024x784.Rotates 1 none
  bitsLt_bf16_f32 : FTy.bits .bf16 < FTy.bits .f32
  inb_S784x10_S784x10_0_0 : ∀ a, (![0, 0] : Fin 2 → Nat) a + S784x10.size a ≤ S784x10.size a
  h_S784x10 : 0 < S784x10.numel
  shapeCasts_S784x10_S784x10 : S784x10.ShapeCasts S784x10
  slices_S1024x784_o0_0_S1024x1 : S1024x784.Slices ![0, 0] S1024x1
  slices_S1024x784_o0_28_S1024x1 : S1024x784.Slices ![0, 28] S1024x1
  inb_S1x2_S1x1_0_0 : ∀ a, (![0, 0] : Fin 2 → Nat) a + S1x1.size a ≤ S1x2.size a
  h_S1x1 : 0 < S1x1.numel
  shapeCasts_S1x1_S1x1 : S1x1.ShapeCasts S1x1
  inb_S1x2_S1x1_0_1 : ∀ a, (![0, 1] : Fin 2 → Nat) a + S1x1.size a ≤ S1x2.size a
  broadcasts_S1x1_S1024x1 : S1x1.Broadcasts S1024x1
  inb_S4x10_S4x10_0_0 : ∀ a, (![0, 0] : Fin 2 → Nat) a + S4x10.size a ≤ S4x10.size a
  h_S4x10 : 0 < S4x10.numel
  shapeCasts_S4x10_S4x10 : S4x10.ShapeCasts S4x10
  slices_S4x10_o0_0_S1x10 : S4x10.Slices ![0, 0] S1x10
  slices_S4x10_o1_0_S1x10 : S4x10.Slices ![1, 0] S1x10
  slices_S4x10_o2_0_S1x10 : S4x10.Slices ![2, 0] S1x10
  slices_S4x10_o3_0_S1x10 : S4x10.Slices ![3, 0] S1x10
  broadcasts_S1024x1_S1024x10 : S1024x1.Broadcasts S1024x10
  broadcasts_S1x10_S1024x10 : S1x10.Broadcasts S1024x10
  reduces_S1024x10_S1024 : S1024x10.Reduces [1] S1024
  shapeCasts_S1024_S1024x1 : S1024.ShapeCasts S1024x1
  inb_S1024x10_S1024x10_0_0 : ∀ a, (![0, 0] : Fin 2 → Nat) a + S1024x10.size a ≤ S1024x10.size a
  h_S1024x10 : 0 < S1024x10.numel
  dot_S1024x784_S784x10_S1024x10_1_0_0_1_n_n_wf : DotDims.WF S1024x784 S784x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S32768x784.size a
  hwx0_0 : ∀ i : grid0.Coords, EltTy.bits .f32 = 32 ∨ (Rect.block (s := S32768x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x10.size a ≤ S784x10.size a
  hwx0_1 : ∀ i : grid0.Coords, EltTy.bits .f32 = 32 ∨ (Rect.block (s := S784x10) S784x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S784x10.size a ≤ S784x10.size a
  hwx0_2 : ∀ i : grid0.Coords, EltTy.bits .f32 = 32 ∨ (Rect.block (s := S784x10) S784x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x10.size a ≤ S4x10.size a
  hwx0_3 : ∀ i : grid0.Coords, EltTy.bits .f32 = 32 ∨ (Rect.block (s := S4x10) S4x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x10.size a ≤ S32768x10.size a
  hwx0_5 : ∀ i : grid0.Coords, EltTy.bits .f32 = 32 ∨ (Rect.block (s := S32768x10) S1024x10.size (cc0_transform_5 i) (hinb0_5 i)).WholeWords (EltTy.packing .f32)

variable [Facts₀]

def dot_S1024x784_S784x10_S1024x10_1_0_0_1_n_n : DotDims S1024x784 S784x10 S1024x10 where
  lhsContracting := [1]
  rhsContracting := [0]
  lhsNonContracting := [0]
  rhsNonContracting := [1]
  lhsBatch := []
  rhsBatch := []
  wf := dot_S1024x784_S784x10_S1024x10_1_0_0_1_n_n_wf

abbrev win0_0 : Pipeline.Window sig grid0 :=
  Pipeline.Window.ofSpec (Memref.whole main_v0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S784x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S784x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S4x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v51) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v52) S1024x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x1x28x28 : Shape := ⟨4, ![32768, 1, 28, 28]⟩
abbrev S787x10 : Shape := ⟨2, ![787, 10]⟩
abbrev S10 : Shape := ⟨1, ![10]⟩
abbrev S4 : Shape := ⟨1, ![4]⟩
abbrev S32768x28x28 : Shape := ⟨3, ![32768, 28, 28]⟩
abbrev S32768x14x2x14x2 : Shape := ⟨5, ![32768, 14, 2, 14, 2]⟩
abbrev S32768x14x14x2x2 : Shape := ⟨5, ![32768, 14, 14, 2, 2]⟩
abbrev S32768x196x4 : Shape := ⟨3, ![32768, 196, 4]⟩
abbrev S32768x196x1 : Shape := ⟨3, ![32768, 196, 1]⟩
abbrev S32768x196 : Shape := ⟨2, ![32768, 196]⟩
abbrev S32768x784 : Shape := ⟨2, ![32768, 784]⟩
abbrev S32768x4 : Shape := ⟨2, ![32768, 4]⟩
abbrev S32768x1 : Shape := ⟨2, ![32768, 1]⟩
abbrev S32768 : Shape := ⟨1, ![32768]⟩
abbrev S_ : Shape := ⟨0, ![]⟩
abbrev S1 : Shape := ⟨1, ![1]⟩
abbrev S32768x2 : Shape := ⟨2, ![32768, 2]⟩
abbrev S32768x787 : Shape := ⟨2, ![32768, 787]⟩
abbrev S32768x10 : Shape := ⟨2, ![32768, 10]⟩
abbrev S1x10 : Shape := ⟨2, ![1, 10]⟩

abbrev nBuf : Space → Nat
  | .hbm => 112
  | .vmem => 0
  | .smem => 0
  | _ => 0

abbrev bufTy : (tb : Table) → Fin (tcTables nBuf tb) → BufTy
  | .hbm, ⟨0, _⟩ => ⟨S32768x1x28x28, .f32⟩
  | .hbm, ⟨1, _⟩ => ⟨S787x10, .f32⟩
  | .hbm, ⟨2, _⟩ => ⟨S10, .f32⟩
  | .hbm, ⟨3, _⟩ => ⟨S4, .f32⟩
  | .hbm, ⟨4, _⟩ => ⟨S32768x28x28, .f32⟩
  | .hbm, ⟨5, _⟩ => ⟨S32768x14x2x14x2, .f32⟩
  | .hbm, ⟨6, _⟩ => ⟨S32768x14x14x2x2, .f32⟩
  | .hbm, ⟨7, _⟩ => ⟨S32768x196x4, .f32⟩
  | .hbm, ⟨8, _⟩ => ⟨S32768x196x4, .f32⟩
  | .hbm, ⟨9, _⟩ => ⟨S32768x196x1, .f32⟩
  | .hbm, ⟨10, _⟩ => ⟨S32768x196, .f32⟩
  | .hbm, ⟨11, _⟩ => ⟨S32768x196x1, .f32⟩
  | .hbm, ⟨12, _⟩ => ⟨S32768x196, .f32⟩
  | .hbm, ⟨13, _⟩ => ⟨S32768x196x1, .f32⟩
  | .hbm, ⟨14, _⟩ => ⟨S32768x196, .f32⟩
  | .hbm, ⟨15, _⟩ => ⟨S32768x196, .f32⟩
  | .hbm, ⟨16, _⟩ => ⟨S32768x196x1, .f32⟩
  | .hbm, ⟨17, _⟩ => ⟨S32768x196, .f32⟩
  | .hbm, ⟨18, _⟩ => ⟨S32768x196x1, .f32⟩
  | .hbm, ⟨19, _⟩ => ⟨S32768x196, .f32⟩
  | .hbm, ⟨20, _⟩ => ⟨S32768x196x1, .f32⟩
  | .hbm, ⟨21, _⟩ => ⟨S32768x196, .f32⟩
  | .hbm, ⟨22, _⟩ => ⟨S32768x196, .f32⟩
  | .hbm, ⟨23, _⟩ => ⟨S32768x196x1, .f32⟩
  | .hbm, ⟨24, _⟩ => ⟨S32768x196x1, .f32⟩
  | .hbm, ⟨25, _⟩ => ⟨S32768x196x1, .f32⟩
  | .hbm, ⟨26, _⟩ => ⟨S32768x196x1, .f32⟩
  | .hbm, ⟨27, _⟩ => ⟨S32768x196x4, .f32⟩
  | .hbm, ⟨28, _⟩ => ⟨S32768x784, .f32⟩
  | .hbm, ⟨29, _⟩ => ⟨S32768x4, .f32⟩
  | .hbm, ⟨30, _⟩ => ⟨S32768x4, .f32⟩
  | .hbm, ⟨31, _⟩ => ⟨S32768x1, .f32⟩
  | .hbm, ⟨32, _⟩ => ⟨S32768, .f32⟩
  | .hbm, ⟨33, _⟩ => ⟨S32768x1, .f32⟩
  | .hbm, ⟨34, _⟩ => ⟨S32768, .f32⟩
  | .hbm, ⟨35, _⟩ => ⟨S32768x1, .f32⟩
  | .hbm, ⟨36, _⟩ => ⟨S32768, .f32⟩
  | .hbm, ⟨37, _⟩ => ⟨S32768, .f32⟩
  | .hbm, ⟨38, _⟩ => ⟨S32768, .f32⟩
  | .hbm, ⟨39, _⟩ => ⟨S32768x1, .f32⟩
  | .hbm, ⟨40, _⟩ => ⟨S32768, .f32⟩
  | .hbm, ⟨41, _⟩ => ⟨S32768, .f32⟩
  | .hbm, ⟨42, _⟩ => ⟨S32768x1, .f32⟩
  | .hbm, ⟨43, _⟩ => ⟨S32768, .f32⟩
  | .hbm, ⟨44, _⟩ => ⟨S32768x1, .f32⟩
  | .hbm, ⟨45, _⟩ => ⟨S32768, .f32⟩
  | .hbm, ⟨46, _⟩ => ⟨S32768, .f32⟩
  | .hbm, ⟨47, _⟩ => ⟨S32768, .f32⟩
  | .hbm, ⟨48, _⟩ => ⟨S_, .f32⟩
  | .hbm, ⟨49, _⟩ => ⟨S32768, .f32⟩
  | .hbm, ⟨50, _⟩ => ⟨S32768, .f32⟩
  | .hbm, ⟨51, _⟩ => ⟨S32768x1, .f32⟩
  | .hbm, ⟨52, _⟩ => ⟨S32768, .f32⟩
  | .hbm, ⟨53, _⟩ => ⟨S1, .f32⟩
  | .hbm, ⟨54, _⟩ => ⟨S_, .f32⟩
  | .hbm, ⟨55, _⟩ => ⟨S32768, .f32⟩
  | .hbm, ⟨56, _⟩ => ⟨S32768, .f32⟩
  | .hbm, ⟨57, _⟩ => ⟨S1, .f32⟩
  | .hbm, ⟨58, _⟩ => ⟨S_, .f32⟩
  | .hbm, ⟨59, _⟩ => ⟨S32768, .f32⟩
  | .hbm, ⟨60, _⟩ => ⟨S32768, .f32⟩
  | .hbm, ⟨61, _⟩ => ⟨S32768x1, .f32⟩
  | .hbm, ⟨62, _⟩ => ⟨S32768, .f32⟩
  | .hbm, ⟨63, _⟩ => ⟨S1, .f32⟩
  | .hbm, ⟨64, _⟩ => ⟨S_, .f32⟩
  | .hbm, ⟨65, _⟩ => ⟨S32768, .f32⟩
  | .hbm, ⟨66, _⟩ => ⟨S32768, .f32⟩
  | .hbm, ⟨67, _⟩ => ⟨S1, .f32⟩
  | .hbm, ⟨68, _⟩ => ⟨S_, .f32⟩
  | .hbm, ⟨69, _⟩ => ⟨S32768, .f32⟩
  | .hbm, ⟨70, _⟩ => ⟨S32768, .f32⟩
  | .hbm, ⟨71, _⟩ => ⟨S32768, .f32⟩
  | .hbm, ⟨72, _⟩ => ⟨S32768, .f32⟩
  | .hbm, ⟨73, _⟩ => ⟨S32768, .f32⟩
  | .hbm, ⟨74, _⟩ => ⟨S32768x1, .f32⟩
  | .hbm, ⟨75, _⟩ => ⟨S32768x1, .f32⟩
  | .hbm, ⟨76, _⟩ => ⟨S32768x2, .f32⟩
  | .hbm, ⟨77, _⟩ => ⟨S_, .f32⟩
  | .hbm, ⟨78, _⟩ => ⟨S32768, .f32⟩
  | .hbm, ⟨79, _⟩ => ⟨S_, .f32⟩
  | .hbm, ⟨80, _⟩ => ⟨S32768, .f32⟩
  | .hbm, ⟨81, _⟩ => ⟨S32768, .f32⟩
  | .hbm, ⟨82, _⟩ => ⟨S32768x1, .f32⟩
  | .hbm, ⟨83, _⟩ => ⟨S32768x2, .f32⟩
  | .hbm, ⟨84, _⟩ => ⟨S32768x2, .f32⟩
  | .hbm, ⟨85, _⟩ => ⟨S32768x2, .f32⟩
  | .hbm, ⟨86, _⟩ => ⟨S_, .f32⟩
  | .hbm, ⟨87, _⟩ => ⟨S32768, .f32⟩
  | .hbm, ⟨88, _⟩ => ⟨S32768x1, .f32⟩
  | .hbm, ⟨89, _⟩ => ⟨S32768x2, .f32⟩
  | .hbm, ⟨90, _⟩ => ⟨S32768x2, .f32⟩
  | .hbm, ⟨91, _⟩ => ⟨S32768x1, .f32⟩
  | .hbm, ⟨92, _⟩ => ⟨S32768x787, .f32⟩
  | .hbm, ⟨93, _⟩ => ⟨S32768x10, .f32⟩
  | .hbm, ⟨94, _⟩ => ⟨S1x10, .f32⟩
  | .hbm, ⟨95, _⟩ => ⟨S32768x10, .f32⟩
  | .hbm, ⟨96, _⟩ => ⟨S32768x10, .f32⟩
  | .hbm, ⟨97, _⟩ => ⟨S_, .f32⟩
  | .hbm, ⟨98, _⟩ => ⟨S32768, .f32⟩
  | .hbm, ⟨99, _⟩ => ⟨S_, .f32⟩
  | .hbm, ⟨100, _⟩ => ⟨S32768, .f32⟩
  | .hbm, ⟨101, _⟩ => ⟨S32768, .f32⟩
  | .hbm, ⟨102, _⟩ => ⟨S32768x1, .f32⟩
  | .hbm, ⟨103, _⟩ => ⟨S32768x10, .f32⟩
  | .hbm, ⟨104, _⟩ => ⟨S32768x10, .f32⟩
  | .hbm, ⟨105, _⟩ => ⟨S32768x10, .f32⟩
  | .hbm, ⟨106, _⟩ => ⟨S_, .f32⟩
  | .hbm, ⟨107, _⟩ => ⟨S32768, .f32⟩
  | .hbm, ⟨108, _⟩ => ⟨S32768x1, .f32⟩
  | .hbm, ⟨109, _⟩ => ⟨S32768x1, .f32⟩
  | .hbm, ⟨110, _⟩ => ⟨S32768x10, .f32⟩
  | .hbm, ⟨111, _⟩ => ⟨S32768x10, .f32⟩
  | _, _ => ⟨S32768x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_cst : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_cst_0 : Ref sig .tc := ⟨.hbm, 77, rfl⟩
abbrev main_v72 : Ref sig .tc := ⟨.hbm, 78, rfl⟩
abbrev main_cst_1 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_cst_2 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_call0_cst : Ref sig .tc := ⟨.hbm, 97, rfl⟩
abbrev main_call0_v0 : Ref sig .tc := ⟨.hbm, 98, rfl⟩
abbrev main_call0_cst_0 : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_v5 : Ref sig .tc := ⟨.hbm, 104, rfl⟩
abbrev main_call0_v6 : Ref sig .tc := ⟨.hbm, 105, rfl⟩
abbrev main_call0_cst_1 : Ref sig .tc := ⟨.hbm, 106, rfl⟩
abbrev main_call0_v7 : Ref sig .tc := ⟨.hbm, 107, rfl⟩
abbrev main_call0_v8 : Ref sig .tc := ⟨.hbm, 108, rfl⟩
abbrev main_call0_v9 : Ref sig .tc := ⟨.hbm, 109, rfl⟩
abbrev main_call0_v10 : Ref sig .tc := ⟨.hbm, 110, rfl⟩
abbrev main_v89 : Ref sig .tc := ⟨.hbm, 111, rfl⟩

abbrev nD : Nat := 1
abbrev τ : Topo := Topo.v7x

variable {F : FTy → Type} [FloatOps F]

class Facts₀ : Prop where
  shapeCasts_S32768x1x28x28_S32768x28x28 : S32768x1x28x28.ShapeCasts S32768x28x28
  shapeCasts_S32768x28x28_S32768x14x2x14x2 : S32768x28x28.ShapeCasts S32768x14x2x14x2
  transposes_S32768x14x2x14x2_S32768x14x14x2x2_0_1_3_2_4 : S32768x14x2x14x2.Transposes [0, 1, 3, 2, 4] S32768x14x14x2x2
  shapeCasts_S32768x14x14x2x2_S32768x196x4 : S32768x14x14x2x2.ShapeCasts S32768x196x4
  slices_S32768x196x4_S32768x196x1_0_0_0 : S32768x196x4.Slices ![0, 0, 0] S32768x196x1
  shapeCasts_S32768x196x1_S32768x196 : S32768x196x1.ShapeCasts S32768x196
  slices_S32768x196x4_S32768x196x1_0_0_1 : S32768x196x4.Slices ![0, 0, 1] S32768x196x1
  slices_S32768x196x4_S32768x196x1_0_0_2 : S32768x196x4.Slices ![0, 0, 2] S32768x196x1
  slices_S32768x196x4_S32768x196x1_0_0_3 : S32768x196x4.Slices ![0, 0, 3] S32768x196x1
  bcast_S32768x196_S32768x196x1_0_1 : S32768x196.BroadcastsInDim S32768x196x1 (![0, 1] : Fin 2 → Fin S32768x196x1.rank)
  concatenates_S32768x196x1_S32768x196x1_S32768x196x1_S32768x196x1_S32768x196x4_d2 : Shape.Concatenates [S32768x196x1, S32768x196x1, S32768x196x1, S32768x196x1] S32768x196x4 2
  shapeCasts_S32768x196x4_S32768x784 : S32768x196x4.ShapeCasts S32768x784
  slices_S32768x784_S32768x4_0_0 : S32768x784.Slices ![0, 0] S32768x4
  slices_S32768x4_S32768x1_0_0 : S32768x4.Slices ![0, 0] S32768x1
  shapeCasts_S32768x1_S32768 : S32768x1.ShapeCasts S32768
  slices_S32768x4_S32768x1_0_1 : S32768x4.Slices ![0, 1] S32768x1
  slices_S32768x4_S32768x1_0_2 : S32768x4.Slices ![0, 2] S32768x1
  slices_S32768x4_S32768x1_0_3 : S32768x4.Slices ![0, 3] S32768x1
  bcast_S_S32768 : S_.BroadcastsInDim S32768 (![] : Fin 0 → Fin S32768.rank)
  slices_S32768x784_S32768x1_0_0 : S32768x784.Slices ![0, 0] S32768x1
  slices_S4_S1_0 : S4.Slices ![0] S1
  shapeCasts_S1_S_ : S1.ShapeCasts S_
  slices_S4_S1_2 : S4.Slices ![2] S1
  slices_S32768x784_S32768x1_0_1 : S32768x784.Slices ![0, 1] S32768x1
  slices_S4_S1_1 : S4.Slices ![1] S1
  slices_S4_S1_3 : S4.Slices ![3] S1
  bcast_S32768_S32768x1_0 : S32768.BroadcastsInDim S32768x1 (![0] : Fin 1 → Fin S32768x1.rank)
  concatenates_S32768x1_S32768x1_S32768x2_d1 : Shape.Concatenates [S32768x1, S32768x1] S32768x2 1
  reducesTo_S32768x2_S32768_d1 : S32768x2.ReducesTo [1] S32768
  h_S_ : 0 < S_.numel
  bcast_S32768x1_S32768x2_0_1 : S32768x1.BroadcastsInDim S32768x2 (![0, 1] : Fin 2 → Fin S32768x2.rank)
  concatenates_S32768x784_S32768x1_S32768x2_S32768x787_d1 : Shape.Concatenates [S32768x784, S32768x1, S32768x2] S32768x787 1
  bcast_S10_S1x10_1 : S10.BroadcastsInDim S1x10 (![1] : Fin 1 → Fin S1x10.rank)
  bcast_S1x10_S32768x10_0_1 : S1x10.BroadcastsInDim S32768x10 (![0, 1] : Fin 2 → Fin S32768x10.rank)
  reducesTo_S32768x10_S32768_d1 : S32768x10.ReducesTo [1] S32768
  bcast_S32768x1_S32768x10_0_1 : S32768x1.BroadcastsInDim S32768x10 (![0, 1] : Fin 2 → Fin S32768x10.rank)
  dot_S32768x787_S787x10_S32768x10_1_0_0_1_n_n_wf : DotDims.WF S32768x787 S787x10 S32768x10 [1] [0] [0] [1] [] []

variable [Facts₀]

def dot_S32768x787_S787x10_S32768x10_1_0_0_1_n_n : DotDims S32768x787 S787x10 S32768x10 where
  lhsContracting := [1]
  rhsContracting := [0]
  lhsNonContracting := [0]
  rhsNonContracting := [1]
  lhsBatch := []
  rhsBatch := []
  wf := dot_S32768x787_S787x10_S32768x10_1_0_0_1_n_n_wf

class Facts : Prop extends Facts₀ where

variable [Facts]
-- ==== Proof.KernelRun.lean ====
import proofs.«421675_j65481071397824_3_alg».proof.Proof.Gen.Kernel.Launch
import proofs.«421675_j65481071397824_3_alg».proof.Proof.Gen.Kernel.Skeleton
import proofs.«421675_j65481071397824_3_alg».proof.Proof.Gen.Kernel.Points
import Idealize.ShloMosaic.Lib.Pipeline.FrameBody
import Idealize.ShloMosaic.Lib.Ring
import Idealize.ShloMosaic.Lib.Tactic

/-!
# The run of the program: one region on a grid of 32 points

The program is 54 host operations (they cut the weight table into the two pixel-indexed
matrices, the 4×10 table of extra rows and the pair of summed angles) followed by one region whose
grid walks the batch in 32 blocks of 1024 rows. At each point the body reads the block of images,
the two 784×10 matrices, the 4×10 table and the 1×2 pair, and overwrites the whole 1024×10 output
block with one value computed from them. So after the run the output array is, block by block,
that value of the blocks the point was handed, and no argument array has been written.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the region is entered with -/

/-- What each buffer of core `c` holds once the host operations before the region have run. -/
abbrev entered (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations, then the region. -/
theorem hmain (𝒱₀ : Variants) :
    Pipeline.HMain (Ix := Unit) (Name := ℕ) (U := UR sig nD τ) (Lvl := ℕ) cfgs 0 defs₀ 𝒱₀ m (main (F := F)) (entered m) :=
  Pipeline.hmain_prefix cfgs 0 defs₀ 𝒱₀ m main hostOps0 hostOps0_sub hostOps0_fresh main_chain

/-- A buffer that no host operation writes is entered as launched. -/
theorem entered_of_unwritten (c : Dev nD) (b : Ref sig .tc)
    (h : (hostOps0 : List (HloOp τ sig (Elt F))).Forall fun op => Proc.devRef .tc b ∉ op.writes) :
    entered m c b = m ((c : Thread nD τ).loc b) :=
  StableHlo.after_of_forall_not_mem (b := Proc.devRef .tc b) _ _ (List.forall_iff_forall_mem.mp h)

/-- The four argument arrays are the result of no host operation. -/
theorem entered_arg0 (c : Dev nD) : entered m c main_arg0 = m ((c : Thread nD τ).loc main_arg0) :=
  entered_of_unwritten m c main_arg0 (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide))
theorem entered_arg1 (c : Dev nD) : entered m c main_arg1 = m ((c : Thread nD τ).loc main_arg1) :=
  entered_of_unwritten m c main_arg1 (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide))
theorem entered_arg2 (c : Dev nD) : entered m c main_arg2 = m ((c : Thread nD τ).loc main_arg2) :=
  entered_of_unwritten m c main_arg2 (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide))
theorem entered_arg3 (c : Dev nD) : entered m c main_arg3 = m ((c : Thread nD τ).loc main_arg3) :=
  entered_of_unwritten m c main_arg3 (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide))

/-! ## The blocks the body is handed -/

/-- Window `w`'s block at point `t`, read off the array the region is entered with. -/
def blockAt (c : Dev nD) (w : Fin cfg0.W) (t : Fin cfg0.N) :
    ((cfg0.win w).xblock (cfg0.grid.coords t)).Idx → Elt F (cfg0.win w).elt :=
  ((cfg0.win w).blk t).view.read (Elt F) (entered m c (Pipeline.arrRef spec0 w))

/-- An input window's staging buffer holds its block at every point, whether the pipeline fetched it there or
    not: the images' window is fetched at every point, and the four tables' index never moves, so what the first
    point fetched is still every later point's block. One statement per window (the block's index type is the
    window's own). -/
theorem before_in0_of {c : Dev nD} (dat : Dat τ (Elt F) Unit ℕ (UR sig nD τ) ℕ cfg0 c)
    (hA : dat.A 0 = entered m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)
theorem before_in1_of {c : Dev nD} (dat : Dat τ (Elt F) Unit ℕ (UR sig nD τ) ℕ cfg0 c)
    (hA : dat.A 1 = entered m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)
theorem before_in2_of {c : Dev nD} (dat : Dat τ (Elt F) Unit ℕ (UR sig nD τ) ℕ cfg0 c)
    (hA : dat.A 2 = entered m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl)
      (fun t => by rw [hafter]; unfold Dat.blockOf blockAt; rw [hA]; try rfl) t d).trans
    (by unfold Dat.fetched Dat.blockOf blockAt; rw [hA]; try rfl)
theorem before_in3_of {c : Dev nD} (dat : Dat τ (Elt F) Unit ℕ (UR sig nD τ) ℕ cfg0 c)
    (hA : dat.A 3 = entered m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl)
      (fun t => by rw [hafter]; unfold Dat.blockOf blockAt; rw [hA]; try rfl) t d).trans
    (by unfold Dat.fetched Dat.blockOf blockAt; rw [hA]; try rfl)
theorem before_in4_of {c : Dev nD} (dat : Dat τ (Elt F) Unit ℕ (UR sig nD τ) ℕ cfg0 c)
    (hA : dat.A 4 = entered m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl)
      (fun t => by rw [hafter]; unfold Dat.blockOf blockAt; rw [hA]; try rfl) t d).trans
    (by unfold Dat.fetched Dat.blockOf blockAt; rw [hA]; try rfl)

/-! ## What the body reads and what it stores -/

abbrev rImg : Rect S1024x784 := Rect.unit (s := S1024x784) ![0, 0] S1024x784.size inb_S1024x784_S1024x784_0_0
abbrev rMat : Rect S784x10 := Rect.unit (s := S784x10) ![0, 0] S784x10.size inb_S784x10_S784x10_0_0
abbrev rExtra : Rect S4x10 := Rect.unit (s := S4x10) ![0, 0] S4x10.size inb_S4x10_S4x10_0_0
abbrev rAng0 : Rect S1x2 := Rect.unit (s := S1x2) ![0, 0] S1x1.size inb_S1x2_S1x1_0_0
abbrev rAng1 : Rect S1x2 := Rect.unit (s := S1x2) ![0, 1] S1x1.size inb_S1x2_S1x1_0_1
abbrev rOut : Rect S1024x10 := Rect.unit (s := S1024x10) ![0, 0] S1024x10.size inb_S1024x10_S1024x10_0_0

/-- The one value the body stores, as a function of the five blocks it loads: the images, the two pixel-indexed
    matrices, the table of extra rows, the pair of angles. -/
def stored (x0 : Vec F S1024x784 .f32) (x1 x2 : Vec F S784x10 .f32) (x3 : Vec F S4x10 .f32) (x4 : Vec F S1x2 .f32) :
    FVec F S1024x10 .f32 :=
  k0_pay1 (k0_pay4 (View.ld x0 rImg) (View.ld x1 rMat) (View.ld x2 rMat)) (k0_pay7 (View.ld x0 rImg))
    (k0_pay9 (View.ld x0 rImg) (View.ld x4 rAng0) (View.ld x4 rAng1))
    (k0_pay10 (View.ld x0 rImg) (View.ld x4 rAng0) (View.ld x4 rAng1))
    (k0_pay11 (View.ld x0 rImg) (View.ld x4 rAng0) (View.ld x4 rAng1)) (View.ld x3 rExtra)

/-- The output block after the body: its one store, which overwrites the whole block. -/
def outBlock (x0 : Vec F S1024x784 .f32) (x1 x2 : Vec F S784x10 .f32) (x3 : Vec F S4x10 .f32) (x4 : Vec F S1x2 .f32) :
    Vec F S1024x10 .f32 :=
  View.canon [⟨rOut, stored x0 x1 x2 x3 x4⟩]

/-- The store's rectangle is the whole block. -/
theorem outBlock_cover (p0 : Vec F S1024x10 .f32) (y : S1024x10.Idx) :
    ∃ pc ∈ ([⟨rOut, p0⟩] : List (View.Piece (Elt F) S1024x10 .f32)), y ∈ pc.1.set :=
  View.cover_of_tiled [⟨rOut, p0⟩] S1024x10.size (by rfl) y

/-! ## The body's triple -/

set_option maxHeartbeats 2000000 in
/-- The body, run on whole staging buffers of which the five inputs' read `x0 … x4` and the output's holds
    anything, ends with the inputs' as they were and the output's at `outBlock`. -/
theorem body_run (c : Dev nD) (E : Set ℕ) (i : grid0.Coords)
    (arg1 : Memref sig .tc .vmem S1024x784 .f32) (harg1 : arg1.IsWhole)
    (arg2 : Memref sig .tc .vmem S784x10 .f32) (harg2 : arg2.IsWhole)
    (arg3 : Memref sig .tc .vmem S784x10 .f32) (harg3 : arg3.IsWhole)
    (arg4 : Memref sig .tc .vmem S4x10 .f32) (harg4 : arg4.IsWhole)
    (arg5 : Memref sig .tc .vmem S1x2 .f32) (harg5 : arg5.IsWhole)
    (arg6 : Memref sig .tc .vmem S1024x10 .f32) (harg6 : arg6.IsWhole)
    (x0 : Vec F S1024x784 .f32) (x1 x2 : Vec F S784x10 .f32) (x3 : Vec F S4x10 .f32) (x4 : Vec F S1x2 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__qnet_kernel i arg1 harg1 arg2 harg2 arg3 harg3 arg4 harg4 arg5 harg5 arg6 harg6) K := by
  simp only [cc0__qnet_kernel_eq_skeleton]; unfold cc0__qnet_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outBlock_cover _)

/-! ## The pipeline's proof data -/

/-- The block of each input at a point, by name. -/
abbrev imgAt (c : Dev nD) (t : Fin cfg0.N) : Vec F S1024x784 .f32 := blockAt m c 0 t
abbrev mat1At (c : Dev nD) (t : Fin cfg0.N) : Vec F S784x10 .f32 := blockAt m c 1 t
abbrev mat2At (c : Dev nD) (t : Fin cfg0.N) : Vec F S784x10 .f32 := blockAt m c 2 t
abbrev extraAt (c : Dev nD) (t : Fin cfg0.N) : Vec F S4x10 .f32 := blockAt m c 3 t
abbrev angAt (c : Dev nD) (t : Fin cfg0.N) : Vec F S1x2 .f32 := blockAt m c 4 t

/-- What the pipeline on core `c` is told: the arrays as the region is entered with them; after the body at
    point `t` each input's buffer still at its block and the output's at `outBlock` of the five blocks; the body
    touches nothing else, owes nothing, and holds every buffer whole. -/
def dats (_ : Fin 1) (c : Dev nD) : Dat τ (Elt F) Unit ℕ (UR sig nD τ) ℕ cfg0 c where
  A w := entered m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => outBlock (imgAt m c t) (mat1At m c t) (mat2At m c t) (extraAt m c t) (angAt m c t)
  Φ _ := Pipeline.ΦA spec0 c
  q _ := fullShare
  owed _ := 0

theorem dats_A (c : Dev nD) (w : Fin cfg0.W) : (dats m 0 c).A w = entered m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t
    = outBlock (imgAt m c t) (mat1At m c t) (mat2At m c t) (extraAt m c t) (angAt m c t) := by dsimp only [dats]

theorem before_0 (c : Dev nD) (t : Fin cfg0.N) (d) : (dats m 0 c).before 0 t d = blockAt m c 0 t :=
  before_in0_of m (dats m 0 c) (dats_A m c 0) (after_0 m c) t d
theorem before_1 (c : Dev nD) (t : Fin cfg0.N) (d) : (dats m 0 c).before 1 t d = blockAt m c 1 t :=
  before_in1_of m (dats m 0 c) (dats_A m c 1) (after_1 m c) t d
theorem before_2 (c : Dev nD) (t : Fin cfg0.N) (d) : (dats m 0 c).before 2 t d = blockAt m c 2 t :=
  before_in2_of m (dats m 0 c) (dats_A m c 2) (after_2 m c) t d
theorem before_3 (c : Dev nD) (t : Fin cfg0.N) (d) : (dats m 0 c).before 3 t d = blockAt m c 3 t :=
  before_in3_of m (dats m 0 c) (dats_A m c 3) (after_3 m c) t d
theorem before_4 (c : Dev nD) (t : Fin cfg0.N) (d) : (dats m 0 c).before 4 t d = blockAt m c 4 t :=
  before_in4_of m (dats m 0 c) (dats_A m c 4) (after_4 m c) t d

/-! ## The body at a point of the grid -/

/-- What the pipeline hands the body at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it takes back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- At any point the inputs' buffers hold their blocks, so the body's triple applies; what the body does not
    touch passes through. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_run c Set.univ _ _ _ _ _ _ _ _ _ _ _ _ _ (blockAt m c 0 t) (blockAt m c 1 t) (blockAt m c 2 t)
    (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's obligation on the body, at every point. -/
theorem body_obligation (c : Dev nD) :
    BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of the program terminates, and leaves every array of the pipeline at what the
    proof data computes and every other unscoped buffer as the region was entered with it. -/
theorem run_main : θ_run defs (onTc (τ := τ) (main (F := F))) (s₀ m ρ) (Pipeline.FramePost cfgs (dats m) 0 (entered m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entered m) (hmain := hmain m Variants.none) (hA := dats_A m) (hΦ := fun _ _ => rfl)

/-- The four argument arrays end as launched: the images' array is staged by the pipeline and only read; the
    weight table, the bias and the sampler's weights are staged by no window and written by no operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (entered_arg0 m c),
      ((h c).2 main_arg1 (Pipeline.mem_restRefs_of main_arg1 (by decide) (by decide))).trans (entered_arg1 m c),
      ((h c).2 main_arg2 (Pipeline.mem_restRefs_of main_arg2 (by decide) (by decide))).trans (entered_arg2 m c),
      ((h c).2 main_arg3 (Pipeline.mem_restRefs_of main_arg3 (by decide) (by decide))).trans (entered_arg3 m c)⟩)
    (run_main m ρ)

end Cert.Kernel.Hand

end
-- ==== Proof.KernelIdealRun.lean ====
import proofs.«421675_j65481071397824_3_alg».proof.Proof.Gen.KernelIdeal.Launch
import proofs.«421675_j65481071397824_3_alg».proof.Proof.Gen.KernelIdeal.Skeleton
import proofs.«421675_j65481071397824_3_alg».proof.Proof.Gen.KernelIdeal.Points
import Idealize.ShloMosaic.Lib.Pipeline.FrameBody
import Idealize.ShloMosaic.Lib.Ring
import Idealize.ShloMosaic.Lib.Tactic

/-!
# The run of the program: one region on a grid of 32 points

The program is 54 host operations (they cut the weight table into the two pixel-indexed
matrices, the 4×10 table of extra rows and the pair of summed angles) followed by one region whose
grid walks the batch in 32 blocks of 1024 rows. At each point the body reads the block of images,
the two 784×10 matrices, the 4×10 table and the 1×2 pair, and overwrites the whole 1024×10 output
block with one value computed from them. So after the run the output array is, block by block,
that value of the blocks the point was handed, and no argument array has been written.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the region is entered with -/

/-- What each buffer of core `c` holds once the host operations before the region have run. -/
abbrev entered (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations, then the region. -/
theorem hmain (𝒱₀ : Variants) :
    Pipeline.HMain (Ix := Unit) (Name := ℕ) (U := UR sig nD τ) (Lvl := ℕ) cfgs 0 defs₀ 𝒱₀ m (main (F := F)) (entered m) :=
  Pipeline.hmain_prefix cfgs 0 defs₀ 𝒱₀ m main hostOps0 hostOps0_sub hostOps0_fresh main_chain

/-- A buffer that no host operation writes is entered as launched. -/
theorem entered_of_unwritten (c : Dev nD) (b : Ref sig .tc)
    (h : (hostOps0 : List (HloOp τ sig (Elt F))).Forall fun op => Proc.devRef .tc b ∉ op.writes) :
    entered m c b = m ((c : Thread nD τ).loc b) :=
  StableHlo.after_of_forall_not_mem (b := Proc.devRef .tc b) _ _ (List.forall_iff_forall_mem.mp h)

/-- The four argument arrays are the result of no host operation. -/
theorem entered_arg0 (c : Dev nD) : entered m c main_arg0 = m ((c : Thread nD τ).loc main_arg0) :=
  entered_of_unwritten m c main_arg0 (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide))
theorem entered_arg1 (c : Dev nD) : entered m c main_arg1 = m ((c : Thread nD τ).loc main_arg1) :=
  entered_of_unwritten m c main_arg1 (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide))
theorem entered_arg2 (c : Dev nD) : entered m c main_arg2 = m ((c : Thread nD τ).loc main_arg2) :=
  entered_of_unwritten m c main_arg2 (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide))
theorem entered_arg3 (c : Dev nD) : entered m c main_arg3 = m ((c : Thread nD τ).loc main_arg3) :=
  entered_of_unwritten m c main_arg3 (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide))

/-! ## The blocks the body is handed -/

/-- Window `w`'s block at point `t`, read off the array the region is entered with. -/
def blockAt (c : Dev nD) (w : Fin cfg0.W) (t : Fin cfg0.N) :
    ((cfg0.win w).xblock (cfg0.grid.coords t)).Idx → Elt F (cfg0.win w).elt :=
  ((cfg0.win w).blk t).view.read (Elt F) (entered m c (Pipeline.arrRef spec0 w))

/-- An input window's staging buffer holds its block at every point, whether the pipeline fetched it there or
    not: the images' window is fetched at every point, and the four tables' index never moves, so what the first
    point fetched is still every later point's block. One statement per window (the block's index type is the
    window's own). -/
theorem before_in0_of {c : Dev nD} (dat : Dat τ (Elt F) Unit ℕ (UR sig nD τ) ℕ cfg0 c)
    (hA : dat.A 0 = entered m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)
theorem before_in1_of {c : Dev nD} (dat : Dat τ (Elt F) Unit ℕ (UR sig nD τ) ℕ cfg0 c)
    (hA : dat.A 1 = entered m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)
theorem before_in2_of {c : Dev nD} (dat : Dat τ (Elt F) Unit ℕ (UR sig nD τ) ℕ cfg0 c)
    (hA : dat.A 2 = entered m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl)
      (fun t => by rw [hafter]; unfold Dat.blockOf blockAt; rw [hA]; try rfl) t d).trans
    (by unfold Dat.fetched Dat.blockOf blockAt; rw [hA]; try rfl)
theorem before_in3_of {c : Dev nD} (dat : Dat τ (Elt F) Unit ℕ (UR sig nD τ) ℕ cfg0 c)
    (hA : dat.A 3 = entered m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl)
      (fun t => by rw [hafter]; unfold Dat.blockOf blockAt; rw [hA]; try rfl) t d).trans
    (by unfold Dat.fetched Dat.blockOf blockAt; rw [hA]; try rfl)
theorem before_in4_of {c : Dev nD} (dat : Dat τ (Elt F) Unit ℕ (UR sig nD τ) ℕ cfg0 c)
    (hA : dat.A 4 = entered m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl)
      (fun t => by rw [hafter]; unfold Dat.blockOf blockAt; rw [hA]; try rfl) t d).trans
    (by unfold Dat.fetched Dat.blockOf blockAt; rw [hA]; try rfl)

/-! ## What the body reads and what it stores -/

abbrev rImg : Rect S1024x784 := Rect.unit (s := S1024x784) ![0, 0] S1024x784.size inb_S1024x784_S1024x784_0_0
abbrev rMat : Rect S784x10 := Rect.unit (s := S784x10) ![0, 0] S784x10.size inb_S784x10_S784x10_0_0
abbrev rExtra : Rect S4x10 := Rect.unit (s := S4x10) ![0, 0] S4x10.size inb_S4x10_S4x10_0_0
abbrev rAng0 : Rect S1x2 := Rect.unit (s := S1x2) ![0, 0] S1x1.size inb_S1x2_S1x1_0_0
abbrev rAng1 : Rect S1x2 := Rect.unit (s := S1x2) ![0, 1] S1x1.size inb_S1x2_S1x1_0_1
abbrev rOut : Rect S1024x10 := Rect.unit (s := S1024x10) ![0, 0] S1024x10.size inb_S1024x10_S1024x10_0_0

/-- The one value the body stores, as a function of the five blocks it loads: the images, the two pixel-indexed
    matrices, the table of extra rows, the pair of angles. -/
def stored (x0 : Vec F S1024x784 .f32) (x1 x2 : Vec F S784x10 .f32) (x3 : Vec F S4x10 .f32) (x4 : Vec F S1x2 .f32) :
    FVec F S1024x10 .f32 :=
  k0_pay1 (k0_pay4 (View.ld x0 rImg) (View.ld x1 rMat) (View.ld x2 rMat)) (k0_pay7 (View.ld x0 rImg))
    (k0_pay9 (View.ld x0 rImg) (View.ld x4 rAng0) (View.ld x4 rAng1))
    (k0_pay10 (View.ld x0 rImg) (View.ld x4 rAng0) (View.ld x4 rAng1))
    (k0_pay11 (View.ld x0 rImg) (View.ld x4 rAng0) (View.ld x4 rAng1)) (View.ld x3 rExtra)

/-- The output block after the body: its one store, which overwrites the whole block. -/
def outBlock (x0 : Vec F S1024x784 .f32) (x1 x2 : Vec F S784x10 .f32) (x3 : Vec F S4x10 .f32) (x4 : Vec F S1x2 .f32) :
    Vec F S1024x10 .f32 :=
  View.canon [⟨rOut, stored x0 x1 x2 x3 x4⟩]

/-- The store's rectangle is the whole block. -/
theorem outBlock_cover (p0 : Vec F S1024x10 .f32) (y : S1024x10.Idx) :
    ∃ pc ∈ ([⟨rOut, p0⟩] : List (View.Piece (Elt F) S1024x10 .f32)), y ∈ pc.1.set :=
  View.cover_of_tiled [⟨rOut, p0⟩] S1024x10.size (by rfl) y

/-! ## The body's triple -/

set_option maxHeartbeats 2000000 in
/-- The body, run on whole staging buffers of which the five inputs' read `x0 … x4` and the output's holds
    anything, ends with the inputs' as they were and the output's at `outBlock`. -/
theorem body_run (c : Dev nD) (E : Set ℕ) (i : grid0.Coords)
    (arg1 : Memref sig .tc .vmem S1024x784 .f32) (harg1 : arg1.IsWhole)
    (arg2 : Memref sig .tc .vmem S784x10 .f32) (harg2 : arg2.IsWhole)
    (arg3 : Memref sig .tc .vmem S784x10 .f32) (harg3 : arg3.IsWhole)
    (arg4 : Memref sig .tc .vmem S4x10 .f32) (harg4 : arg4.IsWhole)
    (arg5 : Memref sig .tc .vmem S1x2 .f32) (harg5 : arg5.IsWhole)
    (arg6 : Memref sig .tc .vmem S1024x10 .f32) (harg6 : arg6.IsWhole)
    (x0 : Vec F S1024x784 .f32) (x1 x2 : Vec F S784x10 .f32) (x3 : Vec F S4x10 .f32) (x4 : Vec F S1x2 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__qnet_kernel i arg1 harg1 arg2 harg2 arg3 harg3 arg4 harg4 arg5 harg5 arg6 harg6) K := by
  simp only [cc0__qnet_kernel_eq_skeleton]; unfold cc0__qnet_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outBlock_cover _)

/-! ## The pipeline's proof data -/

/-- The block of each input at a point, by name. -/
abbrev imgAt (c : Dev nD) (t : Fin cfg0.N) : Vec F S1024x784 .f32 := blockAt m c 0 t
abbrev mat1At (c : Dev nD) (t : Fin cfg0.N) : Vec F S784x10 .f32 := blockAt m c 1 t
abbrev mat2At (c : Dev nD) (t : Fin cfg0.N) : Vec F S784x10 .f32 := blockAt m c 2 t
abbrev extraAt (c : Dev nD) (t : Fin cfg0.N) : Vec F S4x10 .f32 := blockAt m c 3 t
abbrev angAt (c : Dev nD) (t : Fin cfg0.N) : Vec F S1x2 .f32 := blockAt m c 4 t

/-- What the pipeline on core `c` is told: the arrays as the region is entered with them; after the body at
    point `t` each input's buffer still at its block and the output's at `outBlock` of the five blocks; the body
    touches nothing else, owes nothing, and holds every buffer whole. -/
def dats (_ : Fin 1) (c : Dev nD) : Dat τ (Elt F) Unit ℕ (UR sig nD τ) ℕ cfg0 c where
  A w := entered m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => outBlock (imgAt m c t) (mat1At m c t) (mat2At m c t) (extraAt m c t) (angAt m c t)
  Φ _ := Pipeline.ΦA spec0 c
  q _ := fullShare
  owed _ := 0

theorem dats_A (c : Dev nD) (w : Fin cfg0.W) : (dats m 0 c).A w = entered m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t
    = outBlock (imgAt m c t) (mat1At m c t) (mat2At m c t) (extraAt m c t) (angAt m c t) := by dsimp only [dats]

theorem before_0 (c : Dev nD) (t : Fin cfg0.N) (d) : (dats m 0 c).before 0 t d = blockAt m c 0 t :=
  before_in0_of m (dats m 0 c) (dats_A m c 0) (after_0 m c) t d
theorem before_1 (c : Dev nD) (t : Fin cfg0.N) (d) : (dats m 0 c).before 1 t d = blockAt m c 1 t :=
  before_in1_of m (dats m 0 c) (dats_A m c 1) (after_1 m c) t d
theorem before_2 (c : Dev nD) (t : Fin cfg0.N) (d) : (dats m 0 c).before 2 t d = blockAt m c 2 t :=
  before_in2_of m (dats m 0 c) (dats_A m c 2) (after_2 m c) t d
theorem before_3 (c : Dev nD) (t : Fin cfg0.N) (d) : (dats m 0 c).before 3 t d = blockAt m c 3 t :=
  before_in3_of m (dats m 0 c) (dats_A m c 3) (after_3 m c) t d
theorem before_4 (c : Dev nD) (t : Fin cfg0.N) (d) : (dats m 0 c).before 4 t d = blockAt m c 4 t :=
  before_in4_of m (dats m 0 c) (dats_A m c 4) (after_4 m c) t d

/-! ## The body at a point of the grid -/

/-- What the pipeline hands the body at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it takes back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- At any point the inputs' buffers hold their blocks, so the body's triple applies; what the body does not
    touch passes through. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_run c Set.univ _ _ _ _ _ _ _ _ _ _ _ _ _ (blockAt m c 0 t) (blockAt m c 1 t) (blockAt m c 2 t)
    (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's obligation on the body, at every point. -/
theorem body_obligation (c : Dev nD) :
    BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of the program terminates, and leaves every array of the pipeline at what the
    proof data computes and every other unscoped buffer as the region was entered with it. -/
theorem run_main : θ_run defs (onTc (τ := τ) (main (F := F))) (s₀ m ρ) (Pipeline.FramePost cfgs (dats m) 0 (entered m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entered m) (hmain := hmain m Variants.none) (hA := dats_A m) (hΦ := fun _ _ => rfl)

/-- The four argument arrays end as launched: the images' array is staged by the pipeline and only read; the
    weight table, the bias and the sampler's weights are staged by no window and written by no operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (entered_arg0 m c),
      ((h c).2 main_arg1 (Pipeline.mem_restRefs_of main_arg1 (by decide) (by decide))).trans (entered_arg1 m c),
      ((h c).2 main_arg2 (Pipeline.mem_restRefs_of main_arg2 (by decide) (by decide))).trans (entered_arg2 m c),
      ((h c).2 main_arg3 (Pipeline.mem_restRefs_of main_arg3 (by decide) (by decide))).trans (entered_arg3 m c)⟩)
    (run_main m ρ)

end Cert.KernelIdeal.Hand

end
-- ==== Proof.Spec.lean ====
import Idealize.ShloMosaic.PureOps.Ideal
import Idealize.ShloMosaic.Lib.ValueIdx

/-!
# What both programs compute, row by row

An image is 28 × 28 pixels, read row-major as 784 numbers. Write `c m = cos (pixel m)` and
`d m = c m · c (m + 1)`. The image is cut into 14 × 14 patches of 2 × 2 pixels; patch `(i, j)` has the
four features `c (56 i + 2 j)`, `d (56 i + 2 j)`, `c (56 i + 28 + 2 j)`, `d (56 i + 28 + 2 j)`: the cosine of
its top-left pixel, that times the cosine of the top-right one, and the same for the bottom row. The 784
features, one number `q` computed from the first four and two numbers computed from the first two and the four
sampler weights are the 787 entries of a row that is multiplied by the 787 × 10 weight table; the bias is added and
the row of ten logits is normalised by `log_softmax`.

One program forms the 787-entry row and takes one product with the table. The other never forms it: it scatters
the table's first 784 rows to pixel positions (row `4 (14 i + j) + 2 a` to pixel `28 (2 i + a) + 2 j` in one
matrix, row `4 (14 i + j) + 2 a + 1` to the same pixel in a second, zero at every odd column), and adds the
products of `c` with the first matrix and of `d` with the second to the three remaining terms.

Everything here is over the extended reals; the four numerals are kept as the words the programs print.
-/

noncomputable section

namespace Cert.Spec

open Idealize.ShloMosaic Idealize.ShloMosaic.ValueIdx

abbrev SX : Shape := ⟨4, ![32768, 1, 28, 28]⟩
abbrev SLW : Shape := ⟨2, ![787, 10]⟩
abbrev SB : Shape := ⟨1, ![10]⟩
abbrev SSW : Shape := ⟨1, ![4]⟩

/-- The words the programs print: minus infinity, zero, a quarter, four. -/
abbrev negInf : EReal := Ideal.ofBits .f32 0xFF800000#32
abbrev zeroW : EReal := Ideal.ofBits .f32 0x00000000#32
abbrev quarter : EReal := Ideal.ofBits .f32 0x3E800000#32
abbrev four : EReal := Ideal.ofBits .f32 0x40800000#32

/-- `log_softmax` of a row of ten: subtract the row's maximum (taken from minus infinity, and once more against
    minus infinity), then subtract the logarithm of the sum of the exponentials. -/
def logSoftmaxRow (z : Fin 10 → EReal) (j : Fin 10) : EReal :=
  (z j - max negInf (Finset.univ.fold max negInf z))
    - Ideal.log (∑ k : Fin 10, Ideal.exp (z k - max negInf (Finset.univ.fold max negInf z)))

/-! ## A row of logits from pixel-indexed matrices -/

/-- The pixel after `mm`, cyclically. -/
def nextPix (mm : Fin 784) : Fin 784 := ⟨(mm.val + 1) % 784, Nat.mod_lt _ (by norm_num)⟩

/-- Pixel 28: the first pixel of the second row. -/
def pix28 : Fin 784 := ⟨28, by norm_num⟩

section Row

variable (xr : Fin 784 → EReal) (A1 A2 : Fin 784 → Fin 10 → EReal) (E : Fin 4 → Fin 10 → EReal) (ang : Fin 2 → EReal)

/-- `c m`: the cosine of pixel `m`. -/
def cosPix (mm : Fin 784) : EReal := Ideal.cos (xr mm)

/-- `d m = c m · c (m + 1)`. -/
def cosPair (mm : Fin 784) : EReal := cosPix xr mm * cosPix xr (nextPix mm)

/-- Four times `q`, from the first patch's four features `f₀ … f₃`:
    `cos f₀ + cos f₀ cos f₁ + cos f₂ + cos f₂ cos f₃`. -/
def qSum (f0 f1 f2 f3 : EReal) : EReal :=
  ((Ideal.cos f0 + Ideal.cos f0 * Ideal.cos f1) + Ideal.cos f2) + Ideal.cos f2 * Ideal.cos f3

/-- The sampler's first number from the first feature and its angle, -/
def samp0 (f0 a0 : EReal) : EReal := Ideal.cos (f0 + a0)
/-- and its second from that, the second feature and its angle. -/
def samp1 (f0 a0 f1 a1 : EReal) : EReal := samp0 f0 a0 * Ideal.cos (f1 + a1)

/-- The row of ten logits from the image's pixels, two pixel-indexed 784 × 10 matrices, a 4 × 10 table of extra
    rows (`q`'s, the sampler's two, the bias) and the two summed angles: the softmax of the sampler's pair is
    taken by subtracting the larger of the two. -/
def rowLogit (j : Fin 10) : EReal :=
  let z0 := samp0 (cosPix xr 0) (ang 0)
  let z1 := samp1 (cosPix xr 0) (ang 0) (cosPair xr 0) (ang 1)
  let e0 := Ideal.exp (z0 - max z0 z1)
  let e1 := Ideal.exp (z1 - max z0 z1)
  (((((∑ mm : Fin 784, cosPix xr mm * A1 mm j) + (∑ mm : Fin 784, cosPair xr mm * A2 mm j))
      + (qSum (cosPix xr 0) (cosPair xr 0) (cosPix xr pix28) (cosPair xr pix28) * quarter) * E 0 j)
      + Ideal.div e0 (e0 + e1) * E 1 j) + Ideal.div e1 (e0 + e1) * E 2 j) + E 3 j

end Row

/-! ## The two programs' logits as functions of the four argument arrays -/

section Arrays

variable (X : SX.Idx → EReal) (LW : SLW.Idx → EReal) (BIAS : SB.Idx → EReal) (SW : SSW.Idx → EReal)

/-- Pixel `mm` of image `b`. -/
def pixRow (b : Fin 32768) (mm : Fin 784) : EReal :=
  X (ix4 b (0 : Fin 1) (⟨mm.val / 28, by have := mm.isLt; omega⟩ : Fin 28) (⟨mm.val % 28, Nat.mod_lt _ (by norm_num)⟩ : Fin 28))

/-- Row `k` of the weight table. -/
def lwRow (k : ℕ) (hk : k < 787) (j : Fin 10) : EReal := LW (ix2 (⟨k, hk⟩ : Fin 787) j)

/-- The table row that pixel `mm`, in an even column, carries in the first matrix. -/
def featRow (mm : Fin 784) : ℕ := 4 * (14 * (mm.val / 56) + mm.val % 28 / 2) + 2 * (mm.val / 28 % 2)

theorem featRow_lt (mm : Fin 784) : featRow mm + 1 < 787 := by
  unfold featRow; have := mm.isLt; omega

/-- The first pixel-indexed matrix: the cosine features' rows at the even columns, zero at the odd ones; -/
def W1 (mm : Fin 784) (j : Fin 10) : EReal :=
  if mm.val % 2 = 0 then lwRow LW (featRow mm) (by have := featRow_lt mm; omega) j else zeroW

/-- the second: the product features' rows. -/
def W2 (mm : Fin 784) (j : Fin 10) : EReal :=
  if mm.val % 2 = 0 then lwRow LW (featRow mm + 1) (featRow_lt mm) j else zeroW

/-- The table of extra rows: the table's last three rows and the bias. -/
def extra (r : Fin 4) (j : Fin 10) : EReal :=
  match r with
  | 0 => lwRow LW 784 (by norm_num) j
  | 1 => lwRow LW 785 (by norm_num) j
  | 2 => lwRow LW 786 (by norm_num) j
  | 3 => BIAS (ix1 j)

/-- The two summed angles. -/
def angs (e : Fin 2) : EReal :=
  match e with
  | 0 => SW (ix1 (0 : Fin 4)) + SW (ix1 (2 : Fin 4))
  | 1 => SW (ix1 (1 : Fin 4)) + SW (ix1 (3 : Fin 4))

/-- The logits of image `b` by the pixel-indexed matrices. -/
def kLogit (b : Fin 32768) (j : Fin 10) : EReal :=
  rowLogit (pixRow X b) (W1 LW) (W2 LW) (extra LW BIAS) (angs SW) j

/-- The left pixel, in pixel row `k % 4 / 2` of its patch, that feature `k` reads. -/
def featPix (k : Fin 784) : ℕ := (2 * (k.val / 4 / 14) + k.val % 4 / 2) * 28 + 2 * (k.val / 4 % 14)

theorem featPix_lt (k : Fin 784) : featPix k + 1 < 784 := by
  unfold featPix; have := k.isLt; omega

/-- Feature `k` of image `b`: an even one is the cosine of its pixel, an odd one that times the cosine of the
    pixel to its right. -/
def qfeat (b : Fin 32768) (k : Fin 784) : EReal :=
  if k.val % 2 = 0 then cosPix (pixRow X b) ⟨featPix k, by have := featPix_lt k; omega⟩
  else cosPix (pixRow X b) ⟨featPix k, by have := featPix_lt k; omega⟩ * cosPix (pixRow X b) ⟨featPix k + 1, featPix_lt k⟩

/-- The sampler's pair for image `b`: the angles are added one after the other. -/
def sampPair (b : Fin 32768) : Fin 2 → EReal :=
  ![samp0 (qfeat X b 0 + SW (ix1 (0 : Fin 4))) (SW (ix1 (2 : Fin 4))),
    samp1 (qfeat X b 0 + SW (ix1 (0 : Fin 4))) (SW (ix1 (2 : Fin 4))) (qfeat X b 1 + SW (ix1 (1 : Fin 4))) (SW (ix1 (3 : Fin 4)))]

/-- Its softmax: the maximum is folded from minus infinity and taken once more against it, the sum starts from
    the zero word. -/
def softPair (b : Fin 32768) (e : Fin 2) : EReal :=
  Ideal.div (Ideal.exp (sampPair X SW b e - max negInf (Finset.univ.fold max negInf (sampPair X SW b))))
    (zeroW + ∑ k : Fin 2, Ideal.exp (sampPair X SW b k - max negInf (Finset.univ.fold max negInf (sampPair X SW b))))

/-- The 787-entry row of image `b`: the features, `q`, the sampler's two. -/
def comb (b : Fin 32768) (k : Fin 787) : EReal :=
  if h : k.val < 784 then qfeat X b ⟨k.val, h⟩
  else if k.val = 784 then Ideal.div (qSum (qfeat X b 0) (qfeat X b 1) (qfeat X b 2) (qfeat X b 3)) four
  else softPair X SW b ⟨k.val - 785, by have := k.isLt; omega⟩

/-- The logits of image `b` by the one product with the weight table. -/
def rLogit (b : Fin 32768) (j : Fin 10) : EReal :=
  (∑ k : Fin 787, comb X SW b k * LW (ix2 k j)) + BIAS (ix1 j)

end Arrays

end Cert.Spec

end
-- ==== Proof.KernelPayload.lean ====
import proofs.«421675_j65481071397824_3_alg».proof.Proof.Gen.KernelIdeal.Skeleton
import proofs.«421675_j65481071397824_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

/-! # The value the body stores, read at an entry -/

noncomputable section

namespace Cert.KernelIdeal.Payload

open Cert.KernelIdeal Cert.KernelIdeal.Gen
open Idealize.ShloMosaic Idealize.ShloMosaic.ValueIdx

/-- The cosine block: entry (p, m) is the cosine of the pixel. -/
theorem pay2_apply (v0 : Vec Ideal S1024x784 .f32) (p : Fin 1024) (mm : Fin 784) :
    k0_pay2 (F := Ideal) v0 (ix2 p mm) = Ideal.cos (v0 (ix2 p mm)) := by
  unfold k0_pay2
  show Ideal.cos (shapeCast S1024x784 v0 shapeCasts_S1024x784_S1024x784 (ix2 p mm)) = _
  rw [shapeCast_self]

/-- The pair block: entry (p, m) is the cosine of pixel m times the cosine of the next pixel, cyclically. -/
theorem pay3_apply (v0 : Vec Ideal S1024x784 .f32) (p : Fin 1024) (mm : Fin 784) :
    k0_pay3 (F := Ideal) v0 (ix2 p mm)
      = Ideal.cos (v0 (ix2 p mm)) * Ideal.cos (v0 (ix2 p (Cert.Spec.nextPix mm))) := by
  unfold k0_pay3
  show k0_pay2 v0 (ix2 p mm) * dynamicRotate 1 783#32 none (k0_pay2 v0) rotates_S1024x784_d1 (ix2 p mm) = _
  rw [dynamicRotate_apply (1 : Fin 2) 783#32 (k0_pay2 v0) rotates_S1024x784_d1 (ix2 p mm)
    (ix2 p (Cert.Spec.nextPix mm)) (by
      intro b
      match b with
      | ⟨0, _⟩ => rfl
      | ⟨1, _⟩ =>
        show (mm.val + 1) % 784 = (mm.val + 784 - 783 % 784) % 784
        omega)]
  rw [pay2_apply, pay2_apply]

/-- Column 0 of the cosine block. -/
theorem pay5_apply (v0 : Vec Ideal S1024x784 .f32) (p : Fin 1024) :
    k0_pay5 (F := Ideal) v0 (ix2 p (0 : Fin 1)) = Ideal.cos (v0 (ix2 p (0 : Fin 784))) := by
  unfold k0_pay5
  rw [slice2_axis1_apply 0 (k0_pay2 v0) slices_S1024x784_o0_0_S1024x1 p (0 : Fin 1) (0 : Fin 784) rfl, pay2_apply]

/-- Column 0 of the pair block. -/
theorem pay6_apply (v0 : Vec Ideal S1024x784 .f32) (p : Fin 1024) :
    k0_pay6 (F := Ideal) v0 (ix2 p (0 : Fin 1))
      = Ideal.cos (v0 (ix2 p (0 : Fin 784))) * Ideal.cos (v0 (ix2 p (Cert.Spec.nextPix 0))) := by
  unfold k0_pay6
  rw [slice2_axis1_apply 0 (k0_pay3 v0) slices_S1024x784_o0_0_S1024x1 p (0 : Fin 1) (0 : Fin 784) rfl, pay3_apply]

/-- The first patch's number: a quarter of the sum of its four features' cosines and pair products. -/
theorem pay7_apply (v0 : Vec Ideal S1024x784 .f32) (p : Fin 1024) :
    k0_pay7 (F := Ideal) v0 (ix2 p (0 : Fin 1))
      = Cert.Spec.qSum (Cert.Spec.cosPix (fun mm => v0 (ix2 p mm)) 0) (Cert.Spec.cosPair (fun mm => v0 (ix2 p mm)) 0)
          (Cert.Spec.cosPix (fun mm => v0 (ix2 p mm)) Cert.Spec.pix28)
          (Cert.Spec.cosPair (fun mm => v0 (ix2 p mm)) Cert.Spec.pix28) * Cert.Spec.quarter := by
  unfold k0_pay7
  show (((Ideal.cos (k0_pay5 v0 (ix2 p (0 : Fin 1)))
        + Ideal.cos (k0_pay5 v0 (ix2 p (0 : Fin 1))) * Ideal.cos (k0_pay6 v0 (ix2 p (0 : Fin 1))))
        + Ideal.cos (extractStridedSlice S1024x1 ![0, 28] (k0_pay2 v0) slices_S1024x784_o0_28_S1024x1 (ix2 p (0 : Fin 1))))
        + Ideal.cos (extractStridedSlice S1024x1 ![0, 28] (k0_pay2 v0) slices_S1024x784_o0_28_S1024x1 (ix2 p (0 : Fin 1)))
          * Ideal.cos (extractStridedSlice S1024x1 ![0, 28] (k0_pay3 v0) slices_S1024x784_o0_28_S1024x1 (ix2 p (0 : Fin 1))))
        * Cert.Spec.quarter = _
  rw [pay5_apply, pay6_apply,
    slice2_axis1_apply 28 (k0_pay2 v0) slices_S1024x784_o0_28_S1024x1 p (0 : Fin 1) Cert.Spec.pix28 rfl,
    slice2_axis1_apply 28 (k0_pay3 v0) slices_S1024x784_o0_28_S1024x1 p (0 : Fin 1) Cert.Spec.pix28 rfl,
    pay2_apply, pay3_apply]
  rfl

/-- The one entry of a 1 × 1 block, spread down a column. -/
theorem bcast_11_apply (v : Vec Ideal S1x1 .f32) (p : Fin 1024) :
    broadcastTo S1024x1 (shapeCast S1x1 v shapeCasts_S1x1_S1x1) broadcasts_S1x1_S1024x1 (ix2 p (0 : Fin 1))
      = v (ix2 (0 : Fin 1) (0 : Fin 1)) := by
  rw [shapeCast_self]
  refine broadcastTo_apply v broadcasts_S1x1_S1024x1 (ix2 p (0 : Fin 1)) (ix2 (0 : Fin 1) (0 : Fin 1)) fun ax => ?_
  match ax with
  | ⟨0, _⟩ => rfl
  | ⟨1, _⟩ => rfl

/-- The sampler's first number. -/
theorem pay8_apply (v0 : Vec Ideal S1024x784 .f32) (v31 : Vec Ideal S1x1 .f32) (p : Fin 1024) :
    k0_pay8 (F := Ideal) v0 v31 (ix2 p (0 : Fin 1))
      = Cert.Spec.samp0 (Cert.Spec.cosPix (fun mm => v0 (ix2 p mm)) 0) (v31 (ix2 (0 : Fin 1) (0 : Fin 1))) := by
  unfold k0_pay8
  show Ideal.cos (k0_pay5 v0 (ix2 p (0 : Fin 1))
      + broadcastTo S1024x1 (shapeCast S1x1 v31 shapeCasts_S1x1_S1x1) broadcasts_S1x1_S1024x1 (ix2 p (0 : Fin 1))) = _
  rw [pay5_apply, bcast_11_apply]
  rfl

/-- The sampler's second number. -/
theorem pay9_apply (v0 : Vec Ideal S1024x784 .f32) (v31 v33 : Vec Ideal S1x1 .f32) (p : Fin 1024) :
    k0_pay9 (F := Ideal) v0 v31 v33 (ix2 p (0 : Fin 1))
      = Cert.Spec.samp1 (Cert.Spec.cosPix (fun mm => v0 (ix2 p mm)) 0) (v31 (ix2 (0 : Fin 1) (0 : Fin 1)))
          (Cert.Spec.cosPair (fun mm => v0 (ix2 p mm)) 0) (v33 (ix2 (0 : Fin 1) (0 : Fin 1))) := by
  unfold k0_pay9
  show k0_pay8 v0 v31 (ix2 p (0 : Fin 1)) * Ideal.cos (k0_pay6 v0 (ix2 p (0 : Fin 1))
      + broadcastTo S1024x1 (shapeCast S1x1 v33 shapeCasts_S1x1_S1x1) broadcasts_S1x1_S1024x1 (ix2 p (0 : Fin 1))) = _
  rw [pay8_apply, pay6_apply, bcast_11_apply]
  rfl

/-- The larger of the sampler's two numbers. -/
theorem pay10_apply (v0 : Vec Ideal S1024x784 .f32) (v31 v33 : Vec Ideal S1x1 .f32) (p : Fin 1024) :
    k0_pay10 (F := Ideal) v0 v31 v33 (ix2 p (0 : Fin 1))
      = max (k0_pay8 (F := Ideal) v0 v31 (ix2 p (0 : Fin 1))) (k0_pay9 (F := Ideal) v0 v31 v33 (ix2 p (0 : Fin 1))) := rfl

/-- The exponential of the first number less the larger. -/
theorem pay11_apply (v0 : Vec Ideal S1024x784 .f32) (v31 v33 : Vec Ideal S1x1 .f32) (p : Fin 1024) :
    k0_pay11 (F := Ideal) v0 v31 v33 (ix2 p (0 : Fin 1))
      = Ideal.exp (k0_pay8 (F := Ideal) v0 v31 (ix2 p (0 : Fin 1)) - k0_pay10 (F := Ideal) v0 v31 v33 (ix2 p (0 : Fin 1))) := rfl

/-! ## The product with a 784 × 10 matrix, read at an entry -/

/-- The product contracts one axis, -/
theorem dot_contr_rank : dot_S1024x784_S784x10_S1024x10_1_0_0_1_n_n.contr.rank = 1 := rfl

/-- of 784 coordinates. -/
theorem dot_contr_size :
    dot_S1024x784_S784x10_S1024x10_1_0_0_1_n_n.contr.size ⟨0, by rw [dot_contr_rank]; exact Nat.one_pos⟩ = 784 := rfl

/-- Left operand, row coordinate: the output's row. -/
theorem dot_lhs_0 (j : S1024x10.Idx) (k : dot_S1024x784_S784x10_S1024x10_1_0_0_1_n_n.contr.Idx) :
    (dot_S1024x784_S784x10_S1024x10_1_0_0_1_n_n.lhsIdx j k 0).val = (j 0).val := rfl

/-- Left operand, column coordinate: the contraction coordinate. -/
theorem dot_lhs_1 (j : S1024x10.Idx) (k : dot_S1024x784_S784x10_S1024x10_1_0_0_1_n_n.contr.Idx) :
    (dot_S1024x784_S784x10_S1024x10_1_0_0_1_n_n.lhsIdx j k 1).val
      = (k ⟨0, by rw [dot_contr_rank]; exact Nat.one_pos⟩).val := rfl

/-- Right operand, row coordinate: the contraction coordinate. -/
theorem dot_rhs_0 (j : S1024x10.Idx) (k : dot_S1024x784_S784x10_S1024x10_1_0_0_1_n_n.contr.Idx) :
    (dot_S1024x784_S784x10_S1024x10_1_0_0_1_n_n.rhsIdx j k 0).val
      = (k ⟨0, by rw [dot_contr_rank]; exact Nat.one_pos⟩).val := rfl

/-- Right operand, column coordinate: the output's column. -/
theorem dot_rhs_1 (j : S1024x10.Idx) (k : dot_S1024x784_S784x10_S1024x10_1_0_0_1_n_n.contr.Idx) :
    (dot_S1024x784_S784x10_S1024x10_1_0_0_1_n_n.rhsIdx j k 1).val = (j 1).val := rfl

/-- Through the bijection of the contraction index with its one coordinate the left operand is read at (p, m), -/
theorem dot_lhs_ix2 (p : Fin 1024) (j : Fin 10) (mm : Fin 784) :
    dot_S1024x784_S784x10_S1024x10_1_0_0_1_n_n.lhsIdx (ix2 p j)
        ((contrEquiv1 dot_S1024x784_S784x10_S1024x10_1_0_0_1_n_n 784 dot_contr_rank dot_contr_size).symm mm)
      = ix2 p mm := by
  funext a
  match a with
  | ⟨0, _⟩ => exact Fin.ext (dot_lhs_0 _ _)
  | ⟨1, _⟩ =>
    exact Fin.ext ((dot_lhs_1 _ _).trans
      (contrEquiv1_symm_val dot_S1024x784_S784x10_S1024x10_1_0_0_1_n_n 784 dot_contr_rank dot_contr_size mm))

/-- and the right operand at (m, j). -/
theorem dot_rhs_ix2 (p : Fin 1024) (j : Fin 10) (mm : Fin 784) :
    dot_S1024x784_S784x10_S1024x10_1_0_0_1_n_n.rhsIdx (ix2 p j)
        ((contrEquiv1 dot_S1024x784_S784x10_S1024x10_1_0_0_1_n_n 784 dot_contr_rank dot_contr_size).symm mm)
      = ix2 mm j := by
  funext a
  match a with
  | ⟨0, _⟩ =>
    exact Fin.ext ((dot_rhs_0 _ _).trans
      (contrEquiv1_symm_val dot_S1024x784_S784x10_S1024x10_1_0_0_1_n_n 784 dot_contr_rank dot_contr_size mm))
  | ⟨1, _⟩ => exact Fin.ext (dot_rhs_1 _ _)

/-- A 1024 × 784 block times a 784 × 10 matrix into the zero block: entry (p, j) is the sum over m of the products. -/
theorem matmul_zero_apply {φ₁ φ₂ : FTy} (a : FVec Ideal S1024x784 φ₁) (b : FVec Ideal S784x10 φ₂) (p : Fin 1024) (j : Fin 10) :
    matmul dot_S1024x784_S784x10_S1024x10_1_0_0_1_n_n none a b (constant (F := Ideal) S1024x10 .f32 0x00000000#32) (ix2 p j)
      = ∑ mm : Fin 784, a (ix2 p mm) * b (ix2 mm j) := by
  simp only [matmul]
  rw [Ideal.matmul_constant_zero_apply,
    ← Equiv.sum_comp (contrEquiv1 dot_S1024x784_S784x10_S1024x10_1_0_0_1_n_n 784 dot_contr_rank dot_contr_size).symm]
  refine Finset.sum_congr rfl fun mm _ => ?_
  rw [dot_lhs_ix2, dot_rhs_ix2]

/-- The two products added: the cosines against the first matrix and the pair products against the second. -/
theorem pay4_apply (v0 : Vec Ideal S1024x784 .f32) (v6 v11 : Vec Ideal S784x10 .f32) (p : Fin 1024) (j : Fin 10) :
    k0_pay4 (F := Ideal) v0 v6 v11 (ix2 p j)
      = (∑ mm : Fin 784, Cert.Spec.cosPix (fun mm => v0 (ix2 p mm)) mm * v6 (ix2 mm j))
        + (∑ mm : Fin 784, Cert.Spec.cosPair (fun mm => v0 (ix2 p mm)) mm * v11 (ix2 mm j)) := by
  unfold k0_pay4
  show matmul dot_S1024x784_S784x10_S1024x10_1_0_0_1_n_n none (truncf .bf16 (k0_pay2 v0) bitsLt_bf16_f32)
        (truncf .bf16 (shapeCast S784x10 v6 shapeCasts_S784x10_S784x10) bitsLt_bf16_f32)
        (constant (F := Ideal) S1024x10 .f32 0x00000000#32) (ix2 p j)
      + matmul dot_S1024x784_S784x10_S1024x10_1_0_0_1_n_n none (truncf .bf16 (k0_pay3 v0) bitsLt_bf16_f32)
        (truncf .bf16 (shapeCast S784x10 v11 shapeCasts_S784x10_S784x10) bitsLt_bf16_f32)
        (constant (F := Ideal) S1024x10 .f32 0x00000000#32) (ix2 p j) = _
  rw [matmul_zero_apply, matmul_zero_apply, shapeCast_self, shapeCast_self]
  refine congrArg₂ (· + ·) (Finset.sum_congr rfl fun mm _ => ?_) (Finset.sum_congr rfl fun mm _ => ?_)
  · show k0_pay2 v0 (ix2 p mm) * v6 (ix2 mm j) = _
    rw [pay2_apply]; rfl
  · show k0_pay3 v0 (ix2 p mm) * v11 (ix2 mm j) = _
    rw [pay3_apply]; rfl

/-! ## Layout reads at the block's literal shapes -/

/-- A column spread across the ten lanes reads, at (p, c), the column's entry p. -/
theorem bcast_col_apply (v : FVec Ideal S1024x1 .f32) (p : Fin 1024) (c : Fin 10) :
    broadcastTo S1024x10 v broadcasts_S1024x1_S1024x10 (ix2 p c) = v (ix2 p (0 : Fin 1)) := by
  refine broadcastTo_apply v broadcasts_S1024x1_S1024x10 (ix2 p c) (ix2 p (0 : Fin 1)) fun ax => ?_
  match ax with
  | ⟨0, _⟩ => rfl
  | ⟨1, _⟩ => rfl

/-- A vector of 1024 entries viewed as a column reads, at (p, 0), its entry p. -/
theorem col_cast_apply (v : FVec Ideal S1024 .f32) (p : Fin 1024) :
    shapeCast S1024x1 v shapeCasts_S1024_S1024x1 (ix2 p (0 : Fin 1)) = v (ix1 p) :=
  shapeCast_apply v shapeCasts_S1024_S1024x1 (ix2 p (0 : Fin 1)) (ix1 p) (by
    rw [Shape.rowMajor_val_one, Shape.rowMajor_val_two]
    show p.val = p.val * 1 + 0
    omega)

/-- The index of the block with the lane k put back into row p is (p, k). -/
theorem lift_eq (p : Fin 1024) (k : Fin 10) : reduces_S1024x10_S1024.lift (ix1 p) k = ix2 p k := by
  funext a
  match a with
  | ⟨0, _⟩ => exact Fin.ext rfl
  | ⟨1, _⟩ => exact Fin.ext rfl

/-! ## The stored block: the logits, then their row-wise log-softmax -/

/-- The block of logits: the two products' sum, plus the first patch's number times row 0 of the 4 × 10 table, plus the
    softmax of the sampler's pair against rows 1 and 2, plus row 3. -/
def logitBlock (v15 : FVec Ideal S1024x10 .f32) (v30 v41 v42 v44 : FVec Ideal S1024x1 .f32) (v50 : Vec Ideal S4x10 .f32) :
    FVec Ideal S1024x10 .f32 :=
  have v45 : FVec Ideal S1024x1 .f32 := subf v41 v42
  have v46 : FVec Ideal S1024x1 .f32 := exp v45
  have v47 : FVec Ideal S1024x1 .f32 := addf v44 v46
  have v48 : FVec Ideal S1024x1 .f32 := divf v44 v47
  have v49 : FVec Ideal S1024x1 .f32 := divf v46 v47
  have v51 : FVec Ideal S4x10 .f32 := shapeCast S4x10 v50 shapeCasts_S4x10_S4x10
  have v52 : FVec Ideal S1x10 .f32 := extractStridedSlice S1x10 ![0, 0] v51 slices_S4x10_o0_0_S1x10
  have v53 : FVec Ideal S1x10 .f32 := extractStridedSlice S1x10 ![1, 0] v51 slices_S4x10_o1_0_S1x10
  have v54 : FVec Ideal S1x10 .f32 := extractStridedSlice S1x10 ![2, 0] v51 slices_S4x10_o2_0_S1x10
  have v55 : FVec Ideal S1x10 .f32 := extractStridedSlice S1x10 ![3, 0] v51 slices_S4x10_o3_0_S1x10
  have v56 : FVec Ideal S1024x10 .f32 := broadcastTo S1024x10 v30 broadcasts_S1024x1_S1024x10
  have v57 : FVec Ideal S1024x10 .f32 := broadcastTo S1024x10 v52 broadcasts_S1x10_S1024x10
  have v58 : FVec Ideal S1024x10 .f32 := mulf v56 v57
  have v59 : FVec Ideal S1024x10 .f32 := addf v15 v58
  have v60 : FVec Ideal S1024x10 .f32 := broadcastTo S1024x10 v48 broadcasts_S1024x1_S1024x10
  have v61 : FVec Ideal S1024x10 .f32 := broadcastTo S1024x10 v53 broadcasts_S1x10_S1024x10
  have v62 : FVec Ideal S1024x10 .f32 := mulf v60 v61
  have v63 : FVec Ideal S1024x10 .f32 := addf v59 v62
  have v64 : FVec Ideal S1024x10 .f32 := broadcastTo S1024x10 v49 broadcasts_S1024x1_S1024x10
  have v65 : FVec Ideal S1024x10 .f32 := broadcastTo S1024x10 v54 broadcasts_S1x10_S1024x10
  have v66 : FVec Ideal S1024x10 .f32 := mulf v64 v65
  have v67 : FVec Ideal S1024x10 .f32 := addf v63 v66
  have v68 : FVec Ideal S1024x10 .f32 := broadcastTo S1024x10 v55 broadcasts_S1x10_S1024x10
  have v69 : FVec Ideal S1024x10 .f32 := addf v67 v68
  v69

/-- A block with each row's maximum taken off: the maximum is folded from minus infinity over the ten lanes and taken
    once more against minus infinity. -/
def shiftBlock (v69 : FVec Ideal S1024x10 .f32) : FVec Ideal S1024x10 .f32 :=
  have v70 : FVec Ideal S1024 .f32 := multiReduction .maximumf [1] S1024 v69 0xFF800000#32 reduces_S1024x10_S1024 (.inl rfl) rfl
  have cst_13 : Ideal .f32 := Scalar.ofBits .f32 0xFF800000#32
  have v71 : FVec Ideal S1024 .f32 := broadcast S1024 cst_13
  have v72 : FVec Ideal S1024 .f32 := maximumf v71 v70
  have v73 : FVec Ideal S1024x1 .f32 := shapeCast S1024x1 v72 shapeCasts_S1024_S1024x1
  have v74 : FVec Ideal S1024x10 .f32 := broadcastTo S1024x10 v73 broadcasts_S1024x1_S1024x10
  have v75 : FVec Ideal S1024x10 .f32 := subf v69 v74
  v75

/-- The row-wise log-softmax of a block: each row less its maximum, less the logarithm of the sum of the
    exponentials of that. -/
def lsmBlock (v69 : FVec Ideal S1024x10 .f32) : FVec Ideal S1024x10 .f32 :=
  have v75 : FVec Ideal S1024x10 .f32 := shiftBlock v69
  have v76 : FVec Ideal S1024x10 .f32 := exp v75
  have v77 : FVec Ideal S1024 .f32 := multiReduction .add [1] S1024 v76 0x00000000#32 reduces_S1024x10_S1024 (.inl rfl) rfl
  have v78 : FVec Ideal S1024x1 .f32 := shapeCast S1024x1 v77 shapeCasts_S1024_S1024x1
  have v79 : FVec Ideal S1024x1 .f32 := log v78
  have v80 : FVec Ideal S1024x10 .f32 := broadcastTo S1024x10 v79 broadcasts_S1024x1_S1024x10
  have v81 : FVec Ideal S1024x10 .f32 := subf v75 v80
  v81

/-- The stored block is the log-softmax of the logits' block. -/
theorem pay1_split (v15 : FVec Ideal S1024x10 .f32) (v30 v41 v42 v44 : FVec Ideal S1024x1 .f32) (v50 : Vec Ideal S4x10 .f32) :
    k0_pay1 (F := Ideal) v15 v30 v41 v42 v44 v50 = lsmBlock (logitBlock v15 v30 v41 v42 v44 v50) := rfl

/-- Row r of the 4 × 10 table spread down the block reads, at (p, c), the table's entry (r, c). -/
theorem table_row_apply (v50 : Vec Ideal S4x10 .f32) (r : ℕ) (h : S4x10.Slices ![r, 0] S1x10) (k : Fin 4) (hk : k.val = r)
    (p : Fin 1024) (c : Fin 10) :
    broadcastTo S1024x10 (extractStridedSlice S1x10 ![r, 0] (shapeCast S4x10 v50 shapeCasts_S4x10_S4x10) h)
        broadcasts_S1x10_S1024x10 (ix2 p c) = v50 (ix2 k c) := by
  rw [broadcastTo_1b_ab_apply, shapeCast_self,
    slice2_axis0_apply r v50 h (0 : Fin 1) c k (by rw [hk]; rfl)]

/-- The logits' block at (p, c). -/
theorem logitBlock_apply (v15 : FVec Ideal S1024x10 .f32) (v30 v41 v42 v44 : FVec Ideal S1024x1 .f32) (v50 : Vec Ideal S4x10 .f32)
    (p : Fin 1024) (c : Fin 10) :
    logitBlock v15 v30 v41 v42 v44 v50 (ix2 p c)
      = (((v15 (ix2 p c) + v30 (ix2 p (0 : Fin 1)) * v50 (ix2 (0 : Fin 4) c))
          + Ideal.div (v44 (ix2 p (0 : Fin 1)))
              (v44 (ix2 p (0 : Fin 1)) + Ideal.exp (v41 (ix2 p (0 : Fin 1)) - v42 (ix2 p (0 : Fin 1))))
            * v50 (ix2 (1 : Fin 4) c))
          + Ideal.div (Ideal.exp (v41 (ix2 p (0 : Fin 1)) - v42 (ix2 p (0 : Fin 1))))
              (v44 (ix2 p (0 : Fin 1)) + Ideal.exp (v41 (ix2 p (0 : Fin 1)) - v42 (ix2 p (0 : Fin 1))))
            * v50 (ix2 (2 : Fin 4) c))
        + v50 (ix2 (3 : Fin 4) c) := by
  unfold logitBlock
  simp only [addf_apply, mulf_apply, bcast_col_apply]
  rw [table_row_apply v50 0 slices_S4x10_o0_0_S1x10 (0 : Fin 4) rfl,
    table_row_apply v50 1 slices_S4x10_o1_0_S1x10 (1 : Fin 4) rfl,
    table_row_apply v50 2 slices_S4x10_o2_0_S1x10 (2 : Fin 4) rfl,
    table_row_apply v50 3 slices_S4x10_o3_0_S1x10 (3 : Fin 4) rfl]
  rfl

/-- A row's maximum as the block takes it: folded from minus infinity over the ten lanes, and once more against
    minus infinity. -/
theorem rowMax_apply (z : FVec Ideal S1024x10 .f32) (p : Fin 1024) :
    maximumf (broadcast S1024 (Scalar.ofBits (F := Ideal) .f32 0xFF800000#32))
        (multiReduction .maximumf [1] S1024 z 0xFF800000#32 reduces_S1024x10_S1024 (.inl rfl) rfl) (ix1 p)
      = max Cert.Spec.negInf (Finset.univ.fold max Cert.Spec.negInf (fun k : Fin 10 => z (ix2 p k))) := by
  show max Cert.Spec.negInf
      (multiReduction .maximumf [1] S1024 z 0xFF800000#32 reduces_S1024x10_S1024 (.inl rfl) rfl (ix1 p)) = _
  refine congrArg (max Cert.Spec.negInf) ?_
  refine (Ideal.multiReduction_maximumf_single z 0xFF800000#32 reduces_S1024x10_S1024 (.inl rfl) rfl (ix1 p)).trans ?_
  show (Finset.univ : Finset (Fin 10)).fold max Cert.Spec.negInf (z ∘ reduces_S1024x10_S1024.lift (ix1 p)) = _
  refine congrArg (fun f => (Finset.univ : Finset (Fin 10)).fold max Cert.Spec.negInf f) (funext fun k => ?_)
  exact congrArg z (lift_eq p k)

/-- A row's sum over the ten lanes. -/
theorem rowSum_apply (y : FVec Ideal S1024x10 .f32) (p : Fin 1024) :
    multiReduction .add [1] S1024 y 0x00000000#32 reduces_S1024x10_S1024 (.inl rfl) rfl (ix1 p)
      = ∑ k : Fin 10, y (ix2 p k) := by
  refine (Ideal.multiReduction_add_single y 0x00000000#32 reduces_S1024x10_S1024 (.inl rfl) rfl (ix1 p)).trans ?_
  show ∑ k : Fin 10, y (reduces_S1024x10_S1024.lift (ix1 p) k) = _
  exact Finset.sum_congr rfl fun k _ => congrArg y (lift_eq p k)

/-- The shifted block at (p, c): the entry less its row's maximum. -/
theorem shiftBlock_apply (z : FVec Ideal S1024x10 .f32) (p : Fin 1024) (c : Fin 10) :
    shiftBlock z (ix2 p c)
      = z (ix2 p c) - max Cert.Spec.negInf (Finset.univ.fold max Cert.Spec.negInf (fun k : Fin 10 => z (ix2 p k))) := by
  unfold shiftBlock
  show z (ix2 p c) - broadcastTo S1024x10 (shapeCast S1024x1
      (maximumf (broadcast S1024 (Scalar.ofBits (F := Ideal) .f32 0xFF800000#32))
        (multiReduction .maximumf [1] S1024 z 0xFF800000#32 reduces_S1024x10_S1024 (.inl rfl) rfl))
      shapeCasts_S1024_S1024x1) broadcasts_S1024x1_S1024x10 (ix2 p c) = _
  refine congrArg (z (ix2 p c) - ·) ?_
  refine (bcast_col_apply _ p c).trans ?_
  refine (col_cast_apply _ p).trans ?_
  exact rowMax_apply z p

/-- The log-softmax block at (p, j) is the log-softmax of row p at j. -/
theorem lsmBlock_apply (z : FVec Ideal S1024x10 .f32) (p : Fin 1024) (j : Fin 10) :
    lsmBlock z (ix2 p j) = Cert.Spec.logSoftmaxRow (fun j' => z (ix2 p j')) j := by
  unfold lsmBlock Cert.Spec.logSoftmaxRow
  show shiftBlock z (ix2 p j) - broadcastTo S1024x10 (log (shapeCast S1024x1
      (multiReduction .add [1] S1024 (exp (shiftBlock z)) 0x00000000#32 reduces_S1024x10_S1024 (.inl rfl) rfl)
      shapeCasts_S1024_S1024x1)) broadcasts_S1024x1_S1024x10 (ix2 p j) = _
  refine congrArg₂ (· - ·) (shiftBlock_apply z p j) ?_
  refine (bcast_col_apply _ p j).trans ?_
  show Ideal.log (shapeCast S1024x1 _ shapeCasts_S1024_S1024x1 (ix2 p (0 : Fin 1))) = _
  refine congrArg Ideal.log ?_
  refine (col_cast_apply _ p).trans ?_
  refine (rowSum_apply _ p).trans ?_
  refine Finset.sum_congr rfl fun k _ => ?_
  show Ideal.exp (shiftBlock z (ix2 p k)) = _
  rw [shiftBlock_apply]

/-- The stored block at (p, j): the log-softmax, at j, of the row of logits of image p. -/
theorem payload_apply (v0 : Vec Ideal S1024x784 .f32) (v6 v11 : Vec Ideal S784x10 .f32) (v50 : Vec Ideal S4x10 .f32)
    (v31 v33 : Vec Ideal S1x1 .f32) (p : Fin 1024) (j : Fin 10) :
    k0_pay1 (F := Ideal) (k0_pay4 v0 v6 v11) (k0_pay7 v0) (k0_pay9 v0 v31 v33) (k0_pay10 v0 v31 v33)
        (k0_pay11 v0 v31 v33) v50 (ix2 p j)
      = Cert.Spec.logSoftmaxRow (Cert.Spec.rowLogit (fun mm => v0 (ix2 p mm)) (fun mm j' => v6 (ix2 mm j'))
          (fun mm j' => v11 (ix2 mm j')) (fun r j' => v50 (ix2 r j'))
          (fun e => match e with
            | 0 => v31 (ix2 (0 : Fin 1) (0 : Fin 1))
            | 1 => v33 (ix2 (0 : Fin 1) (0 : Fin 1)))) j := by
  rw [pay1_split]
  refine (lsmBlock_apply _ p j).trans ?_
  refine congrArg (fun z => Cert.Spec.logSoftmaxRow z j) (funext fun j' => ?_)
  rw [logitBlock_apply, pay4_apply, pay7_apply, pay11_apply, pay10_apply, pay9_apply, pay8_apply]
  rfl

end Cert.KernelIdeal.Payload

end
-- ==== Proof.KernelHost.lean ====
import proofs.«421675_j65481071397824_3_alg».proof.Proof.KernelIdealRun
import proofs.«421675_j65481071397824_3_alg».proof.Proof.Spec
import Idealize.ShloMosaic.Lib.StableHlo.Run
import Idealize.ShloMosaic.Lib.ValueIdx
import Idealize.ShloMosaic.Lib.ValueLayout
import Idealize.ShloMosaic.Lib.Pipeline.Value

/-! # The arrays the region is entered with, read at an entry -/

noncomputable section

namespace Cert.KernelIdeal.HostRead

open Cert.KernelIdeal Cert.KernelIdeal.Gen Cert.KernelIdeal.Hand
open Idealize.ShloMosaic Idealize.ShloMosaic.TcCoe Idealize.ShloMosaic.ValueIdx Idealize.SL.Sem

/-! ## The layout operations of the host prefix, read at an index -/

section Layout
variable {α : Type}

/-- The first 784 rows of the weight table viewed as [14, 14, 4, 10]: entry (i, jj, f, c) is the table's entry
    at row (14 i + jj) 4 + f, column c. -/
def tbl (LW : S787x10.Idx → α) : S14x14x4x10.Idx → α :=
  shapeCast S14x14x4x10 (extractStridedSlice S784x10 ![0, 0] LW slices_S787x10_S784x10_0_0) shapeCasts_S784x10_S14x14x4x10

/-- The reshaped table at (i, jj, f, c) is the table's row (14 i + jj) 4 + f at column c. -/
theorem tbl_apply (LW : S787x10.Idx → α) (i jj : Fin 14) (f : Fin 4) (c : Fin 10) (r : Fin 787)
    (hr : r.val = (i.val * 14 + jj.val) * 4 + f.val) :
    tbl LW (ix4 i jj f c) = LW (ix2 r c) := by
  have hr' : r.val < 784 := by have := i.isLt; have := jj.isLt; have := f.isLt; omega
  unfold tbl
  refine (shapeCast_apply _ shapeCasts_S784x10_S14x14x4x10 (ix4 i jj f c) (ix2 (⟨r.val, hr'⟩ : Fin 784) c) ?_).trans ?_
  · rw [Shape.rowMajor_val_two, Shape.rowMajor_val_four]
    show r.val * 10 + c.val = (((i.val * 14 + jj.val) * 4 + f.val)) * 10 + c.val
    rw [hr]
  · refine extractStridedSlice_apply _ LW _ _ (ix2 r c) fun a => ?_
    match a with
    | ⟨0, _⟩ => show r.val = 0 + r.val; omega
    | ⟨1, _⟩ => show c.val = 0 + c.val; omega

end Layout

section Layout2
variable {α : Type}

/-- Feature `f` of every patch, as [14, 14, 10]: entry (i, jj, c) is the [14, 14, 4, 10] array's entry (i, jj, f, c). -/
def feat (f : ℕ) (h : S14x14x4x10.Slices ![0, 0, f, 0] S14x14x1x10) (T : S14x14x4x10.Idx → α) : S14x14x10.Idx → α :=
  shapeCast S14x14x10 (extractStridedSlice S14x14x1x10 ![0, 0, f, 0] T h) shapeCasts_S14x14x1x10_S14x14x10

/-- One feature's array at (i, jj, c) is the four-feature array at (i, jj, f, c). -/
theorem feat_apply (f : ℕ) (hf : f < 4) (h : S14x14x4x10.Slices ![0, 0, f, 0] S14x14x1x10) (T : S14x14x4x10.Idx → α)
    (i jj : Fin 14) (c : Fin 10) :
    feat f h T (ix3 i jj c) = T (ix4 i jj (⟨f, hf⟩ : Fin 4) c) := by
  unfold feat
  refine (shapeCast_apply _ shapeCasts_S14x14x1x10_S14x14x10 (ix3 i jj c) (ix4 i jj (0 : Fin 1) c) ?_).trans ?_
  · rw [Shape.rowMajor_val_four, Shape.rowMajor_val_three]
    show ((i.val * 14 + jj.val) * 1 + 0) * 10 + c.val = (i.val * 14 + jj.val) * 10 + c.val
    omega
  · refine extractStridedSlice_apply _ T h _ (ix4 i jj (⟨f, hf⟩ : Fin 4) c) fun a => ?_
    match a with
    | ⟨0, _⟩ => show i.val = 0 + i.val; omega
    | ⟨1, _⟩ => show jj.val = 0 + jj.val; omega
    | ⟨2, _⟩ => show f = f + 0; omega
    | ⟨3, _⟩ => show c.val = 0 + c.val; omega

/-- Two [14, 14, 10] arrays laid as the two pixel rows of every patch row: [14, 2, 14, 10]. -/
def rows2 (A B : S14x14x10.Idx → α) : S14x2x14x10.Idx → α :=
  concatenate S14x2x14x10 1
    [⟨S14x1x14x10, broadcastInDim S14x1x14x10 ![0, 2, 3] bcast_S14x14x10_S14x1x14x10_0_2_3 A⟩,
      ⟨S14x1x14x10, broadcastInDim S14x1x14x10 ![0, 2, 3] bcast_S14x14x10_S14x1x14x10_0_2_3 B⟩]
    concatenates_S14x1x14x10_S14x1x14x10_S14x2x14x10_d1

/-- A [14, 14, 10] array given a unit pixel-row axis keeps its entries. -/
theorem bcast_row_apply (A : S14x14x10.Idx → α) (i jj : Fin 14) (c : Fin 10) :
    broadcastInDim S14x1x14x10 ![0, 2, 3] bcast_S14x14x10_S14x1x14x10_0_2_3 A (ix4 i (0 : Fin 1) jj c) = A (ix3 i jj c) := by
  refine broadcastInDim_apply _ _ A _ (ix3 i jj c) fun a => ?_
  match a with
  | ⟨0, _⟩ => show i.val = if (14 : ℕ) = 1 then 0 else i.val; rw [if_neg (by decide)]
  | ⟨1, _⟩ => show jj.val = if (14 : ℕ) = 1 then 0 else jj.val; rw [if_neg (by decide)]
  | ⟨2, _⟩ => show c.val = if (10 : ℕ) = 1 then 0 else c.val; rw [if_neg (by decide)]

/-- The upper pixel row reads the first array, -/
theorem rows2_apply_zero (A B : S14x14x10.Idx → α) (i jj : Fin 14) (c : Fin 10) :
    rows2 A B (ix4 i (0 : Fin 2) jj c) = A (ix3 i jj c) := by
  unfold rows2
  refine (concatenate_pair_apply_left (t := S14x2x14x10) (s₁ := S14x1x14x10) (s₂ := S14x1x14x10) (1 : Fin 4) _ _ concatenates_S14x1x14x10_S14x1x14x10_S14x2x14x10_d1
    (ix4 i (0 : Fin 2) jj c) rfl (ix4 i (0 : Fin 1) jj c) fun b => ?_).trans (bcast_row_apply A i jj c)
  match b with
  | ⟨0, _⟩ => rfl
  | ⟨1, _⟩ => rfl
  | ⟨2, _⟩ => rfl
  | ⟨3, _⟩ => rfl

/-- the lower one the second. -/
theorem rows2_apply_one (A B : S14x14x10.Idx → α) (i jj : Fin 14) (c : Fin 10) :
    rows2 A B (ix4 i (1 : Fin 2) jj c) = B (ix3 i jj c) := by
  unfold rows2
  refine (concatenate_pair_apply_right (t := S14x2x14x10) (s₁ := S14x1x14x10) (s₂ := S14x1x14x10) (1 : Fin 4) _ _ concatenates_S14x1x14x10_S14x1x14x10_S14x2x14x10_d1
    (ix4 i (1 : Fin 2) jj c) rfl rfl (ix4 i (0 : Fin 1) jj c) (fun b hb => ?_) rfl).trans (bcast_row_apply B i jj c)
  match b with
  | ⟨0, _⟩ => rfl
  | ⟨1, _⟩ => exact absurd rfl hb
  | ⟨2, _⟩ => rfl
  | ⟨3, _⟩ => rfl

/-- A [14, 2, 14, 10] array and a scalar laid as the even and the odd pixel column of every patch: [14, 2, 14, 2, 10]. -/
def cols2 (R : S14x2x14x10.Idx → α) (Z : S_.Idx → α) : S14x2x14x2x10.Idx → α :=
  concatenate S14x2x14x2x10 3
    [⟨S14x2x14x1x10, broadcastInDim S14x2x14x1x10 ![0, 1, 2, 4] bcast_S14x2x14x10_S14x2x14x1x10_0_1_2_4 R⟩,
      ⟨S14x2x14x1x10, broadcastInDim S14x2x14x1x10 ![0, 1, 2, 4] bcast_S14x2x14x10_S14x2x14x1x10_0_1_2_4
        (broadcastInDim S14x2x14x10 ![] bcast_S_S14x2x14x10 Z)⟩]
    concatenates_S14x2x14x1x10_S14x2x14x1x10_S14x2x14x2x10_d3

/-- A [14, 2, 14, 10] array given a unit pixel-column axis keeps its entries. -/
theorem bcast_col_apply (R : S14x2x14x10.Idx → α) (i : Fin 14) (a : Fin 2) (jj : Fin 14) (c : Fin 10) :
    broadcastInDim S14x2x14x1x10 ![0, 1, 2, 4] bcast_S14x2x14x10_S14x2x14x1x10_0_1_2_4 R (ix5 i a jj (0 : Fin 1) c)
      = R (ix4 i a jj c) := by
  refine broadcastInDim_apply _ _ R _ (ix4 i a jj c) fun ax => ?_
  match ax with
  | ⟨0, _⟩ => show i.val = if (14 : ℕ) = 1 then 0 else i.val; rw [if_neg (by decide)]
  | ⟨1, _⟩ => show a.val = if (2 : ℕ) = 1 then 0 else a.val; rw [if_neg (by decide)]
  | ⟨2, _⟩ => show jj.val = if (14 : ℕ) = 1 then 0 else jj.val; rw [if_neg (by decide)]
  | ⟨3, _⟩ => show c.val = if (10 : ℕ) = 1 then 0 else c.val; rw [if_neg (by decide)]

/-- A scalar spread over [14, 2, 14, 10] is that scalar everywhere. -/
theorem bcast_scalar_apply (Z : S_.Idx → α) (k : S14x2x14x10.Idx) :
    broadcastInDim S14x2x14x10 ![] bcast_S_S14x2x14x10 Z k = Z ix0 :=
  broadcastInDim_apply _ _ Z k ix0 fun ax => ax.elim0

/-- The even pixel column reads the array, -/
theorem cols2_apply_zero (R : S14x2x14x10.Idx → α) (Z : S_.Idx → α) (i : Fin 14) (a : Fin 2) (jj : Fin 14) (c : Fin 10) :
    cols2 R Z (ix5 i a jj (0 : Fin 2) c) = R (ix4 i a jj c) := by
  unfold cols2
  refine (concatenate_pair_apply_left (t := S14x2x14x2x10) (s₁ := S14x2x14x1x10) (s₂ := S14x2x14x1x10) (3 : Fin 5) _ _ concatenates_S14x2x14x1x10_S14x2x14x1x10_S14x2x14x2x10_d3
    (ix5 i a jj (0 : Fin 2) c) rfl (ix5 i a jj (0 : Fin 1) c) fun b => ?_).trans (bcast_col_apply R i a jj c)
  match b with
  | ⟨0, _⟩ => rfl
  | ⟨1, _⟩ => rfl
  | ⟨2, _⟩ => rfl
  | ⟨3, _⟩ => rfl
  | ⟨4, _⟩ => rfl

/-- the odd one the scalar. -/
theorem cols2_apply_one (R : S14x2x14x10.Idx → α) (Z : S_.Idx → α) (i : Fin 14) (a : Fin 2) (jj : Fin 14) (c : Fin 10) :
    cols2 R Z (ix5 i a jj (1 : Fin 2) c) = Z ix0 := by
  unfold cols2
  refine (concatenate_pair_apply_right (t := S14x2x14x2x10) (s₁ := S14x2x14x1x10) (s₂ := S14x2x14x1x10) (3 : Fin 5) _ _ concatenates_S14x2x14x1x10_S14x2x14x1x10_S14x2x14x2x10_d3
    (ix5 i a jj (1 : Fin 2) c) rfl rfl (ix5 i a jj (0 : Fin 1) c) (fun b hb => ?_) rfl).trans
    ((bcast_col_apply _ i a jj c).trans (bcast_scalar_apply Z _))
  match b with
  | ⟨0, _⟩ => rfl
  | ⟨1, _⟩ => rfl
  | ⟨2, _⟩ => rfl
  | ⟨3, _⟩ => exact absurd rfl hb
  | ⟨4, _⟩ => rfl

/-- The pixel-indexed matrix: the [14, 2, 14, 2, 10] array read as 784 pixels by 10. -/
def scatter (A B : S14x14x10.Idx → α) (Z : S_.Idx → α) : S784x10.Idx → α :=
  shapeCast S784x10 (cols2 (rows2 A B) Z) shapeCasts_S14x2x14x2x10_S784x10

/-- Pixel 28 (2 i + a) + 2 jj + bb of the matrix is entry (i, a, jj, bb) of the five-axis array. -/
theorem scatter_apply (A B : S14x14x10.Idx → α) (Z : S_.Idx → α) (mm : Fin 784) (c : Fin 10)
    (i : Fin 14) (a : Fin 2) (jj : Fin 14) (bb : Fin 2)
    (h : mm.val = ((i.val * 2 + a.val) * 14 + jj.val) * 2 + bb.val) :
    scatter A B Z (ix2 mm c) = cols2 (rows2 A B) Z (ix5 i a jj bb c) := by
  unfold scatter
  refine shapeCast_apply _ shapeCasts_S14x2x14x2x10_S784x10 (ix2 mm c) _ ?_
  rw [Shape.rowMajor_val_five, Shape.rowMajor_val_two]
  show ((((i.val * 2 + a.val) * 14 + jj.val) * 2 + bb.val)) * 10 + c.val = mm.val * 10 + c.val
  rw [h]

end Layout2

section Layout3
variable {α : Type}

/-- Row `k` of the weight table as a [1, 10] array. -/
def tblRow (k : ℕ) (h : S787x10.Slices ![k, 0] S1x10) (LW : S787x10.Idx → α) : S1x10.Idx → α :=
  broadcastInDim S1x10 ![1] bcast_S10_S1x10_1 (shapeCast S10 (extractStridedSlice S1x10 ![k, 0] LW h) shapeCasts_S1x10_S10)

/-- A vector of ten given a leading unit axis keeps its entries. -/
theorem bcast_vec_apply (B : S10.Idx → α) (u : Fin 1) (j : Fin 10) :
    broadcastInDim S1x10 ![1] bcast_S10_S1x10_1 B (ix2 u j) = B (ix1 j) := by
  refine broadcastInDim_apply _ _ B _ (ix1 j) fun a => ?_
  match a with
  | ⟨0, _⟩ => show j.val = if (10 : ℕ) = 1 then 0 else j.val; rw [if_neg (by decide)]

/-- The one row at column j is the table's entry (k, j). -/
theorem tblRow_apply (k : ℕ) (hk : k < 787) (h : S787x10.Slices ![k, 0] S1x10) (LW : S787x10.Idx → α) (u : Fin 1) (j : Fin 10) :
    tblRow k h LW (ix2 u j) = LW (ix2 (⟨k, hk⟩ : Fin 787) j) := by
  unfold tblRow
  refine (bcast_vec_apply _ u j).trans ?_
  refine (shapeCast_apply _ shapeCasts_S1x10_S10 (ix1 j) (ix2 (0 : Fin 1) j) ?_).trans ?_
  · rw [Shape.rowMajor_val_two, Shape.rowMajor_val_one]
    show 0 * 10 + j.val = j.val
    omega
  · refine extractStridedSlice_apply _ LW h _ (ix2 (⟨k, hk⟩ : Fin 787) j) fun a => ?_
    match a with
    | ⟨0, _⟩ => show k = k + 0; omega
    | ⟨1, _⟩ => show j.val = 0 + j.val; omega

/-- Four [1, 10] rows stacked: [4, 10]. -/
def table4 (r0 r1 r2 r3 : S1x10.Idx → α) : S4x10.Idx → α :=
  concatenate S4x10 0 [⟨S1x10, r0⟩, ⟨S1x10, r1⟩, ⟨S1x10, r2⟩, ⟨S1x10, r3⟩] concatenates_S1x10_S1x10_S1x10_S1x10_S4x10_d0

/-- Row `k` of the stack is the `k`-th of the four rows. -/
theorem table4_apply (r0 r1 r2 r3 : S1x10.Idx → α) (k : ℕ) (hk : k < 4) (x : S1x10.Idx → α)
    (hx : ([⟨S1x10, r0⟩, ⟨S1x10, r1⟩, ⟨S1x10, r2⟩, ⟨S1x10, r3⟩] : List ((s : Shape) × (s.Idx → α)))[k]'hk = ⟨S1x10, x⟩)
    (j : Fin 10) :
    table4 r0 r1 r2 r3 (ix2 (⟨k, hk⟩ : Fin 4) j) = x (ix2 (0 : Fin 1) j) := by
  unfold table4
  refine concatenate_apply_piece (t := S4x10) (0 : Fin 2) [⟨S1x10, r0⟩, ⟨S1x10, r1⟩, ⟨S1x10, r2⟩, ⟨S1x10, r3⟩] concatenates_S1x10_S1x10_S1x10_S1x10_S4x10_d0
    (ix2 (⟨k, hk⟩ : Fin 4) j) k hk S1x10 x hx rfl k ?_ (ix2 (0 : Fin 1) j) (fun b hb => ?_) ?_
  · match k, hk with
    | 0, _ => rfl
    | 1, _ => rfl
    | 2, _ => rfl
    | 3, _ => rfl
  · match b with
    | ⟨0, _⟩ => exact absurd rfl hb
    | ⟨1, _⟩ => rfl
  · show k + 0 = k
    omega

end Layout3

section Angles
variable {F : FTy → Type} [FloatOps F]

/-- Entries `p` and `q` of the sampler's four weights added, as a one-entry array. -/
def angSum (p q : ℕ) (hp : S4.Slices ![p] S1) (hq : S4.Slices ![q] S1) (SW : S4.Idx → F .f32) : S1.Idx → F .f32 :=
  broadcastInDim S1 ![] bcast_S_S1
    (addf (shapeCast S_ (extractStridedSlice S1 ![p] SW hp) shapeCasts_S1_S_)
      (shapeCast S_ (extractStridedSlice S1 ![q] SW hq) shapeCasts_S1_S_))

/-- The two sums side by side: [1, 2]. -/
def angPair (A B : S1.Idx → F .f32) : S1x2.Idx → F .f32 :=
  shapeCast S1x2 (concatenate S2 0 [⟨S1, A⟩, ⟨S1, B⟩] concatenates_S1_S1_S2_d0) shapeCasts_S2_S1x2

end Angles

section AnglesRead
variable {α : Type}

/-- Entry `p` of the four weights cut out as a scalar is that entry. -/
theorem scalarOf_apply (p : ℕ) (hp4 : p < 4) (hp : S4.Slices ![p] S1) (SW : S4.Idx → α) :
    shapeCast S_ (extractStridedSlice S1 ![p] SW hp) shapeCasts_S1_S_ ix0 = SW (ix1 (⟨p, hp4⟩ : Fin 4)) := by
  refine (shapeCast_apply _ shapeCasts_S1_S_ ix0 (ix1 (0 : Fin 1)) ?_).trans ?_
  · rw [Shape.rowMajor_val_one]
    exact (Shape.rowMajorPi_zero _ _).symm
  · refine extractStridedSlice_apply _ SW hp _ (ix1 (⟨p, hp4⟩ : Fin 4)) fun a => ?_
    match a with
    | ⟨0, _⟩ => show p = p + 0; omega

/-- Two one-entry arrays side by side as [1, 2]: column 0 is the first, -/
theorem pair_apply_zero (A B : S1.Idx → α) (u : Fin 1) :
    shapeCast S1x2 (concatenate S2 0 [⟨S1, A⟩, ⟨S1, B⟩] concatenates_S1_S1_S2_d0) shapeCasts_S2_S1x2 (ix2 u (0 : Fin 2))
      = A (ix1 (0 : Fin 1)) := by
  refine (shapeCast_apply _ shapeCasts_S2_S1x2 (ix2 u (0 : Fin 2)) (ix1 (0 : Fin 2)) ?_).trans ?_
  · rw [Shape.rowMajor_val_two, Shape.rowMajor_val_one]
    show 0 = u.val * 2 + 0
    omega
  · refine concatenate_pair_apply_left (t := S2) (s₁ := S1) (s₂ := S1) (0 : Fin 1) A B concatenates_S1_S1_S2_d0
      (ix1 (0 : Fin 2)) rfl (ix1 (0 : Fin 1)) fun b => ?_
    match b with
    | ⟨0, _⟩ => rfl

/-- column 1 the second. -/
theorem pair_apply_one (A B : S1.Idx → α) (u : Fin 1) :
    shapeCast S1x2 (concatenate S2 0 [⟨S1, A⟩, ⟨S1, B⟩] concatenates_S1_S1_S2_d0) shapeCasts_S2_S1x2 (ix2 u (1 : Fin 2))
      = B (ix1 (0 : Fin 1)) := by
  refine (shapeCast_apply _ shapeCasts_S2_S1x2 (ix2 u (1 : Fin 2)) (ix1 (1 : Fin 2)) ?_).trans ?_
  · rw [Shape.rowMajor_val_two, Shape.rowMajor_val_one]
    show 1 = u.val * 2 + 1
    omega
  · refine concatenate_pair_apply_right (t := S2) (s₁ := S1) (s₂ := S1) (0 : Fin 1) A B concatenates_S1_S1_S2_d0
      (ix1 (1 : Fin 2)) rfl rfl (ix1 (0 : Fin 1)) (fun b hb => ?_) rfl
    match b with
    | ⟨0, _⟩ => exact absurd rfl hb

/-- A scalar as a one-entry array is that scalar. -/
theorem bcast_one_apply (Z : S_.Idx → α) (k : S1.Idx) : broadcastInDim S1 ![] bcast_S_S1 Z k = Z ix0 :=
  broadcastInDim_apply _ _ Z k ix0 fun ax => ax.elim0

end AnglesRead

section Scatter
variable {α : Type}

/-- The scattered matrix of features `f0` (upper pixel row) and `f1` (lower pixel row) of the table: at an even
    column the table's row for that pixel's patch and feature, at an odd column the scalar. -/
theorem scatter_feat_apply (LW : S787x10.Idx → α) (Z : S_.Idx → α) (f0 f1 : ℕ) (hf0 : f0 < 4) (hf1 : f1 < 4)
    (h0 : S14x14x4x10.Slices ![0, 0, f0, 0] S14x14x1x10) (h1 : S14x14x4x10.Slices ![0, 0, f1, 0] S14x14x1x10)
    (mm : Fin 784) (c : Fin 10) :
    scatter (feat f0 h0 (tbl LW)) (feat f1 h1 (tbl LW)) Z (ix2 mm c)
      = if mm.val % 2 = 0 then
          LW (ix2 (⟨4 * (14 * (mm.val / 56) + mm.val % 28 / 2) + (if mm.val / 28 % 2 = 0 then f0 else f1),
            by have := mm.isLt; split <;> omega⟩ : Fin 787) c)
        else Z ix0 := by
  have hmm := mm.isLt
  have hbb : mm.val % 2 = 0 ∨ mm.val % 2 = 1 := by omega
  have haa : mm.val / 28 % 2 = 0 ∨ mm.val / 28 % 2 = 1 := by omega
  rcases hbb with hb | hb
  · rw [if_pos hb]
    rcases haa with ha | ha
    · refine (scatter_apply _ _ _ mm c (⟨mm.val / 56, by omega⟩ : Fin 14) (0 : Fin 2) (⟨mm.val % 28 / 2, by omega⟩ : Fin 14) (0 : Fin 2)
        (by show mm.val = ((mm.val / 56 * 2 + 0) * 14 + mm.val % 28 / 2) * 2 + 0; omega)).trans ?_
      rw [cols2_apply_zero, rows2_apply_zero, feat_apply f0 hf0]
      exact tbl_apply LW _ _ _ c _ (by
        show 4 * (14 * (mm.val / 56) + mm.val % 28 / 2) + (if mm.val / 28 % 2 = 0 then f0 else f1)
          = (mm.val / 56 * 14 + mm.val % 28 / 2) * 4 + f0
        rw [if_pos ha]; omega)
    · refine (scatter_apply _ _ _ mm c (⟨mm.val / 56, by omega⟩ : Fin 14) (1 : Fin 2) (⟨mm.val % 28 / 2, by omega⟩ : Fin 14) (0 : Fin 2)
        (by show mm.val = ((mm.val / 56 * 2 + 1) * 14 + mm.val % 28 / 2) * 2 + 0; omega)).trans ?_
      rw [cols2_apply_zero, rows2_apply_one, feat_apply f1 hf1]
      exact tbl_apply LW _ _ _ c _ (by
        show 4 * (14 * (mm.val / 56) + mm.val % 28 / 2) + (if mm.val / 28 % 2 = 0 then f0 else f1)
          = (mm.val / 56 * 14 + mm.val % 28 / 2) * 4 + f1
        rw [if_neg (by omega)]; omega)
  · rw [if_neg (by omega)]
    refine (scatter_apply _ _ _ mm c (⟨mm.val / 56, by omega⟩ : Fin 14) (⟨mm.val / 28 % 2, by omega⟩ : Fin 2)
      (⟨mm.val % 28 / 2, by omega⟩ : Fin 14) (1 : Fin 2)
      (by show mm.val = ((mm.val / 56 * 2 + mm.val / 28 % 2) * 14 + mm.val % 28 / 2) * 2 + 1; omega)).trans ?_
    exact cols2_apply_one _ Z _ _ _ c

end Scatter

/-! ## The five arrays as terms of the argument arrays -/

section Terms
variable {F : FTy → Type} [FloatOps F]
variable (m : (ℓ : Loc nD τ sig) → Buf (Elt F) ℓ) (c : Dev nD)

/-- The four argument arrays as launched, at any value type. -/
abbrev gX : S32768x1x28x28.Idx → F .f32 := m ((c : Thread nD τ).loc main_arg0)
abbrev gLW : S787x10.Idx → F .f32 := m ((c : Thread nD τ).loc main_arg1)
abbrev gB : S10.Idx → F .f32 := m ((c : Thread nD τ).loc main_arg2)
abbrev gSW : S4.Idx → F .f32 := m ((c : Thread nD τ).loc main_arg3)

/-- The images' array is the argument reshaped to [32768, 784]. -/
theorem images_term : (entered m c main_v0 : S32768x784.Idx → F .f32)
      = shapeCast S32768x784 (gX m c) shapeCasts_S32768x1x28x28_S32768x784 := by
  dsimp only [entered, hostOps0]; after_results; rfl

/-- The first matrix scatters features 0 and 2 of the table, with the zero word at the odd columns; -/
theorem mat1_term : (entered m c main_v14 : S784x10.Idx → F .f32)
      = scatter (feat 0 slices_S14x14x4x10_S14x14x1x10_0_0_0_0 (tbl (gLW m c)))
          (feat 2 slices_S14x14x4x10_S14x14x1x10_0_0_2_0 (tbl (gLW m c))) (constant (F := F) S_ .f32 0x00000000#32) := by
  dsimp only [entered, hostOps0]; after_results; rfl

/-- the second scatters features 1 and 3. -/
theorem mat2_term : (entered m c main_v26 : S784x10.Idx → F .f32)
      = scatter (feat 1 slices_S14x14x4x10_S14x14x1x10_0_0_1_0 (tbl (gLW m c)))
          (feat 3 slices_S14x14x4x10_S14x14x1x10_0_0_3_0 (tbl (gLW m c))) (constant (F := F) S_ .f32 0x00000000#32) := by
  dsimp only [entered, hostOps0]; after_results; rfl

/-- The table of extra rows stacks the weight table's rows 784, 785, 786 and the bias. -/
theorem extra_term : (entered m c main_v37 : S4x10.Idx → F .f32)
      = table4 (tblRow 784 slices_S787x10_S1x10_784_0 (gLW m c)) (tblRow 785 slices_S787x10_S1x10_785_0 (gLW m c))
          (tblRow 786 slices_S787x10_S1x10_786_0 (gLW m c)) (broadcastInDim S1x10 ![1] bcast_S10_S1x10_1 (gB m c)) := by
  dsimp only [entered, hostOps0]; after_results; rfl

/-- The pair of angles is the sampler's weights 0 + 2 and 1 + 3 side by side. -/
theorem angs_term : (entered m c main_v51 : S1x2.Idx → F .f32)
      = angPair (angSum 0 2 slices_S4_S1_0 slices_S4_S1_2 (gSW m c)) (angSum 1 3 slices_S4_S1_1 slices_S4_S1_3 (gSW m c)) := by
  dsimp only [entered, hostOps0]; after_results_simp; rfl

end Terms

/-! ## The five arrays at an entry -/

variable (m : (ℓ : Loc nD τ sig) → Buf (Elt Ideal) ℓ) (c : Dev nD)

/-- The four argument arrays as launched. -/
abbrev argX : Cert.Spec.SX.Idx → EReal := m ((c : Thread nD τ).loc main_arg0)
abbrev argLW : Cert.Spec.SLW.Idx → EReal := m ((c : Thread nD τ).loc main_arg1)
abbrev argB : Cert.Spec.SB.Idx → EReal := m ((c : Thread nD τ).loc main_arg2)
abbrev argSW : Cert.Spec.SSW.Idx → EReal := m ((c : Thread nD τ).loc main_arg3)

theorem entered_images (b : Fin 32768) (mm : Fin 784) :
    (entered m c main_v0 : S32768x784.Idx → EReal) (ix2 b mm) = Cert.Spec.pixRow (argX m c) b mm := by
  refine (congrFun (images_term m c) (ix2 b mm)).trans ?_
  unfold Cert.Spec.pixRow
  refine shapeCast_apply _ shapeCasts_S32768x1x28x28_S32768x784 (ix2 b mm) _ ?_
  rw [Shape.rowMajor_val_four, Shape.rowMajor_val_two]
  show ((b.val * 1 + 0) * 28 + mm.val / 28) * 28 + mm.val % 28 = b.val * 784 + mm.val
  omega

theorem entered_mat1 (mm : Fin 784) (j : Fin 10) :
    (entered m c main_v14 : S784x10.Idx → EReal) (ix2 mm j) = Cert.Spec.W1 (argLW m c) mm j := by
  refine (congrFun (mat1_term m c) (ix2 mm j)).trans ?_
  refine (scatter_feat_apply (argLW m c) _ 0 2 (by omega) (by omega) _ _ mm j).trans ?_
  unfold Cert.Spec.W1 Cert.Spec.lwRow
  by_cases hb : mm.val % 2 = 0
  · rw [if_pos hb, if_pos hb]
    refine congrArg (fun r => argLW m c (ix2 r j)) (Fin.ext ?_)
    show 4 * (14 * (mm.val / 56) + mm.val % 28 / 2) + (if mm.val / 28 % 2 = 0 then 0 else 2) = Cert.Spec.featRow mm
    unfold Cert.Spec.featRow
    split <;> omega
  · rw [if_neg hb, if_neg hb]
    rfl

theorem entered_mat2 (mm : Fin 784) (j : Fin 10) :
    (entered m c main_v26 : S784x10.Idx → EReal) (ix2 mm j) = Cert.Spec.W2 (argLW m c) mm j := by
  refine (congrFun (mat2_term m c) (ix2 mm j)).trans ?_
  refine (scatter_feat_apply (argLW m c) _ 1 3 (by omega) (by omega) _ _ mm j).trans ?_
  unfold Cert.Spec.W2 Cert.Spec.lwRow
  by_cases hb : mm.val % 2 = 0
  · rw [if_pos hb, if_pos hb]
    refine congrArg (fun r => argLW m c (ix2 r j)) (Fin.ext ?_)
    show 4 * (14 * (mm.val / 56) + mm.val % 28 / 2) + (if mm.val / 28 % 2 = 0 then 1 else 3) = Cert.Spec.featRow mm + 1
    unfold Cert.Spec.featRow
    split <;> omega
  · rw [if_neg hb, if_neg hb]
    rfl

theorem entered_extra (r : Fin 4) (j : Fin 10) :
    (entered m c main_v37 : S4x10.Idx → EReal) (ix2 r j) = Cert.Spec.extra (argLW m c) (argB m c) r j := by
  refine (congrFun (extra_term m c) (ix2 r j)).trans ?_
  match r with
  | ⟨0, h⟩ => exact (table4_apply _ _ _ _ 0 h _ rfl j).trans (tblRow_apply 784 (by norm_num) _ (argLW m c) 0 j)
  | ⟨1, h⟩ => exact (table4_apply _ _ _ _ 1 h _ rfl j).trans (tblRow_apply 785 (by norm_num) _ (argLW m c) 0 j)
  | ⟨2, h⟩ => exact (table4_apply _ _ _ _ 2 h _ rfl j).trans (tblRow_apply 786 (by norm_num) _ (argLW m c) 0 j)
  | ⟨3, h⟩ => exact (table4_apply _ _ _ _ 3 h _ rfl j).trans (bcast_vec_apply (argB m c) 0 j)

theorem entered_angs (e : Fin 2) :
    (entered m c main_v51 : S1x2.Idx → EReal) (ix2 (0 : Fin 1) e) = Cert.Spec.angs (argSW m c) e := by
  refine (congrFun (angs_term m c) (ix2 (0 : Fin 1) e)).trans ?_
  unfold angPair
  match e with
  | ⟨0, _⟩ =>
    refine (pair_apply_zero _ _ 0).trans ?_
    unfold angSum
    refine (bcast_one_apply _ _).trans ?_
    refine (addf_apply _ _ ix0).trans ?_
    rw [scalarOf_apply 0 (by omega), scalarOf_apply 2 (by omega)]
    rfl
  | ⟨1, _⟩ =>
    refine (pair_apply_one _ _ 0).trans ?_
    unfold angSum
    refine (bcast_one_apply _ _).trans ?_
    refine (addf_apply _ _ ix0).trans ?_
    rw [scalarOf_apply 1 (by omega), scalarOf_apply 3 (by omega)]
    rfl

end Cert.KernelIdeal.HostRead

end
-- ==== Proof.KernelValue.lean ====
import proofs.«421675_j65481071397824_3_alg».proof.Proof.KernelIdealRun
import proofs.«421675_j65481071397824_3_alg».proof.Proof.KernelPayload
import proofs.«421675_j65481071397824_3_alg».proof.Proof.KernelHost
import proofs.«421675_j65481071397824_3_alg».proof.Proof.Spec
import Idealize.ShloMosaic.Lib.Pipeline.Value
import Idealize.ShloMosaic.Lib.ValueIdx

/-!
# The kernel program's result array

Point `t` of the grid is handed rows `1024 t … 1024 t + 1023` of the images and the whole of the four tables,
and writes back rows `1024 t … 1024 t + 1023` of the result; the 32 points' blocks tile the result array. So after
the run entry `(b, j)` of the result is the body's value at row `b mod 1024` of point `b / 1024`, which is the
log-softmax of the row of logits of image `b`.
-/

set_option maxRecDepth 16384

noncomputable section

namespace Cert.KernelIdeal.Final

open Cert.KernelIdeal Cert.KernelIdeal.Gen Cert.KernelIdeal.Hand Cert.KernelIdeal.HostRead
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The result array: row `b` is the log-softmax of image `b`'s logits. -/
def resultOf (X : Cert.Spec.SX.Idx → EReal) (LW : Cert.Spec.SLW.Idx → EReal) (BIAS : Cert.Spec.SB.Idx → EReal)
    (SW : Cert.Spec.SSW.Idx → EReal) : S32768x10.Idx → EReal :=
  fun i => Cert.Spec.logSoftmaxRow (Cert.Spec.kLogit X LW BIAS SW (i 0)) (i 1)

theorem zero_offsets : (![0, 0] : Fin 2 → Nat) = fun _ => 0 := funext fun a => by fin_cases a <;> rfl

/-- The index maps over the grid: the images' and the result's blocks move down one block per point, the four
    tables' block is the whole table at every point. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The image row a point's block row stands for. -/
def rowOf (t : Fin cfg0.N) (p : Fin 1024) : Fin 32768 :=
  ⟨t.val * 1024 + p.val, by have := t.isLt; have := p.isLt; have h : cfg0.N = 32 := N_0; omega⟩

/-! ## The blocks a point is handed, read at an entry -/

/-- Row `p` of point `t`'s block of images is image `1024 t + p`. -/
theorem img_block (c : Dev nD) (t : Fin cfg0.N) (p : Fin 1024) (mm : Fin 784) :
    imgAt m c t (ix2 p mm) = Cert.Spec.pixRow (argX m c) (rowOf t p) mm := by
  rw [← entered_images m c (rowOf t p) mm]
  show (entered m c main_v0 : S32768x784.Idx → EReal) (((cfg0.win 0).blk t).view.emb (ix2 p mm)) = _
  obtain ⟨e0, e1, -⟩ := index_facts t
  congr 1
  funext a; apply Fin.ext
  match a with
  | ⟨0, _⟩ => show win0_0.index t (0 : Fin 2) * 1024 + 1 * p.val = t.val * 1024 + p.val; omega
  | ⟨1, _⟩ => show win0_0.index t (1 : Fin 2) * 784 + 1 * mm.val = mm.val; omega

/-- The four tables' block at every point is the whole table. -/
theorem mat1_block (c : Dev nD) (t : Fin cfg0.N) (mm : Fin 784) (j : Fin 10) :
    mat1At m c t (ix2 mm j) = Cert.Spec.W1 (argLW m c) mm j := by
  rw [← entered_mat1 m c mm j]
  show (entered m c main_v14 : S784x10.Idx → EReal) (((cfg0.win 1).blk t).view.emb (ix2 mm j)) = _
  obtain ⟨-, -, e0, e1, -⟩ := index_facts t
  congr 1
  funext a; apply Fin.ext
  match a with
  | ⟨0, _⟩ => show win0_1.index t (0 : Fin 2) * 784 + 1 * mm.val = mm.val; omega
  | ⟨1, _⟩ => show win0_1.index t (1 : Fin 2) * 10 + 1 * j.val = j.val; omega

theorem mat2_block (c : Dev nD) (t : Fin cfg0.N) (mm : Fin 784) (j : Fin 10) :
    mat2At m c t (ix2 mm j) = Cert.Spec.W2 (argLW m c) mm j := by
  rw [← entered_mat2 m c mm j]
  show (entered m c main_v26 : S784x10.Idx → EReal) (((cfg0.win 2).blk t).view.emb (ix2 mm j)) = _
  obtain ⟨-, -, -, -, e0, e1, -⟩ := index_facts t
  congr 1
  funext a; apply Fin.ext
  match a with
  | ⟨0, _⟩ => show win0_2.index t (0 : Fin 2) * 784 + 1 * mm.val = mm.val; omega
  | ⟨1, _⟩ => show win0_2.index t (1 : Fin 2) * 10 + 1 * j.val = j.val; omega

theorem extra_block (c : Dev nD) (t : Fin cfg0.N) (r : Fin 4) (j : Fin 10) :
    extraAt m c t (ix2 r j) = Cert.Spec.extra (argLW m c) (argB m c) r j := by
  rw [← entered_extra m c r j]
  show (entered m c main_v37 : S4x10.Idx → EReal) (((cfg0.win 3).blk t).view.emb (ix2 r j)) = _
  obtain ⟨-, -, -, -, -, -, e0, e1, -⟩ := index_facts t
  congr 1
  funext a; apply Fin.ext
  match a with
  | ⟨0, _⟩ => show win0_3.index t (0 : Fin 2) * 4 + 1 * r.val = r.val; omega
  | ⟨1, _⟩ => show win0_3.index t (1 : Fin 2) * 10 + 1 * j.val = j.val; omega

theorem ang_block (c : Dev nD) (t : Fin cfg0.N) (e : Fin 2) :
    angAt m c t (ix2 (0 : Fin 1) e) = Cert.Spec.angs (argSW m c) e := by
  rw [← entered_angs m c e]
  show (entered m c main_v51 : S1x2.Idx → EReal) (((cfg0.win 4).blk t).view.emb (ix2 (0 : Fin 1) e)) = _
  obtain ⟨-, -, -, -, -, -, -, -, e0, e1, -⟩ := index_facts t
  congr 1
  funext a; apply Fin.ext
  match a with
  | ⟨0, _⟩ => show win0_4.index t (0 : Fin 2) * 1 + 1 * 0 = 0; omega
  | ⟨1, _⟩ => show win0_4.index t (1 : Fin 2) * 2 + 1 * e.val = e.val; omega

/-! ## What a point writes back -/

/-- The body's stored value at row `p` of point `t`: the log-softmax of image `1024 t + p`'s logits. -/
theorem stored_at (c : Dev nD) (t : Fin cfg0.N) (p : Fin 1024) (j : Fin 10) :
    stored (F := Ideal) (imgAt m c t) (mat1At m c t) (mat2At m c t) (extraAt m c t) (angAt m c t) (ix2 p j)
      = Cert.Spec.logSoftmaxRow (Cert.Spec.kLogit (argX m c) (argLW m c) (argB m c) (argSW m c) (rowOf t p)) j := by
  unfold stored
  simp only [View.ld_unit_zero (S := S1024x784) zero_offsets, View.ld_unit_zero (S := S784x10) zero_offsets,
    View.ld_unit_zero (S := S4x10) zero_offsets]
  refine (Cert.KernelIdeal.Payload.payload_apply _ _ _ _ _ _ p j).trans ?_
  have h0 : (fun mm => imgAt m c t (ix2 p mm)) = Cert.Spec.pixRow (argX m c) (rowOf t p) :=
    funext fun mm => img_block m c t p mm
  have h1 : (fun mm j' => mat1At m c t (ix2 mm j')) = Cert.Spec.W1 (argLW m c) :=
    funext fun mm => funext fun j' => mat1_block m c t mm j'
  have h2 : (fun mm j' => mat2At m c t (ix2 mm j')) = Cert.Spec.W2 (argLW m c) :=
    funext fun mm => funext fun j' => mat2_block m c t mm j'
  have h3 : (fun r j' => extraAt m c t (ix2 r j')) = Cert.Spec.extra (argLW m c) (argB m c) :=
    funext fun r => funext fun j' => extra_block m c t r j'
  rw [h0, h1, h2, h3]
  unfold Cert.Spec.kLogit
  refine congrArg (fun f => Cert.Spec.logSoftmaxRow (Cert.Spec.rowLogit (Cert.Spec.pixRow (argX m c) (rowOf t p))
    (Cert.Spec.W1 (argLW m c)) (Cert.Spec.W2 (argLW m c)) (Cert.Spec.extra (argLW m c) (argB m c)) f) j) (funext fun e => ?_)
  match e with
  | ⟨0, _⟩ =>
    refine Eq.trans ?_ (ang_block m c t 0)
    show angAt m c t _ = angAt m c t _
    congr 1; funext a; apply Fin.ext
    match a with
    | ⟨0, _⟩ => rfl
    | ⟨1, _⟩ => rfl
  | ⟨1, _⟩ =>
    refine Eq.trans ?_ (ang_block m c t 1)
    show angAt m c t _ = angAt m c t _
    congr 1; funext a; apply Fin.ext
    match a with
    | ⟨0, _⟩ => rfl
    | ⟨1, _⟩ => rfl

/-- Point `t` writes back block `t` of `resultOf`. -/
theorem flushed_eq (c : Dev nD) (t : Fin cfg0.N) :
    (dats m 0 c).flushed 5 t
      = ((cfg0.win 5).blk t).view.read (Elt Ideal) (resultOf (argX m c) (argLW m c) (argB m c) (argSW m c)) := by
  show (cfg0.win 5).cut (grid0.coords t) ((dats m 0 c).after 5 t) = _
  rw [after_5]
  unfold outBlock
  rw [View.canon_unit_zero zero_offsets]
  funext y
  obtain ⟨p, q, rfl⟩ : ∃ (p : Fin 1024) (q : Fin 10), y = ix2 p q := ⟨y 0, y 1, eq_ix2 y⟩
  refine (stored_at m c t p q).trans ?_
  show _ = resultOf (argX m c) (argLW m c) (argB m c) (argSW m c) (((cfg0.win 5).blk t).view.emb (ix2 p q))
  unfold resultOf
  obtain ⟨-, -, -, -, -, -, -, -, -, -, e0, e1⟩ := index_facts t
  have hb : (((cfg0.win 5).blk t).view.emb (ix2 p q)) 0 = rowOf t p := by
    apply Fin.ext
    show win0_5.index t (0 : Fin 2) * 1024 + 1 * p.val = t.val * 1024 + p.val; omega
  have hj : (((cfg0.win 5).blk t).view.emb (ix2 p q)) 1 = q := by
    apply Fin.ext
    show win0_5.index t (1 : Fin 2) * 10 + 1 * q.val = q.val; omega
  rw [hb, hj]

/-- An entry of the result array is in point `t`'s block iff its row is among the block's 1024. -/
theorem mem_block (t : Fin cfg0.N) (i : S32768x10.Idx) :
    i ∈ ((cfg0.win 5).blk t).view.set ↔ ∀ a : Fin 2, win0_5.index t a * S1024x10.size a ≤ (i a).val
      ∧ (i a).val < win0_5.index t a * S1024x10.size a + S1024x10.size a := by
  show i ∈ ((View.whole main_v52).slice (win0_5.rect t)).set ↔ _
  rw [View.set_slice_whole, Rect.mem_set_unit]
  exact Iff.rfl

/-- Every entry is in the block of the point its row names. -/
theorem covered (i : S32768x10.Idx) :
    ∃ t : Fin cfg0.N, (cfg0.win 5).flush t = true ∧ i ∈ ((cfg0.win 5).blk t).view.set := by
  have hi0 : (i 0).val < 32768 := (i 0).isLt
  have hi1 : (i 1).val < 10 := (i 1).isLt
  have hN : cfg0.N = 32 := N_0
  let t : Fin cfg0.N := ⟨(i 0).val / 1024, by omega⟩
  obtain ⟨-, -, -, -, -, -, -, -, -, -, e0, e1⟩ := index_facts t
  have e0' : win0_5.index t (0 : Fin 2) = (i 0).val / 1024 := e0
  refine ⟨t, flush0_5 t, ?_⟩
  rw [mem_block]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 10 ≤ (i 1).val ∧ (i 1).val < win0_5.index t (1 : Fin 2) * 10 + 10; omega

/-- The result array after the run. -/
theorem final (c : Dev nD) :
    (dats m 0 c).arrAt 5 cfg0.N = resultOf (argX m c) (argLW m c) (argB m c) (argSW m c) :=
  (dats m 0 c).arrAt_eq_of_cover 5 _ (fun t _ => flushed_eq m c t) covered

/-- Every weakly fair execution of the kernel program terminates with the result array at `resultOf` of the four
    argument arrays as launched, and the argument arrays unchanged. -/
theorem run : θ_run defs (onTc (τ := τ) (main (F := Ideal))) ⟨m, fun _ => 0, ρ⟩ fun r => ∀ c : Dev nD,
      r.2.mem ((c.tc : Thread nD τ).loc main_v52) = resultOf (argX m c) (argLW m c) (argB m c) (argSW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).1 5).trans (final m c),
      ((h c).2 main_arg0 (Pipeline.mem_restRefs_of main_arg0 (by decide) (by decide))).trans (entered_arg0 m c),
      ((h c).2 main_arg1 (Pipeline.mem_restRefs_of main_arg1 (by decide) (by decide))).trans (entered_arg1 m c),
      ((h c).2 main_arg2 (Pipeline.mem_restRefs_of main_arg2 (by decide) (by decide))).trans (entered_arg2 m c),
      ((h c).2 main_arg3 (Pipeline.mem_restRefs_of main_arg3 (by decide) (by decide))).trans (entered_arg3 m c)⟩)
    (run_main m ρ)

end Cert.KernelIdeal.Final

end
-- ==== Proof.RefRun.lean ====
import proofs.«421675_j65481071397824_3_alg».proof.Proof.RefReadP
import Idealize.ShloMosaic.Lib.StableHlo.Run

/-! # The reference's run

The reference is a straight line of 108 host operations. Its operations are listed once, in program order, and the
list is cut into five consecutive stretches at the values that many later operations read: the 784 features
(`main_v24`), their mean of four (`main_v45`), the two-way softmax (`main_v82`), the logits (`main_v88`) and the
final log-softmax (`main_v89`). Running a concatenation of two lines is running one after the other, so each stretch
is read on its own, from ANY buffer contents: the value it leaves at its last result is the stage function of that
result, provided the buffers it reads hold the stage functions of theirs; and a buffer none of its operations writes
keeps what it held. Chaining the five gives the contents of `main_v89` after the whole line as the composition of the
stages at the four argument arrays, which no operation writes. -/

noncomputable section

namespace Cert.ReferenceIdeal.RefRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-! ## The operations -/

/-- @main's 108 operations, in program order (the operations of the called log-softmax stand in the call's place). -/
abbrev ops : List (HloOp τ sig (Elt F)) :=
  [ reshape main_arg0 main_v0 rfl shapeCasts_S32768x1x28x28_S32768x28x28,
    reshape main_v0 main_v1 rfl shapeCasts_S32768x28x28_S32768x14x2x14x2,
    unary main_v1 main_v2 ((transpose S32768x14x14x2x2 [0, 1, 3, 2, 4] · transposes_S32768x14x2x14x2_S32768x14x14x2x2_0_1_3_2_4) : (⟨S32768x14x2x14x2, .f32⟩ : BufTy).Contents (Elt F) → (⟨S32768x14x14x2x2, .f32⟩ : BufTy).Contents (Elt F)),
    reshape main_v2 main_v3 rfl shapeCasts_S32768x14x14x2x2_S32768x196x4,
    unary main_v3 main_v4 (Host.cos : (⟨S32768x196x4, .f32⟩ : BufTy).Contents (Elt F) → (⟨S32768x196x4, .f32⟩ : BufTy).Contents (Elt F)),
    unary main_v4 main_v5 ((extractStridedSlice S32768x196x1 ![0, 0, 0] · slices_S32768x196x4_S32768x196x1_0_0_0) : (⟨S32768x196x4, .f32⟩ : BufTy).Contents (Elt F) → (⟨S32768x196x1, .f32⟩ : BufTy).Contents (Elt F)),
    reshape main_v5 main_v6 rfl shapeCasts_S32768x196x1_S32768x196,
    unary main_v4 main_v7 ((extractStridedSlice S32768x196x1 ![0, 0, 0] · slices_S32768x196x4_S32768x196x1_0_0_0) : (⟨S32768x196x4, .f32⟩ : BufTy).Contents (Elt F) → (⟨S32768x196x1, .f32⟩ : BufTy).Contents (Elt F)),
    reshape main_v7 main_v8 rfl shapeCasts_S32768x196x1_S32768x196,
    unary main_v4 main_v9 ((extractStridedSlice S32768x196x1 ![0, 0, 1] · slices_S32768x196x4_S32768x196x1_0_0_1) : (⟨S32768x196x4, .f32⟩ : BufTy).Contents (Elt F) → (⟨S32768x196x1, .f32⟩ : BufTy).Contents (Elt F)),
    reshape main_v9 main_v10 rfl shapeCasts_S32768x196x1_S32768x196,
    binary main_v8 main_v10 main_v11 (mulf : (⟨S32768x196, .f32⟩ : BufTy).Contents (Elt F) → (⟨S32768x196, .f32⟩ : BufTy).Contents (Elt F) → (⟨S32768x196, .f32⟩ : BufTy).Contents (Elt F)),
    unary main_v4 main_v12 ((extractStridedSlice S32768x196x1 ![0, 0, 2] · slices_S32768x196x4_S32768x196x1_0_0_2) : (⟨S32768x196x4, .f32⟩ : BufTy).Contents (Elt F) → (⟨S32768x196x1, .f32⟩ : BufTy).Contents (Elt F)),
    reshape main_v12 main_v13 rfl shapeCasts_S32768x196x1_S32768x196,
    unary main_v4 main_v14 ((extractStridedSlice S32768x196x1 ![0, 0, 2] · slices_S32768x196x4_S32768x196x1_0_0_2) : (⟨S32768x196x4, .f32⟩ : BufTy).Contents (Elt F) → (⟨S32768x196x1, .f32⟩ : BufTy).Contents (Elt F)),
    reshape main_v14 main_v15 rfl shapeCasts_S32768x196x1_S32768x196,
    unary main_v4 main_v16 ((extractStridedSlice S32768x196x1 ![0, 0, 3] · slices_S32768x196x4_S32768x196x1_0_0_3) : (⟨S32768x196x4, .f32⟩ : BufTy).Contents (Elt F) → (⟨S32768x196x1, .f32⟩ : BufTy).Contents (Elt F)),
    reshape main_v16 main_v17 rfl shapeCasts_S32768x196x1_S32768x196,
    binary main_v15 main_v17 main_v18 (mulf : (⟨S32768x196, .f32⟩ : BufTy).Contents (Elt F) → (⟨S32768x196, .f32⟩ : BufTy).Contents (Elt F) → (⟨S32768x196, .f32⟩ : BufTy).Contents (Elt F)),
    unary main_v6 main_v19 (broadcastInDim S32768x196x1 ![0, 1] bcast_S32768x196_S32768x196x1_0_1 : (⟨S32768x196, .f32⟩ : BufTy).Contents (Elt F) → (⟨S32768x196x1, .f32⟩ : BufTy).Contents (Elt F)),
    unary main_v11 main_v20 (broadcastInDim S32768x196x1 ![0, 1] bcast_S32768x196_S32768x196x1_0_1 : (⟨S32768x196, .f32⟩ : BufTy).Contents (Elt F) → (⟨S32768x196x1, .f32⟩ : BufTy).Contents (Elt F)),
    unary main_v13 main_v21 (broadcastInDim S32768x196x1 ![0, 1] bcast_S32768x196_S32768x196x1_0_1 : (⟨S32768x196, .f32⟩ : BufTy).Contents (Elt F) → (⟨S32768x196x1, .f32⟩ : BufTy).Contents (Elt F)),
    unary main_v18 main_v22 (broadcastInDim S32768x196x1 ![0, 1] bcast_S32768x196_S32768x196x1_0_1 : (⟨S32768x196, .f32⟩ : BufTy).Contents (Elt F) → (⟨S32768x196x1, .f32⟩ : BufTy).Contents (Elt F)),
    nary ![main_v19, main_v20, main_v21, main_v22] main_v23 (fun u => concatenate S32768x196x4 2 [⟨S32768x196x1, u 0⟩, ⟨S32768x196x1, u 1⟩, ⟨S32768x196x1, u 2⟩, ⟨S32768x196x1, u 3⟩] concatenates_S32768x196x1_S32768x196x1_S32768x196x1_S32768x196x1_S32768x196x4_d2),
    reshape main_v23 main_v24 rfl shapeCasts_S32768x196x4_S32768x784,
    unary main_v24 main_v25 ((extractStridedSlice S32768x4 ![0, 0] · slices_S32768x784_S32768x4_0_0) : (⟨S32768x784, .f32⟩ : BufTy).Contents (Elt F) → (⟨S32768x4, .f32⟩ : BufTy).Contents (Elt F)),
    unary main_v25 main_v26 (Host.cos : (⟨S32768x4, .f32⟩ : BufTy).Contents (Elt F) → (⟨S32768x4, .f32⟩ : BufTy).Contents (Elt F)),
    unary main_v26 main_v27 ((extractStridedSlice S32768x1 ![0, 0] · slices_S32768x4_S32768x1_0_0) : (⟨S32768x4, .f32⟩ : BufTy).Contents (Elt F) → (⟨S32768x1, .f32⟩ : BufTy).Contents (Elt F)),
    reshape main_v27 main_v28 rfl shapeCasts_S32768x1_S32768,
    unary main_v26 main_v29 ((extractStridedSlice S32768x1 ![0, 0] · slices_S32768x4_S32768x1_0_0) : (⟨S32768x4, .f32⟩ : BufTy).Contents (Elt F) → (⟨S32768x1, .f32⟩ : BufTy).Contents (Elt F)),
    reshape main_v29 main_v30 rfl shapeCasts_S32768x1_S32768,
    unary main_v26 main_v31 ((extractStridedSlice S32768x1 ![0, 1] · slices_S32768x4_S32768x1_0_1) : (⟨S32768x4, .f32⟩ : BufTy).Contents (Elt F) → (⟨S32768x1, .f32⟩ : BufTy).Contents (Elt F)),
    reshape main_v31 main_v32 rfl shapeCasts_S32768x1_S32768,
    binary main_v30 main_v32 main_v33 (mulf : (⟨S32768, .f32⟩ : BufTy).Contents (Elt F) → (⟨S32768, .f32⟩ : BufTy).Contents (Elt F) → (⟨S32768, .f32⟩ : BufTy).Contents (Elt F)),
    binary main_v28 main_v33 main_v34 (addf : (⟨S32768, .f32⟩ : BufTy).Contents (Elt F) → (⟨S32768, .f32⟩ : BufTy).Contents (Elt F) → (⟨S32768, .f32⟩ : BufTy).Contents (Elt F)),
    unary main_v26 main_v35 ((extractStridedSlice S32768x1 ![0, 2] · slices_S32768x4_S32768x1_0_2) : (⟨S32768x4, .f32⟩ : BufTy).Contents (Elt F) → (⟨S32768x1, .f32⟩ : BufTy).Contents (Elt F)),
    reshape main_v35 main_v36 rfl shapeCasts_S32768x1_S32768,
    binary main_v34 main_v36 main_v37 (addf : (⟨S32768, .f32⟩ : BufTy).Contents (Elt F) → (⟨S32768, .f32⟩ : BufTy).Contents (Elt F) → (⟨S32768, .f32⟩ : BufTy).Contents (Elt F)),
    unary main_v26 main_v38 ((extractStridedSlice S32768x1 ![0, 2] · slices_S32768x4_S32768x1_0_2) : (⟨S32768x4, .f32⟩ : BufTy).Contents (Elt F) → (⟨S32768x1, .f32⟩ : BufTy).Contents (Elt F)),
    reshape main_v38 main_v39 rfl shapeCasts_S32768x1_S32768,
    unary main_v26 main_v40 ((extractStridedSlice S32768x1 ![0, 3] · slices_S32768x4_S32768x1_0_3) : (⟨S32768x4, .f32⟩ : BufTy).Contents (Elt F) → (⟨S32768x1, .f32⟩ : BufTy).Contents (Elt F)),
    reshape main_v40 main_v41 rfl shapeCasts_S32768x1_S32768,
    binary main_v39 main_v41 main_v42 (mulf : (⟨S32768, .f32⟩ : BufTy).Contents (Elt F) → (⟨S32768, .f32⟩ : BufTy).Contents (Elt F) → (⟨S32768, .f32⟩ : BufTy).Contents (Elt F)),
    binary main_v37 main_v42 main_v43 (addf : (⟨S32768, .f32⟩ : BufTy).Contents (Elt F) → (⟨S32768, .f32⟩ : BufTy).Contents (Elt F) → (⟨S32768, .f32⟩ : BufTy).Contents (Elt F)),
    nullary main_cst (constant S_ .f32 0x40800000#32),
    unary main_cst main_v44 (broadcastInDim S32768 ![] bcast_S_S32768 : (⟨S_, .f32⟩ : BufTy).Contents (Elt F) → (⟨S32768, .f32⟩ : BufTy).Contents (Elt F)),
    binary main_v43 main_v44 main_v45 (Host.divf : (⟨S32768, .f32⟩ : BufTy).Contents (Elt F) → (⟨S32768, .f32⟩ : BufTy).Contents (Elt F) → (⟨S32768, .f32⟩ : BufTy).Contents (Elt F)),
    unary main_v24 main_v46 ((extractStridedSlice S32768x1 ![0, 0] · slices_S32768x784_S32768x1_0_0) : (⟨S32768x784, .f32⟩ : BufTy).Contents (Elt F) → (⟨S32768x1, .f32⟩ : BufTy).Contents (Elt F)),
    reshape main_v46 main_v47 rfl shapeCasts_S32768x1_S32768,
    unary main_arg3 main_v48 ((extractStridedSlice S1 ![0] · slices_S4_S1_0) : (⟨S4, .f32⟩ : BufTy).Contents (Elt F) → (⟨S1, .f32⟩ : BufTy).Contents (Elt F)),
    reshape main_v48 main_v49 rfl shapeCasts_S1_S_,
    unary main_v49 main_v50 (broadcastInDim S32768 ![] bcast_S_S32768 : (⟨S_, .f32⟩ : BufTy).Contents (Elt F) → (⟨S32768, .f32⟩ : BufTy).Contents (Elt F)),
    binary main_v47 main_v50 main_v51 (addf : (⟨S32768, .f32⟩ : BufTy).Contents (Elt F) → (⟨S32768, .f32⟩ : BufTy).Contents (Elt F) → (⟨S32768, .f32⟩ : BufTy).Contents (Elt F)),
    unary main_arg3 main_v52 ((extractStridedSlice S1 ![2] · slices_S4_S1_2) : (⟨S4, .f32⟩ : BufTy).Contents (Elt F) → (⟨S1, .f32⟩ : BufTy).Contents (Elt F)),
    reshape main_v52 main_v53 rfl shapeCasts_S1_S_,
    unary main_v53 main_v54 (broadcastInDim S32768 ![] bcast_S_S32768 : (⟨S_, .f32⟩ : BufTy).Contents (Elt F) → (⟨S32768, .f32⟩ : BufTy).Contents (Elt F)),
    binary main_v51 main_v54 main_v55 (addf : (⟨S32768, .f32⟩ : BufTy).Contents (Elt F) → (⟨S32768, .f32⟩ : BufTy).Contents (Elt F) → (⟨S32768, .f32⟩ : BufTy).Contents (Elt F)),
    unary main_v24 main_v56 ((extractStridedSlice S32768x1 ![0, 1] · slices_S32768x784_S32768x1_0_1) : (⟨S32768x784, .f32⟩ : BufTy).Contents (Elt F) → (⟨S32768x1, .f32⟩ : BufTy).Contents (Elt F)),
    reshape main_v56 main_v57 rfl shapeCasts_S32768x1_S32768,
    unary main_arg3 main_v58 ((extractStridedSlice S1 ![1] · slices_S4_S1_1) : (⟨S4, .f32⟩ : BufTy).Contents (Elt F) → (⟨S1, .f32⟩ : BufTy).Contents (Elt F)),
    reshape main_v58 main_v59 rfl shapeCasts_S1_S_,
    unary main_v59 main_v60 (broadcastInDim S32768 ![] bcast_S_S32768 : (⟨S_, .f32⟩ : BufTy).Contents (Elt F) → (⟨S32768, .f32⟩ : BufTy).Contents (Elt F)),
    binary main_v57 main_v60 main_v61 (addf : (⟨S32768, .f32⟩ : BufTy).Contents (Elt F) → (⟨S32768, .f32⟩ : BufTy).Contents (Elt F) → (⟨S32768, .f32⟩ : BufTy).Contents (Elt F)),
    unary main_arg3 main_v62 ((extractStridedSlice S1 ![3] · slices_S4_S1_3) : (⟨S4, .f32⟩ : BufTy).Contents (Elt F) → (⟨S1, .f32⟩ : BufTy).Contents (Elt F)),
    reshape main_v62 main_v63 rfl shapeCasts_S1_S_,
    unary main_v63 main_v64 (broadcastInDim S32768 ![] bcast_S_S32768 : (⟨S_, .f32⟩ : BufTy).Contents (Elt F) → (⟨S32768, .f32⟩ : BufTy).Contents (Elt F)),
    binary main_v61 main_v64 main_v65 (addf : (⟨S32768, .f32⟩ : BufTy).Contents (Elt F) → (⟨S32768, .f32⟩ : BufTy).Contents (Elt F) → (⟨S32768, .f32⟩ : BufTy).Contents (Elt F)),
    unary main_v55 main_v66 (Host.cos : (⟨S32768, .f32⟩ : BufTy).Contents (Elt F) → (⟨S32768, .f32⟩ : BufTy).Contents (Elt F)),
    unary main_v65 main_v67 (Host.cos : (⟨S32768, .f32⟩ : BufTy).Contents (Elt F) → (⟨S32768, .f32⟩ : BufTy).Contents (Elt F)),
    binary main_v66 main_v67 main_v68 (mulf : (⟨S32768, .f32⟩ : BufTy).Contents (Elt F) → (⟨S32768, .f32⟩ : BufTy).Contents (Elt F) → (⟨S32768, .f32⟩ : BufTy).Contents (Elt F)),
    unary main_v66 main_v69 (broadcastInDim S32768x1 ![0] bcast_S32768_S32768x1_0 : (⟨S32768, .f32⟩ : BufTy).Contents (Elt F) → (⟨S32768x1, .f32⟩ : BufTy).Contents (Elt F)),
    unary main_v68 main_v70 (broadcastInDim S32768x1 ![0] bcast_S32768_S32768x1_0 : (⟨S32768, .f32⟩ : BufTy).Contents (Elt F) → (⟨S32768x1, .f32⟩ : BufTy).Contents (Elt F)),
    binary main_v69 main_v70 main_v71 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    nullary main_cst_0 (constant S_ .f32 0xFF800000#32),
    binary main_v71 main_cst_0 main_v72 ((fun x v => Host.reduce FloatOps.maximumf x v reducesTo_S32768x2_S32768_d1 h_S_) : (⟨S32768x2, .f32⟩ : BufTy).Contents (Elt F) → (⟨S_, .f32⟩ : BufTy).Contents (Elt F) → (⟨S32768, .f32⟩ : BufTy).Contents (Elt F)),
    nullary main_cst_1 (constant S_ .f32 0xFF800000#32),
    unary main_cst_1 main_v73 (broadcastInDim S32768 ![] bcast_S_S32768 : (⟨S_, .f32⟩ : BufTy).Contents (Elt F) → (⟨S32768, .f32⟩ : BufTy).Contents (Elt F)),
    binary main_v73 main_v72 main_v74 (maximumf : (⟨S32768, .f32⟩ : BufTy).Contents (Elt F) → (⟨S32768, .f32⟩ : BufTy).Contents (Elt F) → (⟨S32768, .f32⟩ : BufTy).Contents (Elt F)),
    unary main_v74 main_v75 (broadcastInDim S32768x1 ![0] bcast_S32768_S32768x1_0 : (⟨S32768, .f32⟩ : BufTy).Contents (Elt F) → (⟨S32768x1, .f32⟩ : BufTy).Contents (Elt F)),
    unary main_v75 main_v76 (broadcastInDim S32768x2 ![0, 1] bcast_S32768x1_S32768x2_0_1 : (⟨S32768x1, .f32⟩ : BufTy).Contents (Elt F) → (⟨S32768x2, .f32⟩ : BufTy).Contents (Elt F)),
    binary main_v71 main_v76 main_v77 (subf : (⟨S32768x2, .f32⟩ : BufTy).Contents (Elt F) → (⟨S32768x2, .f32⟩ : BufTy).Contents (Elt F) → (⟨S32768x2, .f32⟩ : BufTy).Contents (Elt F)),
    unary main_v77 main_v78 (Host.exp : (⟨S32768x2, .f32⟩ : BufTy).Contents (Elt F) → (⟨S32768x2, .f32⟩ : BufTy).Contents (Elt F)),
    nullary main_cst_2 (constant S_ .f32 0x00000000#32),
    binary main_v78 main_cst_2 main_v79 ((fun x v => Host.reduceAdd x v reducesTo_S32768x2_S32768_d1 h_S_) : (⟨S32768x2, .f32⟩ : BufTy).Contents (Elt F) → (⟨S_, .f32⟩ : BufTy).Contents (Elt F) → (⟨S32768, .f32⟩ : BufTy).Contents (Elt F)),
    unary main_v79 main_v80 (broadcastInDim S32768x1 ![0] bcast_S32768_S32768x1_0 : (⟨S32768, .f32⟩ : BufTy).Contents (Elt F) → (⟨S32768x1, .f32⟩ : BufTy).Contents (Elt F)),
    unary main_v80 main_v81 (broadcastInDim S32768x2 ![0, 1] bcast_S32768x1_S32768x2_0_1 : (⟨S32768x1, .f32⟩ : BufTy).Contents (Elt F) → (⟨S32768x2, .f32⟩ : BufTy).Contents (Elt F)),
    binary main_v78 main_v81 main_v82 (Host.divf : (⟨S32768x2, .f32⟩ : BufTy).Contents (Elt F) → (⟨S32768x2, .f32⟩ : BufTy).Contents (Elt F) → (⟨S32768x2, .f32⟩ : BufTy).Contents (Elt F)),
    unary main_v45 main_v83 (broadcastInDim S32768x1 ![0] bcast_S32768_S32768x1_0 : (⟨S32768, .f32⟩ : BufTy).Contents (Elt F) → (⟨S32768x1, .f32⟩ : BufTy).Contents (Elt F)),
    nary ![main_v24, main_v83, main_v82] main_v84 (fun u => concatenate S32768x787 1 [⟨S32768x784, u 0⟩, ⟨S32768x1, u 1⟩, ⟨S32768x2, u 2⟩] concatenates_S32768x784_S32768x1_S32768x2_S32768x787_d1),
    binary main_v84 main_arg1 main_v85 ((fun l r => Host.dotGeneral dot_S32768x787_S787x10_S32768x10_1_0_0_1_n_n none l r) : (⟨S32768x787, .f32⟩ : BufTy).Contents (Elt F) → (⟨S787x10, .f32⟩ : BufTy).Contents (Elt F) → (⟨S32768x10, .f32⟩ : BufTy).Contents (Elt F)),
    unary main_arg2 main_v86 (broadcastInDim S1x10 ![1] bcast_S10_S1x10_1 : (⟨S10, .f32⟩ : BufTy).Contents (Elt F) → (⟨S1x10, .f32⟩ : BufTy).Contents (Elt F)),
    unary main_v86 main_v87 (broadcastInDim S32768x10 ![0, 1] bcast_S1x10_S32768x10_0_1 : (⟨S1x10, .f32⟩ : BufTy).Contents (Elt F) → (⟨S32768x10, .f32⟩ : BufTy).Contents (Elt F)),
    binary main_v85 main_v87 main_v88 (addf : (⟨S32768x10, .f32⟩ : BufTy).Contents (Elt F) → (⟨S32768x10, .f32⟩ : BufTy).Contents (Elt F) → (⟨S32768x10, .f32⟩ : BufTy).Contents (Elt F)),
    TRef.nullary (TRef.of (T := ⟨S_, .f32⟩) main_call0_cst) (constant S_ .f32 0xFF800000#32),
    TRef.binary (TRef.of (T := ⟨S32768x10, .f32⟩) main_v88) (TRef.of (T := ⟨S_, .f32⟩) main_call0_cst) (TRef.of (T := ⟨S32768, .f32⟩) main_call0_v0) (fun x v => Host.reduce FloatOps.maximumf x v reducesTo_S32768x10_S32768_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S32768, .f32⟩) main_call0_v1) (broadcastInDim S32768 ![] bcast_S_S32768),
    TRef.binary (TRef.of (T := ⟨S32768, .f32⟩) main_call0_v1) (TRef.of (T := ⟨S32768, .f32⟩) main_call0_v0) (TRef.of (T := ⟨S32768, .f32⟩) main_call0_v2) maximumf,
    TRef.unary (TRef.of (T := ⟨S32768, .f32⟩) main_call0_v2) (TRef.of (T := ⟨S32768x1, .f32⟩) main_call0_v3) (broadcastInDim S32768x1 ![0] bcast_S32768_S32768x1_0),
    TRef.unary (TRef.of (T := ⟨S32768x1, .f32⟩) main_call0_v3) (TRef.of (T := ⟨S32768x10, .f32⟩) main_call0_v4) (broadcastInDim S32768x10 ![0, 1] bcast_S32768x1_S32768x10_0_1),
    TRef.binary (TRef.of (T := ⟨S32768x10, .f32⟩) main_v88) (TRef.of (T := ⟨S32768x10, .f32⟩) main_call0_v4) (TRef.of (T := ⟨S32768x10, .f32⟩) main_call0_v5) subf,
    TRef.unary (TRef.of (T := ⟨S32768x10, .f32⟩) main_call0_v5) (TRef.of (T := ⟨S32768x10, .f32⟩) main_call0_v6) Host.exp,
    TRef.nullary (TRef.of (T := ⟨S_, .f32⟩) main_call0_cst_1) (constant S_ .f32 0x00000000#32),
    TRef.binary (TRef.of (T := ⟨S32768x10, .f32⟩) main_call0_v6) (TRef.of (T := ⟨S_, .f32⟩) main_call0_cst_1) (TRef.of (T := ⟨S32768, .f32⟩) main_call0_v7) (fun x v => Host.reduceAdd x v reducesTo_S32768x10_S32768_d1 h_S_),
    TRef.unary (TRef.of (T := ⟨S32768, .f32⟩) main_call0_v7) (TRef.of (T := ⟨S32768x1, .f32⟩) main_call0_v8) (broadcastInDim S32768x1 ![0] bcast_S32768_S32768x1_0),
    TRef.unary (TRef.of (T := ⟨S32768x1, .f32⟩) main_call0_v8) (TRef.of (T := ⟨S32768x1, .f32⟩) main_call0_v9) Host.log,
    TRef.unary (TRef.of (T := ⟨S32768x1, .f32⟩) main_call0_v9) (TRef.of (T := ⟨S32768x10, .f32⟩) main_call0_v10) (broadcastInDim S32768x10 ![0, 1] bcast_S32768x1_S32768x10_0_1),
    TRef.binary (TRef.of (T := ⟨S32768x10, .f32⟩) main_call0_v5) (TRef.of (T := ⟨S32768x10, .f32⟩) main_call0_v10) (TRef.of (T := ⟨S32768x10, .f32⟩) main_v89) subf ]

set_option maxRecDepth 8192 in
set_option maxHeartbeats 4000000 in
/-- The reference's @main is the line of its operations. -/
theorem main_eq (c : Dev nD) : main (F := F) c = seq ops := rfl

/-- The signature scopes no buffer of the core. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

set_option maxRecDepth 8192 in
/-- Every operation touches buffers of the core only. -/
theorem ops_sub : (ops : List (HloOp τ sig (Elt F))).Forall fun op => op.bufs ⊆ tcRefs τ sig :=
  ⟨reshape_bufs_sub .., reshape_bufs_sub .., unary_bufs_sub .., reshape_bufs_sub .., unary_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., unary_bufs_sub .., reshape_bufs_sub .., binary_bufs_sub .., unary_bufs_sub .., unary_bufs_sub .., unary_bufs_sub .., unary_bufs_sub .., nary_bufs_sub .., reshape_bufs_sub .., unary_bufs_sub .., unary_bufs_sub .., unary_bufs_sub .., reshape_bufs_sub .., unary_bufs_sub .., reshape_bufs_sub .., unary_bufs_sub .., reshape_bufs_sub .., binary_bufs_sub .., binary_bufs_sub .., unary_bufs_sub .., reshape_bufs_sub .., binary_bufs_sub .., unary_bufs_sub .., reshape_bufs_sub .., unary_bufs_sub .., reshape_bufs_sub .., binary_bufs_sub .., binary_bufs_sub .., nullary_bufs_sub .., unary_bufs_sub .., binary_bufs_sub .., unary_bufs_sub .., reshape_bufs_sub .., unary_bufs_sub .., reshape_bufs_sub .., unary_bufs_sub .., binary_bufs_sub .., unary_bufs_sub .., reshape_bufs_sub .., unary_bufs_sub .., binary_bufs_sub .., unary_bufs_sub .., reshape_bufs_sub .., unary_bufs_sub .., reshape_bufs_sub .., unary_bufs_sub .., binary_bufs_sub .., unary_bufs_sub .., reshape_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The five stretches -/

/-- From the image to the 784 features: the 2×2 patches, their cosines, and the four products per patch. -/
abbrev cA : List (HloOp τ sig (Elt F)) :=
  [ reshape main_arg0 main_v0 rfl shapeCasts_S32768x1x28x28_S32768x28x28,
    reshape main_v0 main_v1 rfl shapeCasts_S32768x28x28_S32768x14x2x14x2,
    unary main_v1 main_v2 ((transpose S32768x14x14x2x2 [0, 1, 3, 2, 4] · transposes_S32768x14x2x14x2_S32768x14x14x2x2_0_1_3_2_4) : (⟨S32768x14x2x14x2, .f32⟩ : BufTy).Contents (Elt F) → (⟨S32768x14x14x2x2, .f32⟩ : BufTy).Contents (Elt F)),
    reshape main_v2 main_v3 rfl shapeCasts_S32768x14x14x2x2_S32768x196x4,
    unary main_v3 main_v4 (Host.cos : (⟨S32768x196x4, .f32⟩ : BufTy).Contents (Elt F) → (⟨S32768x196x4, .f32⟩ : BufTy).Contents (Elt F)),
    unary main_v4 main_v5 ((extractStridedSlice S32768x196x1 ![0, 0, 0] · slices_S32768x196x4_S32768x196x1_0_0_0) : (⟨S32768x196x4, .f32⟩ : BufTy).Contents (Elt F) → (⟨S32768x196x1, .f32⟩ : BufTy).Contents (Elt F)),
    reshape main_v5 main_v6 rfl shapeCasts_S32768x196x1_S32768x196,
    unary main_v4 main_v7 ((extractStridedSlice S32768x196x1 ![0, 0, 0] · slices_S32768x196x4_S32768x196x1_0_0_0) : (⟨S32768x196x4, .f32⟩ : BufTy).Contents (Elt F) → (⟨S32768x196x1, .f32⟩ : BufTy).Contents (Elt F)),
    reshape main_v7 main_v8 rfl shapeCasts_S32768x196x1_S32768x196,
    unary main_v4 main_v9 ((extractStridedSlice S32768x196x1 ![0, 0, 1] · slices_S32768x196x4_S32768x196x1_0_0_1) : (⟨S32768x196x4, .f32⟩ : BufTy).Contents (Elt F) → (⟨S32768x196x1, .f32⟩ : BufTy).Contents (Elt F)),
    reshape main_v9 main_v10 rfl shapeCasts_S32768x196x1_S32768x196,
    binary main_v8 main_v10 main_v11 (mulf : (⟨S32768x196, .f32⟩ : BufTy).Contents (Elt F) → (⟨S32768x196, .f32⟩ : BufTy).Contents (Elt F) → (⟨S32768x196, .f32⟩ : BufTy).Contents (Elt F)),
    unary main_v4 main_v12 ((extractStridedSlice S32768x196x1 ![0, 0, 2] · slices_S32768x196x4_S32768x196x1_0_0_2) : (⟨S32768x196x4, .f32⟩ : BufTy).Contents (Elt F) → (⟨S32768x196x1, .f32⟩ : BufTy).Contents (Elt F)),
    reshape main_v12 main_v13 rfl shapeCasts_S32768x196x1_S32768x196,
    unary main_v4 main_v14 ((extractStridedSlice S32768x196x1 ![0, 0, 2] · slices_S32768x196x4_S32768x196x1_0_0_2) : (⟨S32768x196x4, .f32⟩ : BufTy).Contents (Elt F) → (⟨S32768x196x1, .f32⟩ : BufTy).Contents (Elt F)),
    reshape main_v14 main_v15 rfl shapeCasts_S32768x196x1_S32768x196,
    unary main_v4 main_v16 ((extractStridedSlice S32768x196x1 ![0, 0, 3] · slices_S32768x196x4_S32768x196x1_0_0_3) : (⟨S32768x196x4, .f32⟩ : BufTy).Contents (Elt F) → (⟨S32768x196x1, .f32⟩ : BufTy).Contents (Elt F)),
    reshape main_v16 main_v17 rfl shapeCasts_S32768x196x1_S32768x196,
    binary main_v15 main_v17 main_v18 (mulf : (⟨S32768x196, .f32⟩ : BufTy).Contents (Elt F) → (⟨S32768x196, .f32⟩ : BufTy).Contents (Elt F) → (⟨S32768x196, .f32⟩ : BufTy).Contents (Elt F)),
    unary main_v6 main_v19 (broadcastInDim S32768x196x1 ![0, 1] bcast_S32768x196_S32768x196x1_0_1 : (⟨S32768x196, .f32⟩ : BufTy).Contents (Elt F) → (⟨S32768x196x1, .f32⟩ : BufTy).Contents (Elt F)),
    unary main_v11 main_v20 (broadcastInDim S32768x196x1 ![0, 1] bcast_S32768x196_S32768x196x1_0_1 : (⟨S32768x196, .f32⟩ : BufTy).Contents (Elt F) → (⟨S32768x196x1, .f32⟩ : BufTy).Contents (Elt F)),
    unary main_v13 main_v21 (broadcastInDim S32768x196x1 ![0, 1] bcast_S32768x196_S32768x196x1_0_1 : (⟨S32768x196, .f32⟩ : BufTy).Contents (Elt F) → (⟨S32768x196x1, .f32⟩ : BufTy).Contents (Elt F)),
    unary main_v18 main_v22 (broadcastInDim S32768x196x1 ![0, 1] bcast_S32768x196_S32768x196x1_0_1 : (⟨S32768x196, .f32⟩ : BufTy).Contents (Elt F) → (⟨S32768x196x1, .f32⟩ : BufTy).Contents (Elt F)),
    nary ![main_v19, main_v20, main_v21, main_v22] main_v23 (fun u => concatenate S32768x196x4 2 [⟨S32768x196x1, u 0⟩, ⟨S32768x196x1, u 1⟩, ⟨S32768x196x1, u 2⟩, ⟨S32768x196x1, u 3⟩] concatenates_S32768x196x1_S32768x196x1_S32768x196x1_S32768x196x1_S32768x196x4_d2),
    reshape main_v23 main_v24 rfl shapeCasts_S32768x196x4_S32768x784 ]
/-- The buffers that stretch writes. -/
abbrev wA : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24]

/-- From the features to the mean of the first patch's four cosine terms. -/
abbrev cB : List (HloOp τ sig (Elt F)) :=
  [ unary main_v24 main_v25 ((extractStridedSlice S32768x4 ![0, 0] · slices_S32768x784_S32768x4_0_0) : (⟨S32768x784, .f32⟩ : BufTy).Contents (Elt F) → (⟨S32768x4, .f32⟩ : BufTy).Contents (Elt F)),
    unary main_v25 main_v26 (Host.cos : (⟨S32768x4, .f32⟩ : BufTy).Contents (Elt F) → (⟨S32768x4, .f32⟩ : BufTy).Contents (Elt F)),
    unary main_v26 main_v27 ((extractStridedSlice S32768x1 ![0, 0] · slices_S32768x4_S32768x1_0_0) : (⟨S32768x4, .f32⟩ : BufTy).Contents (Elt F) → (⟨S32768x1, .f32⟩ : BufTy).Contents (Elt F)),
    reshape main_v27 main_v28 rfl shapeCasts_S32768x1_S32768,
    unary main_v26 main_v29 ((extractStridedSlice S32768x1 ![0, 0] · slices_S32768x4_S32768x1_0_0) : (⟨S32768x4, .f32⟩ : BufTy).Contents (Elt F) → (⟨S32768x1, .f32⟩ : BufTy).Contents (Elt F)),
    reshape main_v29 main_v30 rfl shapeCasts_S32768x1_S32768,
    unary main_v26 main_v31 ((extractStridedSlice S32768x1 ![0, 1] · slices_S32768x4_S32768x1_0_1) : (⟨S32768x4, .f32⟩ : BufTy).Contents (Elt F) → (⟨S32768x1, .f32⟩ : BufTy).Contents (Elt F)),
    reshape main_v31 main_v32 rfl shapeCasts_S32768x1_S32768,
    binary main_v30 main_v32 main_v33 (mulf : (⟨S32768, .f32⟩ : BufTy).Contents (Elt F) → (⟨S32768, .f32⟩ : BufTy).Contents (Elt F) → (⟨S32768, .f32⟩ : BufTy).Contents (Elt F)),
    binary main_v28 main_v33 main_v34 (addf : (⟨S32768, .f32⟩ : BufTy).Contents (Elt F) → (⟨S32768, .f32⟩ : BufTy).Contents (Elt F) → (⟨S32768, .f32⟩ : BufTy).Contents (Elt F)),
    unary main_v26 main_v35 ((extractStridedSlice S32768x1 ![0, 2] · slices_S32768x4_S32768x1_0_2) : (⟨S32768x4, .f32⟩ : BufTy).Contents (Elt F) → (⟨S32768x1, .f32⟩ : BufTy).Contents (Elt F)),
    reshape main_v35 main_v36 rfl shapeCasts_S32768x1_S32768,
    binary main_v34 main_v36 main_v37 (addf : (⟨S32768, .f32⟩ : BufTy).Contents (Elt F) → (⟨S32768, .f32⟩ : BufTy).Contents (Elt F) → (⟨S32768, .f32⟩ : BufTy).Contents (Elt F)),
    unary main_v26 main_v38 ((extractStridedSlice S32768x1 ![0, 2] · slices_S32768x4_S32768x1_0_2) : (⟨S32768x4, .f32⟩ : BufTy).Contents (Elt F) → (⟨S32768x1, .f32⟩ : BufTy).Contents (Elt F)),
    reshape main_v38 main_v39 rfl shapeCasts_S32768x1_S32768,
    unary main_v26 main_v40 ((extractStridedSlice S32768x1 ![0, 3] · slices_S32768x4_S32768x1_0_3) : (⟨S32768x4, .f32⟩ : BufTy).Contents (Elt F) → (⟨S32768x1, .f32⟩ : BufTy).Contents (Elt F)),
    reshape main_v40 main_v41 rfl shapeCasts_S32768x1_S32768,
    binary main_v39 main_v41 main_v42 (mulf : (⟨S32768, .f32⟩ : BufTy).Contents (Elt F) → (⟨S32768, .f32⟩ : BufTy).Contents (Elt F) → (⟨S32768, .f32⟩ : BufTy).Contents (Elt F)),
    binary main_v37 main_v42 main_v43 (addf : (⟨S32768, .f32⟩ : BufTy).Contents (Elt F) → (⟨S32768, .f32⟩ : BufTy).Contents (Elt F) → (⟨S32768, .f32⟩ : BufTy).Contents (Elt F)),
    nullary main_cst (constant S_ .f32 0x40800000#32),
    unary main_cst main_v44 (broadcastInDim S32768 ![] bcast_S_S32768 : (⟨S_, .f32⟩ : BufTy).Contents (Elt F) → (⟨S32768, .f32⟩ : BufTy).Contents (Elt F)),
    binary main_v43 main_v44 main_v45 (Host.divf : (⟨S32768, .f32⟩ : BufTy).Contents (Elt F) → (⟨S32768, .f32⟩ : BufTy).Contents (Elt F) → (⟨S32768, .f32⟩ : BufTy).Contents (Elt F)) ]
/-- The buffers that stretch writes. -/
abbrev wB : List (Ref sig .tc) := [main_v25, main_v26, main_v27, main_v28, main_v29, main_v30, main_v31, main_v32, main_v33, main_v34, main_v35, main_v36, main_v37, main_v38, main_v39, main_v40, main_v41, main_v42, main_v43, main_cst, main_v44, main_v45]

/-- From the features and the four angles to the softmax of the pair of sampled cosines. -/
abbrev cC : List (HloOp τ sig (Elt F)) :=
  [ unary main_v24 main_v46 ((extractStridedSlice S32768x1 ![0, 0] · slices_S32768x784_S32768x1_0_0) : (⟨S32768x784, .f32⟩ : BufTy).Contents (Elt F) → (⟨S32768x1, .f32⟩ : BufTy).Contents (Elt F)),
    reshape main_v46 main_v47 rfl shapeCasts_S32768x1_S32768,
    unary main_arg3 main_v48 ((extractStridedSlice S1 ![0] · slices_S4_S1_0) : (⟨S4, .f32⟩ : BufTy).Contents (Elt F) → (⟨S1, .f32⟩ : BufTy).Contents (Elt F)),
    reshape main_v48 main_v49 rfl shapeCasts_S1_S_,
    unary main_v49 main_v50 (broadcastInDim S32768 ![] bcast_S_S32768 : (⟨S_, .f32⟩ : BufTy).Contents (Elt F) → (⟨S32768, .f32⟩ : BufTy).Contents (Elt F)),
    binary main_v47 main_v50 main_v51 (addf : (⟨S32768, .f32⟩ : BufTy).Contents (Elt F) → (⟨S32768, .f32⟩ : BufTy).Contents (Elt F) → (⟨S32768, .f32⟩ : BufTy).Contents (Elt F)),
    unary main_arg3 main_v52 ((extractStridedSlice S1 ![2] · slices_S4_S1_2) : (⟨S4, .f32⟩ : BufTy).Contents (Elt F) → (⟨S1, .f32⟩ : BufTy).Contents (Elt F)),
    reshape main_v52 main_v53 rfl shapeCasts_S1_S_,
    unary main_v53 main_v54 (broadcastInDim S32768 ![] bcast_S_S32768 : (⟨S_, .f32⟩ : BufTy).Contents (Elt F) → (⟨S32768, .f32⟩ : BufTy).Contents (Elt F)),
    binary main_v51 main_v54 main_v55 (addf : (⟨S32768, .f32⟩ : BufTy).Contents (Elt F) → (⟨S32768, .f32⟩ : BufTy).Contents (Elt F) → (⟨S32768, .f32⟩ : BufTy).Contents (Elt F)),
    unary main_v24 main_v56 ((extractStridedSlice S32768x1 ![0, 1] · slices_S32768x784_S32768x1_0_1) : (⟨S32768x784, .f32⟩ : BufTy).Contents (Elt F) → (⟨S32768x1, .f32⟩ : BufTy).Contents (Elt F)),
    reshape main_v56 main_v57 rfl shapeCasts_S32768x1_S32768,
    unary main_arg3 main_v58 ((extractStridedSlice S1 ![1] · slices_S4_S1_1) : (⟨S4, .f32⟩ : BufTy).Contents (Elt F) → (⟨S1, .f32⟩ : BufTy).Contents (Elt F)),
    reshape main_v58 main_v59 rfl shapeCasts_S1_S_,
    unary main_v59 main_v60 (broadcastInDim S32768 ![] bcast_S_S32768 : (⟨S_, .f32⟩ : BufTy).Contents (Elt F) → (⟨S32768, .f32⟩ : BufTy).Contents (Elt F)),
    binary main_v57 main_v60 main_v61 (addf : (⟨S32768, .f32⟩ : BufTy).Contents (Elt F) → (⟨S32768, .f32⟩ : BufTy).Contents (Elt F) → (⟨S32768, .f32⟩ : BufTy).Contents (Elt F)),
    unary main_arg3 main_v62 ((extractStridedSlice S1 ![3] · slices_S4_S1_3) : (⟨S4, .f32⟩ : BufTy).Contents (Elt F) → (⟨S1, .f32⟩ : BufTy).Contents (Elt F)),
    reshape main_v62 main_v63 rfl shapeCasts_S1_S_,
    unary main_v63 main_v64 (broadcastInDim S32768 ![] bcast_S_S32768 : (⟨S_, .f32⟩ : BufTy).Contents (Elt F) → (⟨S32768, .f32⟩ : BufTy).Contents (Elt F)),
    binary main_v61 main_v64 main_v65 (addf : (⟨S32768, .f32⟩ : BufTy).Contents (Elt F) → (⟨S32768, .f32⟩ : BufTy).Contents (Elt F) → (⟨S32768, .f32⟩ : BufTy).Contents (Elt F)),
    unary main_v55 main_v66 (Host.cos : (⟨S32768, .f32⟩ : BufTy).Contents (Elt F) → (⟨S32768, .f32⟩ : BufTy).Contents (Elt F)),
    unary main_v65 main_v67 (Host.cos : (⟨S32768, .f32⟩ : BufTy).Contents (Elt F) → (⟨S32768, .f32⟩ : BufTy).Contents (Elt F)),
    binary main_v66 main_v67 main_v68 (mulf : (⟨S32768, .f32⟩ : BufTy).Contents (Elt F) → (⟨S32768, .f32⟩ : BufTy).Contents (Elt F) → (⟨S32768, .f32⟩ : BufTy).Contents (Elt F)),
    unary main_v66 main_v69 (broadcastInDim S32768x1 ![0] bcast_S32768_S32768x1_0 : (⟨S32768, .f32⟩ : BufTy).Contents (Elt F) → (⟨S32768x1, .f32⟩ : BufTy).Contents (Elt F)),
    unary main_v68 main_v70 (broadcastInDim S32768x1 ![0] bcast_S32768_S32768x1_0 : (⟨S32768, .f32⟩ : BufTy).Contents (Elt F) → (⟨S32768x1, .f32⟩ : BufTy).Contents (Elt F)),
    binary main_v69 main_v70 main_v71 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    nullary main_cst_0 (constant S_ .f32 0xFF800000#32),
    binary main_v71 main_cst_0 main_v72 ((fun x v => Host.reduce FloatOps.maximumf x v reducesTo_S32768x2_S32768_d1 h_S_) : (⟨S32768x2, .f32⟩ : BufTy).Contents (Elt F) → (⟨S_, .f32⟩ : BufTy).Contents (Elt F) → (⟨S32768, .f32⟩ : BufTy).Contents (Elt F)),
    nullary main_cst_1 (constant S_ .f32 0xFF800000#32),
    unary main_cst_1 main_v73 (broadcastInDim S32768 ![] bcast_S_S32768 : (⟨S_, .f32⟩ : BufTy).Contents (Elt F) → (⟨S32768, .f32⟩ : BufTy).Contents (Elt F)),
    binary main_v73 main_v72 main_v74 (maximumf : (⟨S32768, .f32⟩ : BufTy).Contents (Elt F) → (⟨S32768, .f32⟩ : BufTy).Contents (Elt F) → (⟨S32768, .f32⟩ : BufTy).Contents (Elt F)),
    unary main_v74 main_v75 (broadcastInDim S32768x1 ![0] bcast_S32768_S32768x1_0 : (⟨S32768, .f32⟩ : BufTy).Contents (Elt F) → (⟨S32768x1, .f32⟩ : BufTy).Contents (Elt F)),
    unary main_v75 main_v76 (broadcastInDim S32768x2 ![0, 1] bcast_S32768x1_S32768x2_0_1 : (⟨S32768x1, .f32⟩ : BufTy).Contents (Elt F) → (⟨S32768x2, .f32⟩ : BufTy).Contents (Elt F)),
    binary main_v71 main_v76 main_v77 (subf : (⟨S32768x2, .f32⟩ : BufTy).Contents (Elt F) → (⟨S32768x2, .f32⟩ : BufTy).Contents (Elt F) → (⟨S32768x2, .f32⟩ : BufTy).Contents (Elt F)),
    unary main_v77 main_v78 (Host.exp : (⟨S32768x2, .f32⟩ : BufTy).Contents (Elt F) → (⟨S32768x2, .f32⟩ : BufTy).Contents (Elt F)),
    nullary main_cst_2 (constant S_ .f32 0x00000000#32),
    binary main_v78 main_cst_2 main_v79 ((fun x v => Host.reduceAdd x v reducesTo_S32768x2_S32768_d1 h_S_) : (⟨S32768x2, .f32⟩ : BufTy).Contents (Elt F) → (⟨S_, .f32⟩ : BufTy).Contents (Elt F) → (⟨S32768, .f32⟩ : BufTy).Contents (Elt F)),
    unary main_v79 main_v80 (broadcastInDim S32768x1 ![0] bcast_S32768_S32768x1_0 : (⟨S32768, .f32⟩ : BufTy).Contents (Elt F) → (⟨S32768x1, .f32⟩ : BufTy).Contents (Elt F)),
    unary main_v80 main_v81 (broadcastInDim S32768x2 ![0, 1] bcast_S32768x1_S32768x2_0_1 : (⟨S32768x1, .f32⟩ : BufTy).Contents (Elt F) → (⟨S32768x2, .f32⟩ : BufTy).Contents (Elt F)),
    binary main_v78 main_v81 main_v82 (Host.divf : (⟨S32768x2, .f32⟩ : BufTy).Contents (Elt F) → (⟨S32768x2, .f32⟩ : BufTy).Contents (Elt F) → (⟨S32768x2, .f32⟩ : BufTy).Contents (Elt F)) ]
/-- The buffers that stretch writes. -/
abbrev wC : List (Ref sig .tc) := [main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_cst_0, main_v72, main_cst_1, main_v73, main_v74, main_v75, main_v76, main_v77, main_v78, main_cst_2, main_v79, main_v80, main_v81, main_v82]

/-- The features, the mean and the softmax pair joined into 787 columns, times the weights, plus the bias. -/
abbrev cD : List (HloOp τ sig (Elt F)) :=
  [ unary main_v45 main_v83 (broadcastInDim S32768x1 ![0] bcast_S32768_S32768x1_0 : (⟨S32768, .f32⟩ : BufTy).Contents (Elt F) → (⟨S32768x1, .f32⟩ : BufTy).Contents (Elt F)),
    nary ![main_v24, main_v83, main_v82] main_v84 (fun u => concatenate S32768x787 1 [⟨S32768x784, u 0⟩, ⟨S32768x1, u 1⟩, ⟨S32768x2, u 2⟩] concatenates_S32768x784_S32768x1_S32768x2_S32768x787_d1),
    binary main_v84 main_arg1 main_v85 ((fun l r => Host.dotGeneral dot_S32768x787_S787x10_S32768x10_1_0_0_1_n_n none l r) : (⟨S32768x787, .f32⟩ : BufTy).Contents (Elt F) → (⟨S787x10, .f32⟩ : BufTy).Contents (Elt F) → (⟨S32768x10, .f32⟩ : BufTy).Contents (Elt F)),
    unary main_arg2 main_v86 (broadcastInDim S1x10 ![1] bcast_S10_S1x10_1 : (⟨S10, .f32⟩ : BufTy).Contents (Elt F) → (⟨S1x10, .f32⟩ : BufTy).Contents (Elt F)),
    unary main_v86 main_v87 (broadcastInDim S32768x10 ![0, 1] bcast_S1x10_S32768x10_0_1 : (⟨S1x10, .f32⟩ : BufTy).Contents (Elt F) → (⟨S32768x10, .f32⟩ : BufTy).Contents (Elt F)),
    binary main_v85 main_v87 main_v88 (addf : (⟨S32768x10, .f32⟩ : BufTy).Contents (Elt F) → (⟨S32768x10, .f32⟩ : BufTy).Contents (Elt F) → (⟨S32768x10, .f32⟩ : BufTy).Contents (Elt F)) ]
/-- The buffers that stretch writes. -/
abbrev wD : List (Ref sig .tc) := [main_v83, main_v84, main_v85, main_v86, main_v87, main_v88]

/-- The log-softmax of the logits along the ten classes. -/
abbrev cE : List (HloOp τ sig (Elt F)) :=
  [ TRef.nullary (TRef.of (T := ⟨S_, .f32⟩) main_call0_cst) (constant S_ .f32 0xFF800000#32),
    TRef.binary (TRef.of (T := ⟨S32768x10, .f32⟩) main_v88) (TRef.of (T := ⟨S_, .f32⟩) main_call0_cst) (TRef.of (T := ⟨S32768, .f32⟩) main_call0_v0) (fun x v => Host.reduce FloatOps.maximumf x v reducesTo_S32768x10_S32768_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S32768, .f32⟩) main_call0_v1) (broadcastInDim S32768 ![] bcast_S_S32768),
    TRef.binary (TRef.of (T := ⟨S32768, .f32⟩) main_call0_v1) (TRef.of (T := ⟨S32768, .f32⟩) main_call0_v0) (TRef.of (T := ⟨S32768, .f32⟩) main_call0_v2) maximumf,
    TRef.unary (TRef.of (T := ⟨S32768, .f32⟩) main_call0_v2) (TRef.of (T := ⟨S32768x1, .f32⟩) main_call0_v3) (broadcastInDim S32768x1 ![0] bcast_S32768_S32768x1_0),
    TRef.unary (TRef.of (T := ⟨S32768x1, .f32⟩) main_call0_v3) (TRef.of (T := ⟨S32768x10, .f32⟩) main_call0_v4) (broadcastInDim S32768x10 ![0, 1] bcast_S32768x1_S32768x10_0_1),
    TRef.binary (TRef.of (T := ⟨S32768x10, .f32⟩) main_v88) (TRef.of (T := ⟨S32768x10, .f32⟩) main_call0_v4) (TRef.of (T := ⟨S32768x10, .f32⟩) main_call0_v5) subf,
    TRef.unary (TRef.of (T := ⟨S32768x10, .f32⟩) main_call0_v5) (TRef.of (T := ⟨S32768x10, .f32⟩) main_call0_v6) Host.exp,
    TRef.nullary (TRef.of (T := ⟨S_, .f32⟩) main_call0_cst_1) (constant S_ .f32 0x00000000#32),
    TRef.binary (TRef.of (T := ⟨S32768x10, .f32⟩) main_call0_v6) (TRef.of (T := ⟨S_, .f32⟩) main_call0_cst_1) (TRef.of (T := ⟨S32768, .f32⟩) main_call0_v7) (fun x v => Host.reduceAdd x v reducesTo_S32768x10_S32768_d1 h_S_),
    TRef.unary (TRef.of (T := ⟨S32768, .f32⟩) main_call0_v7) (TRef.of (T := ⟨S32768x1, .f32⟩) main_call0_v8) (broadcastInDim S32768x1 ![0] bcast_S32768_S32768x1_0),
    TRef.unary (TRef.of (T := ⟨S32768x1, .f32⟩) main_call0_v8) (TRef.of (T := ⟨S32768x1, .f32⟩) main_call0_v9) Host.log,
    TRef.unary (TRef.of (T := ⟨S32768x1, .f32⟩) main_call0_v9) (TRef.of (T := ⟨S32768x10, .f32⟩) main_call0_v10) (broadcastInDim S32768x10 ![0, 1] bcast_S32768x1_S32768x10_0_1),
    TRef.binary (TRef.of (T := ⟨S32768x10, .f32⟩) main_call0_v5) (TRef.of (T := ⟨S32768x10, .f32⟩) main_call0_v10) (TRef.of (T := ⟨S32768x10, .f32⟩) main_v89) subf ]
/-- The buffers that stretch writes. -/
abbrev wE : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v89]

/-- The line is its five stretches, one after the other. -/
theorem ops_eq : (ops : List (HloOp τ sig (Elt F))) = cA ++ cB ++ cC ++ cD ++ cE := rfl

/-! ## What a stretch leaves alone -/

/-- Each operation of a stretch writes one of the listed buffers; so a buffer off the list keeps its contents. -/
local macro "writes_listed" : tactic =>
  `(tactic| (simp only [List.Forall, nullary_writes, unary_writes, binary_writes, reshape_writes, nary_writes,
               Finset.singleton_subset_iff, List.mem_toFinset]
             repeat' apply And.intro
             all_goals exact List.mem_map_of_mem (by decide)))

set_option maxRecDepth 8192 in
theorem cA_writes : (cA : List (HloOp τ sig (Elt F))).Forall fun op => op.writes ⊆ (wA.map (Proc.devRef (τ := τ) .tc)).toFinset := by
  writes_listed
/-- A buffer that stretch does not write keeps its contents through it. -/
theorem cA_keeps (W : Valuation τ sig (Elt F)) (r : Ref sig .tc) (h : r ∉ wA) :
    after cA W (Proc.devRef .tc r) = W (Proc.devRef .tc r) :=
  after_of_writes_sub cA W cA_writes h

set_option maxRecDepth 8192 in
theorem cB_writes : (cB : List (HloOp τ sig (Elt F))).Forall fun op => op.writes ⊆ (wB.map (Proc.devRef (τ := τ) .tc)).toFinset := by
  writes_listed
/-- A buffer that stretch does not write keeps its contents through it. -/
theorem cB_keeps (W : Valuation τ sig (Elt F)) (r : Ref sig .tc) (h : r ∉ wB) :
    after cB W (Proc.devRef .tc r) = W (Proc.devRef .tc r) :=
  after_of_writes_sub cB W cB_writes h

set_option maxRecDepth 8192 in
theorem cC_writes : (cC : List (HloOp τ sig (Elt F))).Forall fun op => op.writes ⊆ (wC.map (Proc.devRef (τ := τ) .tc)).toFinset := by
  writes_listed
/-- A buffer that stretch does not write keeps its contents through it. -/
theorem cC_keeps (W : Valuation τ sig (Elt F)) (r : Ref sig .tc) (h : r ∉ wC) :
    after cC W (Proc.devRef .tc r) = W (Proc.devRef .tc r) :=
  after_of_writes_sub cC W cC_writes h

set_option maxRecDepth 8192 in
theorem cD_writes : (cD : List (HloOp τ sig (Elt F))).Forall fun op => op.writes ⊆ (wD.map (Proc.devRef (τ := τ) .tc)).toFinset := by
  writes_listed
/-- A buffer that stretch does not write keeps its contents through it. -/
theorem cD_keeps (W : Valuation τ sig (Elt F)) (r : Ref sig .tc) (h : r ∉ wD) :
    after cD W (Proc.devRef .tc r) = W (Proc.devRef .tc r) :=
  after_of_writes_sub cD W cD_writes h

set_option maxRecDepth 8192 in
theorem cE_writes : (cE : List (HloOp τ sig (Elt F))).Forall fun op => op.writes ⊆ (wE.map (Proc.devRef (τ := τ) .tc)).toFinset := by
  writes_listed
/-- A buffer that stretch does not write keeps its contents through it. -/
theorem cE_keeps (W : Valuation τ sig (Elt F)) (r : Ref sig .tc) (h : r ∉ wE) :
    after cE W (Proc.devRef .tc r) = W (Proc.devRef .tc r) :=
  after_of_writes_sub cE W cE_writes h

/-! ## What a stretch computes -/

/-- A three-operand operation's result with each operand's contents at its own buffer. -/
theorem nary_three_result {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- Contents carried to a typed buffer and back are the contents. -/
theorem ofBuf_toBuf {T : BufTy} (x : TRef sig T) (v : T.Contents (Elt F)) : x.ofBuf (x.toBuf v) = v := by
  simp only [TRef.ofBuf, TRef.toBuf, cast_cast, cast_eq]

/-- Unfolds a line's fold at one buffer: each operation's result at its own buffer is its function of its operands'
    contents, and at any other buffer what was there. -/
local macro "line_results" : tactic =>
  `(tactic| (simp only [after_cons, after_nil]
             repeat (first
               | rw [nullary_result] | rw [unary_result] | rw [binary_result] | rw [reshape_result]
               | rw [nary4_result] | rw [nary_three_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

set_option maxRecDepth 8192 in
set_option maxHeartbeats 4000000 in
/-- The first stretch leaves the features of the image it finds at the first argument. -/
theorem cA_v24 (W : Valuation τ sig (Elt F)) :
    after cA W (Proc.devRef .tc main_v24) = val_main_v24 (F := F) (W (Proc.devRef .tc main_arg0)) := by
  line_results
  rfl

set_option maxRecDepth 8192 in
set_option maxHeartbeats 4000000 in
/-- The second stretch, entered with the features, leaves the mean. -/
theorem cB_v45 (W : Valuation τ sig (Elt F)) (x0 : (⟨S32768x1x28x28, .f32⟩ : BufTy).Contents (Elt F))
    (h24 : W (Proc.devRef .tc main_v24) = val_main_v24 (F := F) x0) :
    after cB W (Proc.devRef .tc main_v45) = val_main_v45 (F := F) x0 := by
  line_results
  rw [h24]
  rfl

set_option maxRecDepth 8192 in
set_option maxHeartbeats 4000000 in
/-- The third stretch, entered with the features and the angles, leaves the softmax pair. -/
theorem cC_v82 (W : Valuation τ sig (Elt F)) (x0 : (⟨S32768x1x28x28, .f32⟩ : BufTy).Contents (Elt F)) (x3 : (⟨S4, .f32⟩ : BufTy).Contents (Elt F))
    (h24 : W (Proc.devRef .tc main_v24) = val_main_v24 (F := F) x0) (h3 : W (Proc.devRef .tc main_arg3) = x3) :
    after cC W (Proc.devRef .tc main_v82) = val_main_v82 (F := F) x0 x3 := by
  line_results
  rw [h24, h3]
  rfl

set_option maxRecDepth 8192 in
set_option maxHeartbeats 4000000 in
/-- The fourth stretch, entered with the features, the mean, the softmax pair, the weights and the bias, leaves the logits. -/
theorem cD_v88 (W : Valuation τ sig (Elt F)) (x0 : (⟨S32768x1x28x28, .f32⟩ : BufTy).Contents (Elt F)) (x1 : (⟨S787x10, .f32⟩ : BufTy).Contents (Elt F)) (x2 : (⟨S10, .f32⟩ : BufTy).Contents (Elt F)) (x3 : (⟨S4, .f32⟩ : BufTy).Contents (Elt F))
    (h24 : W (Proc.devRef .tc main_v24) = val_main_v24 (F := F) x0) (h45 : W (Proc.devRef .tc main_v45) = val_main_v45 (F := F) x0)
    (h82 : W (Proc.devRef .tc main_v82) = val_main_v82 (F := F) x0 x3)
    (h1 : W (Proc.devRef .tc main_arg1) = x1) (h2 : W (Proc.devRef .tc main_arg2) = x2) :
    after cD W (Proc.devRef .tc main_v88) = val_main_v88 (F := F) x0 x1 x2 x3 := by
  line_results
  rw [h24, h45, h82, h1, h2]
  rfl

set_option maxRecDepth 8192 in
set_option maxHeartbeats 4000000 in
/-- The last stretch, entered with the logits, leaves their log-softmax. -/
theorem cE_v89 (W : Valuation τ sig (Elt F)) (x0 : (⟨S32768x1x28x28, .f32⟩ : BufTy).Contents (Elt F)) (x1 : (⟨S787x10, .f32⟩ : BufTy).Contents (Elt F)) (x2 : (⟨S10, .f32⟩ : BufTy).Contents (Elt F)) (x3 : (⟨S4, .f32⟩ : BufTy).Contents (Elt F))
    (h88 : W (Proc.devRef .tc main_v88) = val_main_v88 (F := F) x0 x1 x2 x3) :
    after cE W (Proc.devRef .tc main_v89) = val_main_v89 (F := F) x0 x1 x2 x3 := by
  line_results
  simp only [ofBuf_toBuf]
  have e88 : (TRef.of (T := ⟨S32768x10, .f32⟩) main_v88).ofBuf (W (Proc.devRef .tc (TRef.of (T := ⟨S32768x10, .f32⟩) main_v88).ref))
      = val_main_v88 (F := F) x0 x1 x2 x3 := h88
  rw [e88]
  rfl

/-! ## The whole line -/

/-- A buffer no stretch writes keeps its contents through the whole line. -/
theorem ops_keeps (V : Valuation τ sig (Elt F)) (r : Ref sig .tc)
    (hA : r ∉ wA) (hB : r ∉ wB) (hC : r ∉ wC) (hD : r ∉ wD) (hE : r ∉ wE) :
    after ops V (Proc.devRef .tc r) = V (Proc.devRef .tc r) := by
  rw [ops_eq, after_append, after_append, after_append, after_append]
  exact (cE_keeps _ r hE).trans <| (cD_keeps _ r hD).trans <| (cC_keeps _ r hC).trans <| (cB_keeps _ r hB).trans (cA_keeps V r hA)

/-- The whole line leaves at `main_v89` the composition of the stages at the four arguments' contents. -/
theorem ops_v89 (V : Valuation τ sig (Elt F)) :
    after ops V (Proc.devRef .tc main_v89)
      = val_main_v89 (F := F) (V (Proc.devRef .tc main_arg0)) (V (Proc.devRef .tc main_arg1)) (V (Proc.devRef .tc main_arg2)) (V (Proc.devRef .tc main_arg3)) := by
  rw [ops_eq, after_append, after_append, after_append, after_append]
  have a24 := cA_v24 V
  have b24 := (cB_keeps (after cA V) main_v24 (by decide)).trans a24
  have b45 := cB_v45 (after cA V) _ a24
  have b1 := (cB_keeps (after cA V) main_arg1 (by decide)).trans (cA_keeps V main_arg1 (by decide))
  have b2 := (cB_keeps (after cA V) main_arg2 (by decide)).trans (cA_keeps V main_arg2 (by decide))
  have b3 := (cB_keeps (after cA V) main_arg3 (by decide)).trans (cA_keeps V main_arg3 (by decide))
  have c82 := cC_v82 (after cB (after cA V)) _ _ b24 b3
  have c24 := (cC_keeps (after cB (after cA V)) main_v24 (by decide)).trans b24
  have c45 := (cC_keeps (after cB (after cA V)) main_v45 (by decide)).trans b45
  have c1 := (cC_keeps (after cB (after cA V)) main_arg1 (by decide)).trans b1
  have c2 := (cC_keeps (after cB (after cA V)) main_arg2 (by decide)).trans b2
  exact cE_v89 _ _ _ _ _ (cD_v88 _ _ _ _ _ c24 c45 c82 c1 c2)

/-- Every weakly fair execution of the reference terminates; its result array ends at the composition of its
    operations' stages applied to the four argument arrays as launched, and the argument arrays end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89)
          = val_main_v89 (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c main_v89).trans (ops_v89 (launchContents m c)),
      (h c main_arg0).trans (ops_keeps (launchContents m c) main_arg0 (by decide) (by decide) (by decide) (by decide) (by decide)),
      (h c main_arg1).trans (ops_keeps (launchContents m c) main_arg1 (by decide) (by decide) (by decide) (by decide) (by decide)),
      (h c main_arg2).trans (ops_keeps (launchContents m c) main_arg2 (by decide) (by decide) (by decide) (by decide) (by decide)),
      (h c main_arg3).trans (ops_keeps (launchContents m c) main_arg3 (by decide) (by decide) (by decide) (by decide) (by decide))⟩)
    (run_seq scopedRefs_eq scopedSems_eq defs main (fun _ => ops) main_eq (fun _ => ops_sub) m ρ)

end Cert.ReferenceIdeal.RefRun

end
-- ==== Proof.RefRead.lean ====
import proofs.«421675_j65481071397824_3_alg».proof.Proof.RefReadP
import proofs.«421675_j65481071397824_3_alg».proof.Proof.Spec
import Idealize.ShloMosaic.PureOps.Ideal.Laws
import Idealize.ShloMosaic.Lib.ValueIdx
import Idealize.ShloMosaic.Lib.ValueLayout
import Idealize.ShloMosaic.Lib.Pipeline.Value

/-! # The reference's result, read at an entry -/

noncomputable section

namespace Cert.ReferenceIdeal.RefRead

open Cert.ReferenceIdeal Cert.ReferenceIdeal.Gen Cert.ReferenceIdeal.ReadP
open Idealize.ShloMosaic Idealize.ShloMosaic.ValueIdx

/-! ## The image read through the patch layout -/

/-- The input image array of the reference, at the ideal values. -/
abbrev XT := (⟨S32768x1x28x28, .f32⟩ : BufTy).Contents (Elt Ideal)
/-- The sampler weights. -/
abbrev WT := (⟨S4, .f32⟩ : BufTy).Contents (Elt Ideal)

/-- Dropping the unit channel axis keeps row and column. -/
theorem v0_at (x0 : XT) (b : Fin 32768) (r c : Fin 28) :
    val_main_v0 (F := Ideal) x0 (ix3 b r c) = x0 (ix4 b (0 : Fin 1) r c) := by
  rw [val_main_v0_apply]
  refine congrArg x0 (funext fun a => Fin.ext ?_)
  have hb := b.isLt; have hr := r.isLt; have hc := c.isLt
  match a with
  | ⟨0, _⟩ => show ((b.val * 28 + r.val) * 28 + c.val) / 784 = b.val; omega
  | ⟨1, _⟩ => rfl
  | ⟨2, _⟩ => show ((b.val * 28 + r.val) * 28 + c.val) / 28 % 28 = r.val; omega
  | ⟨3, _⟩ => show ((b.val * 28 + r.val) * 28 + c.val) % 28 = c.val; omega

/-- Rows split as 14 × 2 and columns as 14 × 2: entry (i, a, jj, c) is pixel row 2 i + a, column 2 jj + c. -/
theorem v1_at (x0 : XT) (b : Fin 32768) (i : Fin 14) (a : Fin 2) (jj : Fin 14) (c : Fin 2) :
    val_main_v1 (F := Ideal) x0 (ix5 b i a jj c)
      = x0 (ix4 b (0 : Fin 1) (⟨2 * i.val + a.val, by omega⟩ : Fin 28) (⟨2 * jj.val + c.val, by omega⟩ : Fin 28)) := by
  rw [val_main_v1_apply]
  have hb := b.isLt; have hi := i.isLt; have ha := a.isLt; have hj := jj.isLt; have hc := c.isLt
  refine Eq.trans (congrArg (val_main_v0 (F := Ideal) x0) ?_)
    (v0_at x0 b (⟨2 * i.val + a.val, by omega⟩ : Fin 28) (⟨2 * jj.val + c.val, by omega⟩ : Fin 28))
  refine funext fun d => Fin.ext ?_
  match d with
  | ⟨0, _⟩ => show (((((b.val * 14 + i.val) * 2 + a.val) * 14 + jj.val) * 2 + c.val)) / 784 = b.val; omega
  | ⟨1, _⟩ => show (((((b.val * 14 + i.val) * 2 + a.val) * 14 + jj.val) * 2 + c.val)) / 28 % 28 = 2 * i.val + a.val; omega
  | ⟨2, _⟩ => show (((((b.val * 14 + i.val) * 2 + a.val) * 14 + jj.val) * 2 + c.val)) % 28 = 2 * jj.val + c.val; omega

/-- Patch p = 14 i + jj, feature f = 2 a + c: the flattened patch array at (p, f) is pixel row 2 (p / 14) + f / 2,
    column 2 (p % 14) + f % 2. -/
theorem v3_at (x0 : XT) (b : Fin 32768) (p : Fin 196) (f : Fin 4) :
    val_main_v3 (F := Ideal) x0 (ix3 b p f)
      = x0 (ix4 b (0 : Fin 1) (⟨2 * (p.val / 14) + f.val / 2, by omega⟩ : Fin 28)
          (⟨2 * (p.val % 14) + f.val % 2, by omega⟩ : Fin 28)) := by
  rw [val_main_v3_apply, val_main_v2_apply]
  have hb := b.isLt; have hp := p.isLt; have hf := f.isLt
  refine Eq.trans (congrArg (val_main_v1 (F := Ideal) x0) ?_)
    (v1_at x0 b (⟨p.val / 14, by omega⟩ : Fin 14) (⟨f.val / 2, by omega⟩ : Fin 2) (⟨p.val % 14, by omega⟩ : Fin 14)
      (⟨f.val % 2, by omega⟩ : Fin 2))
  refine funext fun d => Fin.ext ?_
  match d with
  | ⟨0, _⟩ => show ((b.val * 196 + p.val) * 4 + f.val) / 784 = b.val; omega
  | ⟨1, _⟩ => show ((b.val * 196 + p.val) * 4 + f.val) / 56 % 14 = p.val / 14; omega
  | ⟨2, _⟩ => show ((b.val * 196 + p.val) * 4 + f.val) / 2 % 2 = f.val / 2; omega
  | ⟨3, _⟩ => show ((b.val * 196 + p.val) * 4 + f.val) / 4 % 14 = p.val % 14; omega
  | ⟨4, _⟩ => show ((b.val * 196 + p.val) * 4 + f.val) % 2 = f.val % 2; omega

/-- The pixel of patch p that feature slot f reads. -/
def slotPix (p : Fin 196) (f : Fin 4) : Fin 784 :=
  ⟨(2 * (p.val / 14) + f.val / 2) * 28 + (2 * (p.val % 14) + f.val % 2), by
    have hp := p.isLt; have hf := f.isLt; omega⟩

/-- The cosine array at (p, f) is the cosine of that pixel. -/
theorem v4_at (x0 : XT) (b : Fin 32768) (p : Fin 196) (f : Fin 4) :
    val_main_v4 (F := Ideal) x0 (ix3 b p f) = Cert.Spec.cosPix (Cert.Spec.pixRow x0 b) (slotPix p f) := by
  rw [val_main_v4_apply, v3_at]
  unfold Cert.Spec.cosPix Cert.Spec.pixRow slotPix
  have hp := p.isLt; have hf := f.isLt
  refine congrArg Ideal.cos (congrArg x0 (funext fun d => Fin.ext ?_))
  match d with
  | ⟨0, _⟩ => rfl
  | ⟨1, _⟩ => rfl
  | ⟨2, _⟩ => show 2 * (p.val / 14) + f.val / 2 = ((2 * (p.val / 14) + f.val / 2) * 28 + (2 * (p.val % 14) + f.val % 2)) / 28; omega
  | ⟨3, _⟩ => show 2 * (p.val % 14) + f.val % 2 = ((2 * (p.val / 14) + f.val / 2) * 28 + (2 * (p.val % 14) + f.val % 2)) % 28; omega

/-! ## The four feature slots of a patch -/

/-- The first slice, reshaped: slot 0. -/
theorem v6_at (x0 : XT) (b : Fin 32768) (p : Fin 196) :
    val_main_v6 (F := Ideal) x0 (ix2 b p) = val_main_v4 (F := Ideal) x0 (ix3 b p (0 : Fin 4)) := by
  rw [val_main_v6_apply, val_main_v5_apply]
  refine congrArg (val_main_v4 (F := Ideal) x0) (funext fun d => Fin.ext ?_)
  have hb := b.isLt; have hp := p.isLt
  match d with
  | ⟨0, _⟩ => show (b.val * 196 + p.val) / 196 = b.val; omega
  | ⟨1, _⟩ => show (b.val * 196 + p.val) / 1 % 196 = p.val; omega
  | ⟨2, _⟩ => rfl

/-- The second slice of slot 0. -/
theorem v8_at (x0 : XT) (b : Fin 32768) (p : Fin 196) :
    val_main_v8 (F := Ideal) x0 (ix2 b p) = val_main_v4 (F := Ideal) x0 (ix3 b p (0 : Fin 4)) := by
  rw [val_main_v8_apply, val_main_v7_apply]
  refine congrArg (val_main_v4 (F := Ideal) x0) (funext fun d => Fin.ext ?_)
  have hb := b.isLt; have hp := p.isLt
  match d with
  | ⟨0, _⟩ => show (b.val * 196 + p.val) / 196 = b.val; omega
  | ⟨1, _⟩ => show (b.val * 196 + p.val) / 1 % 196 = p.val; omega
  | ⟨2, _⟩ => rfl

/-- Slot 1. -/
theorem v10_at (x0 : XT) (b : Fin 32768) (p : Fin 196) :
    val_main_v10 (F := Ideal) x0 (ix2 b p) = val_main_v4 (F := Ideal) x0 (ix3 b p (1 : Fin 4)) := by
  rw [val_main_v10_apply, val_main_v9_apply]
  refine congrArg (val_main_v4 (F := Ideal) x0) (funext fun d => Fin.ext ?_)
  have hb := b.isLt; have hp := p.isLt
  match d with
  | ⟨0, _⟩ => show (b.val * 196 + p.val) / 196 = b.val; omega
  | ⟨1, _⟩ => show (b.val * 196 + p.val) / 1 % 196 = p.val; omega
  | ⟨2, _⟩ => rfl

/-- Slot 2. -/
theorem v13_at (x0 : XT) (b : Fin 32768) (p : Fin 196) :
    val_main_v13 (F := Ideal) x0 (ix2 b p) = val_main_v4 (F := Ideal) x0 (ix3 b p (2 : Fin 4)) := by
  rw [val_main_v13_apply, val_main_v12_apply]
  refine congrArg (val_main_v4 (F := Ideal) x0) (funext fun d => Fin.ext ?_)
  have hb := b.isLt; have hp := p.isLt
  match d with
  | ⟨0, _⟩ => show (b.val * 196 + p.val) / 196 = b.val; omega
  | ⟨1, _⟩ => show (b.val * 196 + p.val) / 1 % 196 = p.val; omega
  | ⟨2, _⟩ => rfl

/-- The second slice of slot 2. -/
theorem v15_at (x0 : XT) (b : Fin 32768) (p : Fin 196) :
    val_main_v15 (F := Ideal) x0 (ix2 b p) = val_main_v4 (F := Ideal) x0 (ix3 b p (2 : Fin 4)) := by
  rw [val_main_v15_apply, val_main_v14_apply]
  refine congrArg (val_main_v4 (F := Ideal) x0) (funext fun d => Fin.ext ?_)
  have hb := b.isLt; have hp := p.isLt
  match d with
  | ⟨0, _⟩ => show (b.val * 196 + p.val) / 196 = b.val; omega
  | ⟨1, _⟩ => show (b.val * 196 + p.val) / 1 % 196 = p.val; omega
  | ⟨2, _⟩ => rfl

/-- Slot 3. -/
theorem v17_at (x0 : XT) (b : Fin 32768) (p : Fin 196) :
    val_main_v17 (F := Ideal) x0 (ix2 b p) = val_main_v4 (F := Ideal) x0 (ix3 b p (3 : Fin 4)) := by
  rw [val_main_v17_apply, val_main_v16_apply]
  refine congrArg (val_main_v4 (F := Ideal) x0) (funext fun d => Fin.ext ?_)
  have hb := b.isLt; have hp := p.isLt
  match d with
  | ⟨0, _⟩ => show (b.val * 196 + p.val) / 196 = b.val; omega
  | ⟨1, _⟩ => show (b.val * 196 + p.val) / 1 % 196 = p.val; omega
  | ⟨2, _⟩ => rfl

/-- The unit axis put back on the first piece. -/
theorem v19_at (x0 : XT) (b : Fin 32768) (p : Fin 196) :
    val_main_v19 (F := Ideal) x0 (ix3 b p (0 : Fin 1)) = val_main_v6 (F := Ideal) x0 (ix2 b p) := by
  rw [val_main_v19_apply]
  refine congrArg (val_main_v6 (F := Ideal) x0) (funext fun d => Fin.ext ?_)
  match d with
  | ⟨0, _⟩ => rfl
  | ⟨1, _⟩ => rfl

/-- The unit axis put back on the second piece. -/
theorem v20_at (x0 : XT) (b : Fin 32768) (p : Fin 196) :
    val_main_v20 (F := Ideal) x0 (ix3 b p (0 : Fin 1)) = val_main_v11 (F := Ideal) x0 (ix2 b p) := by
  rw [val_main_v20_apply]
  refine congrArg (val_main_v11 (F := Ideal) x0) (funext fun d => Fin.ext ?_)
  match d with
  | ⟨0, _⟩ => rfl
  | ⟨1, _⟩ => rfl

/-- The unit axis put back on the third piece. -/
theorem v21_at (x0 : XT) (b : Fin 32768) (p : Fin 196) :
    val_main_v21 (F := Ideal) x0 (ix3 b p (0 : Fin 1)) = val_main_v13 (F := Ideal) x0 (ix2 b p) := by
  rw [val_main_v21_apply]
  refine congrArg (val_main_v13 (F := Ideal) x0) (funext fun d => Fin.ext ?_)
  match d with
  | ⟨0, _⟩ => rfl
  | ⟨1, _⟩ => rfl

/-- The unit axis put back on the fourth piece. -/
theorem v22_at (x0 : XT) (b : Fin 32768) (p : Fin 196) :
    val_main_v22 (F := Ideal) x0 (ix3 b p (0 : Fin 1)) = val_main_v18 (F := Ideal) x0 (ix2 b p) := by
  rw [val_main_v22_apply]
  refine congrArg (val_main_v18 (F := Ideal) x0) (funext fun d => Fin.ext ?_)
  match d with
  | ⟨0, _⟩ => rfl
  | ⟨1, _⟩ => rfl

/-- Slot 0 of the joined array is piece 0. -/
theorem v23_piece0 (x0 : XT) (b : Fin 32768) (p : Fin 196) :
    val_main_v23 (F := Ideal) x0 (ix3 b p (0 : Fin 4)) = val_main_v19 (F := Ideal) x0 (ix3 b p (0 : Fin 1)) := by
  unfold val_main_v23
  refine concatenate_apply_piece (t := S32768x196x4) 2 _ _ (ix3 b p (0 : Fin 4)) 0 (by show (0 : ℕ) < 4; decide) S32768x196x1
    (val_main_v19 (F := Ideal) x0) rfl rfl 0 rfl (ix3 b p (0 : Fin 1)) (fun d hd => ?_) rfl
  match d with
  | ⟨0, _⟩ => rfl
  | ⟨1, _⟩ => rfl
  | ⟨2, _⟩ => exact absurd rfl hd

/-- Slot 1 of the joined array is piece 1. -/
theorem v23_piece1 (x0 : XT) (b : Fin 32768) (p : Fin 196) :
    val_main_v23 (F := Ideal) x0 (ix3 b p (1 : Fin 4)) = val_main_v20 (F := Ideal) x0 (ix3 b p (0 : Fin 1)) := by
  unfold val_main_v23
  refine concatenate_apply_piece (t := S32768x196x4) 2 _ _ (ix3 b p (1 : Fin 4)) 1 (by show (1 : ℕ) < 4; decide) S32768x196x1
    (val_main_v20 (F := Ideal) x0) rfl rfl 1 rfl (ix3 b p (0 : Fin 1)) (fun d hd => ?_) rfl
  match d with
  | ⟨0, _⟩ => rfl
  | ⟨1, _⟩ => rfl
  | ⟨2, _⟩ => exact absurd rfl hd

/-- Slot 2 of the joined array is piece 2. -/
theorem v23_piece2 (x0 : XT) (b : Fin 32768) (p : Fin 196) :
    val_main_v23 (F := Ideal) x0 (ix3 b p (2 : Fin 4)) = val_main_v21 (F := Ideal) x0 (ix3 b p (0 : Fin 1)) := by
  unfold val_main_v23
  refine concatenate_apply_piece (t := S32768x196x4) 2 _ _ (ix3 b p (2 : Fin 4)) 2 (by show (2 : ℕ) < 4; decide) S32768x196x1
    (val_main_v21 (F := Ideal) x0) rfl rfl 2 rfl (ix3 b p (0 : Fin 1)) (fun d hd => ?_) rfl
  match d with
  | ⟨0, _⟩ => rfl
  | ⟨1, _⟩ => rfl
  | ⟨2, _⟩ => exact absurd rfl hd

/-- Slot 3 of the joined array is piece 3. -/
theorem v23_piece3 (x0 : XT) (b : Fin 32768) (p : Fin 196) :
    val_main_v23 (F := Ideal) x0 (ix3 b p (3 : Fin 4)) = val_main_v22 (F := Ideal) x0 (ix3 b p (0 : Fin 1)) := by
  unfold val_main_v23
  refine concatenate_apply_piece (t := S32768x196x4) 2 _ _ (ix3 b p (3 : Fin 4)) 3 (by show (3 : ℕ) < 4; decide) S32768x196x1
    (val_main_v22 (F := Ideal) x0) rfl rfl 3 rfl (ix3 b p (0 : Fin 1)) (fun d hd => ?_) rfl
  match d with
  | ⟨0, _⟩ => rfl
  | ⟨1, _⟩ => rfl
  | ⟨2, _⟩ => exact absurd rfl hd

/-- Slot 0: the cosine of the patch's top-left pixel. -/
theorem v23_at0 (x0 : XT) (b : Fin 32768) (p : Fin 196) :
    val_main_v23 (F := Ideal) x0 (ix3 b p (0 : Fin 4)) = Cert.Spec.cosPix (Cert.Spec.pixRow x0 b) (slotPix p 0) := by
  rw [v23_piece0, v19_at, v6_at, v4_at]

/-- Slot 1: that times the cosine of the top-right pixel. -/
theorem v23_at1 (x0 : XT) (b : Fin 32768) (p : Fin 196) :
    val_main_v23 (F := Ideal) x0 (ix3 b p (1 : Fin 4))
      = Cert.Spec.cosPix (Cert.Spec.pixRow x0 b) (slotPix p 0) * Cert.Spec.cosPix (Cert.Spec.pixRow x0 b) (slotPix p 1) := by
  rw [v23_piece1, v20_at, val_main_v11_apply, v8_at, v10_at, v4_at, v4_at]
  rfl

/-- Slot 2: the cosine of the bottom-left pixel. -/
theorem v23_at2 (x0 : XT) (b : Fin 32768) (p : Fin 196) :
    val_main_v23 (F := Ideal) x0 (ix3 b p (2 : Fin 4)) = Cert.Spec.cosPix (Cert.Spec.pixRow x0 b) (slotPix p 2) := by
  rw [v23_piece2, v21_at, v13_at, v4_at]

/-- Slot 3: that times the cosine of the bottom-right pixel. -/
theorem v23_at3 (x0 : XT) (b : Fin 32768) (p : Fin 196) :
    val_main_v23 (F := Ideal) x0 (ix3 b p (3 : Fin 4))
      = Cert.Spec.cosPix (Cert.Spec.pixRow x0 b) (slotPix p 2) * Cert.Spec.cosPix (Cert.Spec.pixRow x0 b) (slotPix p 3) := by
  rw [v23_piece3, v22_at, val_main_v18_apply, v15_at, v17_at, v4_at, v4_at]
  rfl

/-- The flat feature k is slot k % 4 of patch k / 4. -/
theorem v24_slot (x0 : XT) (b : Fin 32768) (k : Fin 784) (f : Fin 4) (hf : k.val % 4 = f.val) :
    val_main_v24 (F := Ideal) x0 (ix2 b k)
      = val_main_v23 (F := Ideal) x0 (ix3 b (⟨k.val / 4, by omega⟩ : Fin 196) f) := by
  rw [val_main_v24_apply]
  refine congrArg (val_main_v23 (F := Ideal) x0) (funext fun d => Fin.ext ?_)
  have hb := b.isLt; have hk := k.isLt
  match d with
  | ⟨0, _⟩ => show (b.val * 784 + k.val) / 784 = b.val; omega
  | ⟨1, _⟩ => show (b.val * 784 + k.val) / 4 % 196 = k.val / 4; omega
  | ⟨2, _⟩ => show (b.val * 784 + k.val) % 4 = f.val; omega

/-- The feature array holds the 784 features of the image. -/
theorem v24_at (x0 : XT) (b : Fin 32768) (k : Fin 784) :
    val_main_v24 (F := Ideal) x0 (ix2 b k) = Cert.Spec.qfeat x0 b k := by
  have hk := k.isLt
  unfold Cert.Spec.qfeat
  have h4 : k.val % 4 = 0 ∨ k.val % 4 = 1 ∨ k.val % 4 = 2 ∨ k.val % 4 = 3 := by omega
  rcases h4 with h | h | h | h
  · rw [if_pos (by omega), v24_slot x0 b k 0 h, v23_at0]
    refine congrArg _ (Fin.ext ?_)
    show (2 * (k.val / 4 / 14) + 0 / 2) * 28 + (2 * (k.val / 4 % 14) + 0 % 2)
      = (2 * (k.val / 4 / 14) + k.val % 4 / 2) * 28 + 2 * (k.val / 4 % 14)
    omega
  · rw [if_neg (by omega), v24_slot x0 b k 1 h, v23_at1]
    refine congrArg₂ (· * ·) (congrArg _ (Fin.ext ?_)) (congrArg _ (Fin.ext ?_))
    · show (2 * (k.val / 4 / 14) + 0 / 2) * 28 + (2 * (k.val / 4 % 14) + 0 % 2)
        = (2 * (k.val / 4 / 14) + k.val % 4 / 2) * 28 + 2 * (k.val / 4 % 14)
      omega
    · show (2 * (k.val / 4 / 14) + 1 / 2) * 28 + (2 * (k.val / 4 % 14) + 1 % 2)
        = (2 * (k.val / 4 / 14) + k.val % 4 / 2) * 28 + 2 * (k.val / 4 % 14) + 1
      omega
  · rw [if_pos (by omega), v24_slot x0 b k 2 h, v23_at2]
    refine congrArg _ (Fin.ext ?_)
    show (2 * (k.val / 4 / 14) + 2 / 2) * 28 + (2 * (k.val / 4 % 14) + 2 % 2)
      = (2 * (k.val / 4 / 14) + k.val % 4 / 2) * 28 + 2 * (k.val / 4 % 14)
    omega
  · rw [if_neg (by omega), v24_slot x0 b k 3 h, v23_at3]
    refine congrArg₂ (· * ·) (congrArg _ (Fin.ext ?_)) (congrArg _ (Fin.ext ?_))
    · show (2 * (k.val / 4 / 14) + 2 / 2) * 28 + (2 * (k.val / 4 % 14) + 2 % 2)
        = (2 * (k.val / 4 / 14) + k.val % 4 / 2) * 28 + 2 * (k.val / 4 % 14)
      omega
    · show (2 * (k.val / 4 / 14) + 3 / 2) * 28 + (2 * (k.val / 4 % 14) + 3 % 2)
        = (2 * (k.val / 4 / 14) + k.val % 4 / 2) * 28 + 2 * (k.val / 4 % 14) + 1
      omega

/-! ## Indices named by their coordinates -/

/-- A rank-2 index with known coordinates. -/
theorem ix2_of {n0 n1 : ℕ} (i : (⟨2, ![n0, n1]⟩ : Shape).Idx) (a : Fin n0) (c : Fin n1)
    (h0 : (i 0).val = a.val) (h1 : (i 1).val = c.val) : i = ix2 a c := by
  funext d
  match d with
  | ⟨0, _⟩ => exact Fin.ext h0
  | ⟨1, _⟩ => exact Fin.ext h1

/-- A rank-1 index with a known coordinate. -/
theorem ix1_of {n0 : ℕ} (i : (⟨1, ![n0]⟩ : Shape).Idx) (a : Fin n0) (h0 : (i 0).val = a.val) : i = ix1 a := by
  funext d
  match d with
  | ⟨0, _⟩ => exact Fin.ext h0

/-- The weight table. -/
abbrev LT := (⟨S787x10, .f32⟩ : BufTy).Contents (Elt Ideal)
/-- The bias. -/
abbrev BT := (⟨S10, .f32⟩ : BufTy).Contents (Elt Ideal)

/-! ## The normalisation of a row of ten logits -/

/-- The row maximum: the fold of max from minus infinity over the ten logits of the row. -/
theorem call0_v0_at (x0 : XT) (x1 : LT) (x2 : BT) (x3 : WT) (b : Fin 32768) :
    val_main_call0_v0 (F := Ideal) x0 x1 x2 x3 (ix1 b)
      = Finset.univ.fold max Cert.Spec.negInf (fun j' : Fin 10 => val_main_v88 (F := Ideal) x0 x1 x2 x3 (ix2 b j')) := by
  unfold val_main_call0_v0
  generalize val_main_v88 (F := Ideal) x0 x1 x2 x3 = y
  refine (Host.reduce_eq_fold_single (FloatOps.maximumf (F := Ideal) (φ := .f32)) y _ reducesTo_S32768x10_S32768_d1
    (by decide) h_S_ (ix1 b)).trans ?_
  refine congrArg (fun g => Finset.fold max Cert.Spec.negInf g (Finset.univ : Finset (Fin 10))) (funext fun k => ?_)
  exact congrArg y (funext fun a => Fin.ext (by match a with | ⟨0, _⟩ => rfl | ⟨1, _⟩ => rfl))

/-- The maximum taken once more against minus infinity, spread over the row. -/
theorem call0_v4_at (x0 : XT) (x1 : LT) (x2 : BT) (x3 : WT) (b : Fin 32768) (j : Fin 10) :
    val_main_call0_v4 (F := Ideal) x0 x1 x2 x3 (ix2 b j)
      = max Cert.Spec.negInf (Finset.univ.fold max Cert.Spec.negInf
          (fun j' : Fin 10 => val_main_v88 (F := Ideal) x0 x1 x2 x3 (ix2 b j'))) := by
  rw [val_main_call0_v4_apply, val_main_call0_v3_apply, val_main_call0_v2_apply, val_main_call0_v1_apply,
    val_main_call0_cst_0_apply]
  rw [show idx_main_call0_v3 (idx_main_call0_v4 (ix2 b j)) = ix1 b from ix1_of _ b rfl, call0_v0_at]
  rfl

/-- A logit less the row maximum. -/
theorem call0_v5_at (x0 : XT) (x1 : LT) (x2 : BT) (x3 : WT) (b : Fin 32768) (j : Fin 10) :
    val_main_call0_v5 (F := Ideal) x0 x1 x2 x3 (ix2 b j)
      = val_main_v88 (F := Ideal) x0 x1 x2 x3 (ix2 b j)
        - max Cert.Spec.negInf (Finset.univ.fold max Cert.Spec.negInf
            (fun j' : Fin 10 => val_main_v88 (F := Ideal) x0 x1 x2 x3 (ix2 b j'))) := by
  rw [val_main_call0_v5_apply, call0_v4_at]
  rfl

/-- The sum of the exponentials of the shifted row: the zero word the sum starts from adds nothing. -/
theorem call0_v7_at (x0 : XT) (x1 : LT) (x2 : BT) (x3 : WT) (b : Fin 32768) :
    val_main_call0_v7 (F := Ideal) x0 x1 x2 x3 (ix1 b)
      = ∑ k : Fin 10, Ideal.exp (val_main_v88 (F := Ideal) x0 x1 x2 x3 (ix2 b k)
        - max Cert.Spec.negInf (Finset.univ.fold max Cert.Spec.negInf
            (fun j' : Fin 10 => val_main_v88 (F := Ideal) x0 x1 x2 x3 (ix2 b j')))) := by
  rw [val_main_call0_v7_apply, val_main_call0_cst_1_apply]
  refine (congrArg (· + _) Ideal.ofBits_zero_f32).trans ((zero_add _).trans (Finset.sum_congr rfl fun k _ => ?_))
  rw [show idx_main_call0_v7 (ix1 b) k = ix2 b k from ix2_of _ b k rfl rfl, val_main_call0_v6_apply, call0_v5_at]
  rfl

/-- The result row is the normalised row of the logits. -/
theorem v89_at (x0 : XT) (x1 : LT) (x2 : BT) (x3 : WT) (b : Fin 32768) (j : Fin 10) :
    val_main_v89 (F := Ideal) x0 x1 x2 x3 (ix2 b j)
      = Cert.Spec.logSoftmaxRow (fun j' : Fin 10 => val_main_v88 (F := Ideal) x0 x1 x2 x3 (ix2 b j')) j := by
  rw [val_main_v89_apply, call0_v5_at, val_main_call0_v10_apply, val_main_call0_v9_apply, val_main_call0_v8_apply]
  rw [show idx_main_call0_v8 (idx_main_call0_v10 (ix2 b j)) = ix1 b from ix1_of _ b rfl, call0_v7_at]
  rfl

/-! ## The number q: the first four features' cosines, summed and divided by four -/

/-- The cosine of feature f of the first patch. -/
theorem v26_at (x0 : XT) (b : Fin 32768) (f : Fin 4) :
    val_main_v26 (F := Ideal) x0 (ix2 b f)
      = Ideal.cos (Cert.Spec.qfeat x0 b (⟨f.val, by omega⟩ : Fin 784)) := by
  rw [val_main_v26_apply, val_main_v25_apply,
    show idx_main_v25 (ix2 b f) = ix2 b (⟨f.val, by omega⟩ : Fin 784) from ix2_of _ _ _ rfl rfl, v24_at]
  rfl

/-- The first column of the four cosines. -/
theorem v28_at (x0 : XT) (b : Fin 32768) :
    val_main_v28 (F := Ideal) x0 (ix1 b) = val_main_v26 (F := Ideal) x0 (ix2 b (0 : Fin 4)) := by
  rw [val_main_v28_apply, val_main_v27_apply]
  exact congrArg (val_main_v26 (F := Ideal) x0) (ix2_of _ _ _ (Nat.div_one _) rfl)

/-- The first column again. -/
theorem v30_at (x0 : XT) (b : Fin 32768) :
    val_main_v30 (F := Ideal) x0 (ix1 b) = val_main_v26 (F := Ideal) x0 (ix2 b (0 : Fin 4)) := by
  rw [val_main_v30_apply, val_main_v29_apply]
  exact congrArg (val_main_v26 (F := Ideal) x0) (ix2_of _ _ _ (Nat.div_one _) rfl)

/-- The second column. -/
theorem v32_at (x0 : XT) (b : Fin 32768) :
    val_main_v32 (F := Ideal) x0 (ix1 b) = val_main_v26 (F := Ideal) x0 (ix2 b (1 : Fin 4)) := by
  rw [val_main_v32_apply, val_main_v31_apply]
  exact congrArg (val_main_v26 (F := Ideal) x0) (ix2_of _ _ _ (Nat.div_one _) rfl)

/-- The third column. -/
theorem v36_at (x0 : XT) (b : Fin 32768) :
    val_main_v36 (F := Ideal) x0 (ix1 b) = val_main_v26 (F := Ideal) x0 (ix2 b (2 : Fin 4)) := by
  rw [val_main_v36_apply, val_main_v35_apply]
  exact congrArg (val_main_v26 (F := Ideal) x0) (ix2_of _ _ _ (Nat.div_one _) rfl)

/-- The third column again. -/
theorem v39_at (x0 : XT) (b : Fin 32768) :
    val_main_v39 (F := Ideal) x0 (ix1 b) = val_main_v26 (F := Ideal) x0 (ix2 b (2 : Fin 4)) := by
  rw [val_main_v39_apply, val_main_v38_apply]
  exact congrArg (val_main_v26 (F := Ideal) x0) (ix2_of _ _ _ (Nat.div_one _) rfl)

/-- The fourth column. -/
theorem v41_at (x0 : XT) (b : Fin 32768) :
    val_main_v41 (F := Ideal) x0 (ix1 b) = val_main_v26 (F := Ideal) x0 (ix2 b (3 : Fin 4)) := by
  rw [val_main_v41_apply, val_main_v40_apply]
  exact congrArg (val_main_v26 (F := Ideal) x0) (ix2_of _ _ _ (Nat.div_one _) rfl)

/-- The sum of the four terms over the constant four. -/
theorem v45_at (x0 : XT) (b : Fin 32768) :
    val_main_v45 (F := Ideal) x0 (ix1 b)
      = Ideal.div (Cert.Spec.qSum (Cert.Spec.qfeat x0 b 0) (Cert.Spec.qfeat x0 b 1) (Cert.Spec.qfeat x0 b 2)
          (Cert.Spec.qfeat x0 b 3)) Cert.Spec.four := by
  rw [val_main_v45_apply, val_main_v43_apply, val_main_v37_apply, val_main_v34_apply, val_main_v33_apply,
    val_main_v42_apply, v28_at, v30_at, v32_at, v36_at, v39_at, v41_at, v26_at, v26_at, v26_at, v26_at,
    val_main_v44_apply, val_main_cst_apply]
  rfl

/-- The same as a one-column array. -/
theorem v83_at (x0 : XT) (b : Fin 32768) :
    val_main_v83 (F := Ideal) x0 (ix2 b (0 : Fin 1))
      = Ideal.div (Cert.Spec.qSum (Cert.Spec.qfeat x0 b 0) (Cert.Spec.qfeat x0 b 1) (Cert.Spec.qfeat x0 b 2)
          (Cert.Spec.qfeat x0 b 3)) Cert.Spec.four := by
  rw [val_main_v83_apply, show idx_main_v83 (ix2 b (0 : Fin 1)) = ix1 b from ix1_of _ b rfl, v45_at]

/-! ## The sampler's pair and its softmax -/

/-- A one-element array read as a scalar is its element. -/
theorem scalar_at {α : Type} (y : S1.Idx → α) (i : S_.Idx) :
    shapeCast S_ y shapeCasts_S1_S_ i = y (ix1 (0 : Fin 1)) :=
  shapeCast_apply y shapeCasts_S1_S_ i (ix1 (0 : Fin 1))
    ((Shape.rowMajor_val_one _).trans (Shape.rowMajorPi_zero _ _).symm)

/-- The first sampler weight, spread over the images. -/
theorem v50_at (x3 : WT) (b : Fin 32768) : val_main_v50 (F := Ideal) x3 (ix1 b) = x3 (ix1 (0 : Fin 4)) := by
  rw [val_main_v50_apply]; unfold val_main_v49; rw [scalar_at, val_main_v48_apply]
  exact congrArg x3 (ix1_of _ _ rfl)

/-- The third. -/
theorem v54_at (x3 : WT) (b : Fin 32768) : val_main_v54 (F := Ideal) x3 (ix1 b) = x3 (ix1 (2 : Fin 4)) := by
  rw [val_main_v54_apply]; unfold val_main_v53; rw [scalar_at, val_main_v52_apply]
  exact congrArg x3 (ix1_of _ _ rfl)

/-- The second. -/
theorem v60_at (x3 : WT) (b : Fin 32768) : val_main_v60 (F := Ideal) x3 (ix1 b) = x3 (ix1 (1 : Fin 4)) := by
  rw [val_main_v60_apply]; unfold val_main_v59; rw [scalar_at, val_main_v58_apply]
  exact congrArg x3 (ix1_of _ _ rfl)

/-- The fourth. -/
theorem v64_at (x3 : WT) (b : Fin 32768) : val_main_v64 (F := Ideal) x3 (ix1 b) = x3 (ix1 (3 : Fin 4)) := by
  rw [val_main_v64_apply]; unfold val_main_v63; rw [scalar_at, val_main_v62_apply]
  exact congrArg x3 (ix1_of _ _ rfl)

/-- The first feature as a vector over the images. -/
theorem v47_at (x0 : XT) (b : Fin 32768) :
    val_main_v47 (F := Ideal) x0 (ix1 b) = val_main_v24 (F := Ideal) x0 (ix2 b (0 : Fin 784)) := by
  rw [val_main_v47_apply, val_main_v46_apply]
  exact congrArg (val_main_v24 (F := Ideal) x0) (ix2_of _ _ _ (Nat.div_one _) rfl)

/-- The second feature. -/
theorem v57_at (x0 : XT) (b : Fin 32768) :
    val_main_v57 (F := Ideal) x0 (ix1 b) = val_main_v24 (F := Ideal) x0 (ix2 b (1 : Fin 784)) := by
  rw [val_main_v57_apply, val_main_v56_apply]
  exact congrArg (val_main_v24 (F := Ideal) x0) (ix2_of _ _ _ (Nat.div_one _) rfl)

/-- The sampler's first number. -/
theorem v66_at (x0 : XT) (x3 : WT) (b : Fin 32768) :
    val_main_v66 (F := Ideal) x0 x3 (ix1 b) = Cert.Spec.sampPair x0 x3 b 0 := by
  rw [val_main_v66_apply, val_main_v55_apply, val_main_v51_apply, v47_at, v24_at, v50_at, v54_at]
  rfl

/-- Its second. -/
theorem v68_at (x0 : XT) (x3 : WT) (b : Fin 32768) :
    val_main_v68 (F := Ideal) x0 x3 (ix1 b) = Cert.Spec.sampPair x0 x3 b 1 := by
  rw [val_main_v68_apply, val_main_v67_apply, val_main_v65_apply, val_main_v61_apply, v57_at, v24_at, v60_at, v64_at,
    val_main_v66_apply, val_main_v55_apply, val_main_v51_apply, v47_at, v24_at, v50_at, v54_at]
  rfl

/-- The two joined as a row of two. -/
theorem v71_at (x0 : XT) (x3 : WT) (b : Fin 32768) (e : Fin 2) :
    val_main_v71 (F := Ideal) x0 x3 (ix2 b e) = Cert.Spec.sampPair x0 x3 b e := by
  unfold val_main_v71
  match e with
  | ⟨0, _⟩ =>
    refine (concatenate_pair_apply_left (t := S32768x2) (s₁ := S32768x1) (s₂ := S32768x1) (1 : Fin 2) _ _ concatenates_S32768x1_S32768x1_S32768x2_d1 (ix2 b (0 : Fin 2)) rfl
      (ix2 b (0 : Fin 1)) (fun c => match c with | ⟨0, _⟩ => rfl | ⟨1, _⟩ => rfl)).trans ?_
    rw [val_main_v69_apply, show idx_main_v69 (ix2 b (0 : Fin 1)) = ix1 b from ix1_of _ b rfl, v66_at]
    rfl
  | ⟨1, _⟩ =>
    refine (concatenate_pair_apply_right (t := S32768x2) (s₁ := S32768x1) (s₂ := S32768x1) (1 : Fin 2) _ _ concatenates_S32768x1_S32768x1_S32768x2_d1 (ix2 b (1 : Fin 2)) rfl rfl
      (ix2 b (0 : Fin 1)) (fun c hc => match c, hc with | ⟨0, _⟩, _ => rfl | ⟨1, _⟩, hc => absurd rfl hc) rfl).trans ?_
    rw [val_main_v70_apply, show idx_main_v70 (ix2 b (0 : Fin 1)) = ix1 b from ix1_of _ b rfl, v68_at]
    rfl

/-- The larger of the two, folded from minus infinity. -/
theorem v72_at (x0 : XT) (x3 : WT) (b : Fin 32768) :
    val_main_v72 (F := Ideal) x0 x3 (ix1 b)
      = Finset.univ.fold max Cert.Spec.negInf (Cert.Spec.sampPair x0 x3 b) := by
  unfold val_main_v72
  refine (Host.reduce_eq_fold_single (FloatOps.maximumf (F := Ideal) (φ := .f32)) (val_main_v71 (F := Ideal) x0 x3) _
    reducesTo_S32768x2_S32768_d1 (by decide) h_S_ (ix1 b)).trans ?_
  refine congrArg (fun g => Finset.fold max Cert.Spec.negInf g (Finset.univ : Finset (Fin 2))) (funext fun k => ?_)
  refine Eq.trans (congrArg (val_main_v71 (F := Ideal) x0 x3) ?_) (v71_at x0 x3 b k)
  exact funext fun a => Fin.ext (by match a with | ⟨0, _⟩ => rfl | ⟨1, _⟩ => rfl)

/-- An entry of the pair less that maximum, exponentiated. -/
theorem v78_at (x0 : XT) (x3 : WT) (b : Fin 32768) (e : Fin 2) :
    val_main_v78 (F := Ideal) x0 x3 (ix2 b e)
      = Ideal.exp (Cert.Spec.sampPair x0 x3 b e
          - max Cert.Spec.negInf (Finset.univ.fold max Cert.Spec.negInf (Cert.Spec.sampPair x0 x3 b))) := by
  rw [val_main_v78_apply, val_main_v77_apply, v71_at, val_main_v76_apply, val_main_v75_apply, val_main_v74_apply,
    show idx_main_v75 (idx_main_v76 (ix2 b e)) = ix1 b from ix1_of _ b rfl, v72_at, val_main_v73_apply,
    val_main_cst_1_apply]
  rfl

/-- The softmax of the pair. -/
theorem v82_at (x0 : XT) (x3 : WT) (b : Fin 32768) (e : Fin 2) :
    val_main_v82 (F := Ideal) x0 x3 (ix2 b e) = Cert.Spec.softPair x0 x3 b e := by
  rw [val_main_v82_apply, v78_at, val_main_v81_apply, val_main_v80_apply,
    show idx_main_v80 (idx_main_v81 (ix2 b e)) = ix1 b from ix1_of _ b rfl, val_main_v79_apply, val_main_cst_2_apply]
  unfold Cert.Spec.softPair
  refine congrArg (fun s => Ideal.div _ (Cert.Spec.zeroW + s)) (Finset.sum_congr rfl fun k _ => ?_)
  rw [show idx_main_v79 (ix1 b) k = ix2 b k from ix2_of _ b k rfl rfl, v78_at]

/-! ## The 787-entry row and the one product with the weight table -/

/-- The joined row: the features, then q, then the sampler's softmax. -/
theorem v84_at (x0 : XT) (x3 : WT) (b : Fin 32768) (k : Fin 787) :
    val_main_v84 (F := Ideal) x0 x3 (ix2 b k) = Cert.Spec.comb x0 x3 b k := by
  unfold val_main_v84 Cert.Spec.comb
  have hk := k.isLt
  by_cases h1 : k.val < 784
  · rw [dif_pos h1]
    refine (concatenate_apply_piece (t := S32768x787) 1 _ _ (ix2 b k) 0 (by show (0 : ℕ) < 3; decide) S32768x784
      (val_main_v24 (F := Ideal) x0) rfl rfl 0 rfl (ix2 b (⟨k.val, h1⟩ : Fin 784)) (fun d hd => ?_) ?_).trans
      (v24_at x0 b _)
    · match d with
      | ⟨0, _⟩ => rfl
      | ⟨1, _⟩ => exact absurd rfl hd
    · show 0 + k.val = k.val
      omega
  · rw [dif_neg h1]
    by_cases h2 : k.val = 784
    · rw [if_pos h2]
      refine (concatenate_apply_piece (t := S32768x787) 1 _ _ (ix2 b k) 1 (by show (1 : ℕ) < 3; decide) S32768x1
        (val_main_v83 (F := Ideal) x0) rfl rfl 784 rfl (ix2 b (0 : Fin 1)) (fun d hd => ?_) ?_).trans (v83_at x0 b)
      · match d with
        | ⟨0, _⟩ => rfl
        | ⟨1, _⟩ => exact absurd rfl hd
      · show 784 + 0 = k.val
        omega
    · rw [if_neg h2]
      refine (concatenate_apply_piece (t := S32768x787) 1 _ _ (ix2 b k) 2 (by show (2 : ℕ) < 3; decide) S32768x2
        (val_main_v82 (F := Ideal) x0 x3) rfl rfl 785 rfl (ix2 b (⟨k.val - 785, by omega⟩ : Fin 2)) (fun d hd => ?_) ?_).trans
        (v82_at x0 x3 b _)
      · match d with
        | ⟨0, _⟩ => rfl
        | ⟨1, _⟩ => exact absurd rfl hd
      · show 785 + (k.val - 785) = k.val
        omega

/-- A logit: the row times a column of the table, plus the bias. -/
theorem v88_at (x0 : XT) (x1 : LT) (x2 : BT) (x3 : WT) (b : Fin 32768) (j : Fin 10) :
    val_main_v88 (F := Ideal) x0 x1 x2 x3 (ix2 b j) = Cert.Spec.rLogit x0 x1 x2 x3 b j := by
  rw [val_main_v88_apply, val_main_v85_apply, val_main_v87_apply, val_main_v86_apply]
  unfold Cert.Spec.rLogit
  refine congrArg₂ (· + ·) (Finset.sum_congr rfl fun k _ => ?_) (congrArg x2 (ix1_of _ j rfl))
  rw [show lidx_main_v85 (ix2 b j) k = ix2 b k from ix2_of _ b k rfl rfl,
    show ridx_main_v85 (ix2 b j) k = ix2 k j from ix2_of _ k j rfl rfl, v84_at]

/-! ## The result -/

theorem result_apply (x0 : (⟨S32768x1x28x28, .f32⟩ : BufTy).Contents (Elt Ideal)) (x1 : (⟨S787x10, .f32⟩ : BufTy).Contents (Elt Ideal))
    (x2 : (⟨S10, .f32⟩ : BufTy).Contents (Elt Ideal)) (x3 : (⟨S4, .f32⟩ : BufTy).Contents (Elt Ideal)) (b : Fin 32768) (j : Fin 10) :
    val_main_v89 (F := Ideal) x0 x1 x2 x3 (ix2 b j)
      = Cert.Spec.logSoftmaxRow (Cert.Spec.rLogit (x0 : Cert.Spec.SX.Idx → EReal) (x1 : Cert.Spec.SLW.Idx → EReal)
          (x2 : Cert.Spec.SB.Idx → EReal) (x3 : Cert.Spec.SSW.Idx → EReal) b) j := by
  rw [v89_at]
  exact congrArg (fun z => Cert.Spec.logSoftmaxRow z j) (funext fun j' => v88_at x0 x1 x2 x3 b j')

end Cert.ReferenceIdeal.RefRead

end
-- ==== Proof.Algebra.lean ====
import proofs.«421675_j65481071397824_3_alg».proof.Proof.Spec
import Idealize.ShloMosaic.PureOps.Ideal.Laws
import Mathlib.Algebra.BigOperators.Fin
import Mathlib.Data.Finset.Fold
import Mathlib.Logic.Equiv.Fin.Basic

/-! # The two rows of logits are equal

The 787-term product with the weight table is cut after its first 784 rows. Those 784 terms, taken two at a time,
are the contributions of the 392 feature pairs; the two scattered products, also taken two at a time, are the
contributions of the 392 even pixels (the odd columns carry zero). A permutation of the 392 pairs matches them term
by term. The three remaining terms agree because multiplying by a quarter is dividing by four, because a maximum
folded from minus infinity over a pair is the larger of the two, and because addition is associative. -/

noncomputable section

namespace Cert.Spec

open Idealize.ShloMosaic Idealize.ShloMosaic.ValueIdx

namespace Algebra

/-! ## The four numerals -/

theorem negInf_eq : negInf = ⊥ := by simp [negInf, Ideal.ofBits, Ideal.ieee]

theorem zeroW_eq : zeroW = 0 := Ideal.ofBits_zero_f32

theorem quarter_eq : quarter = ((1 / 4 : ℝ) : EReal) := by
  simp [quarter, Ideal.ofBits, Ideal.ieee, -EReal.coe_mul]; norm_num

theorem four_eq : four = ((4 : ℝ) : EReal) := by
  simp [four, Ideal.ofBits, Ideal.ieee, -EReal.coe_mul]; norm_num

/-- Multiplying by a quarter is dividing by four, at every extended real. -/
theorem mul_quarter (x : EReal) : x * quarter = Ideal.div x four := by
  rw [quarter_eq, four_eq, Ideal.div_coe (by norm_num : (4 : ℝ) ≠ 0)]

/-! ## Sums and maxima over small index sets -/

/-- A sum over 784 indices, taken two at a time. -/
theorem sum_pairs (f : Fin 784 → EReal) :
    ∑ m : Fin 784, f m
      = ∑ n : Fin 392, (f ⟨2 * n.val, by have := n.isLt; omega⟩ + f ⟨2 * n.val + 1, by have := n.isLt; omega⟩) := by
  rw [← (finProdFinEquiv : Fin 392 × Fin 2 ≃ Fin 784).sum_comp, Fintype.sum_prod_type]
  refine Finset.sum_congr rfl fun n _ => ?_
  rw [Fin.sum_univ_two]
  congr 1 <;> congr 1 <;> apply Fin.ext <;> simp [finProdFinEquiv] <;> omega

/-- The maximum of a pair, folded from minus infinity and taken once more against it. -/
theorem max_fold_two (z : Fin 2 → EReal) :
    max negInf (Finset.univ.fold max negInf z) = max (z 0) (z 1) := by
  rw [negInf_eq]
  have h : (Finset.univ : Finset (Fin 2)) = {0, 1} := by decide
  rw [h, Finset.fold_insert (by decide), Finset.fold_singleton]
  simp

/-! ## Reading the definitions at an index -/

section Arrays

variable (X : SX.Idx → EReal) (LW : SLW.Idx → EReal) (BIAS : SB.Idx → EReal) (SW : SSW.Idx → EReal)
variable (b : Fin 32768) (j : Fin 10)

theorem lwRow_congr {k k' : ℕ} (h : k = k') (hk : k < 787) (hk' : k' < 787) :
    lwRow LW k hk j = lwRow LW k' hk' j := by
  subst h; rfl

theorem cosPix_congr (xr : Fin 784 → EReal) {m m' : Fin 784} (h : m.val = m'.val) : cosPix xr m = cosPix xr m' := by
  rw [Fin.ext h]

/-- An even feature is the cosine of its pixel. -/
theorem qfeat_even (k : Fin 784) (hk : k.val % 2 = 0) (m : Fin 784) (hm : featPix k = m.val) :
    qfeat X b k = cosPix (pixRow X b) m := by
  unfold qfeat
  rw [if_pos hk]
  exact cosPix_congr _ hm

/-- An odd feature is the cosine of its pixel times the cosine of the next one. -/
theorem qfeat_odd (k : Fin 784) (hk : k.val % 2 = 1) (m m' : Fin 784) (hm : featPix k = m.val)
    (hm' : featPix k + 1 = m'.val) :
    qfeat X b k = cosPix (pixRow X b) m * cosPix (pixRow X b) m' := by
  unfold qfeat
  rw [if_neg (by omega)]
  congr 1
  · exact cosPix_congr _ hm
  · exact cosPix_congr _ hm'

/-- At an even pixel the product feature reads the pixel to its right. -/
theorem cosPair_even (xr : Fin 784 → EReal) (m m' : Fin 784) (hm : m.val % 2 = 0) (hm' : m'.val = m.val + 1) :
    cosPair xr m = cosPix xr m * cosPix xr m' := by
  unfold cosPair
  congr 1
  apply cosPix_congr
  unfold nextPix
  have := m.isLt
  simp only []
  omega

theorem W1_even (m : Fin 784) (hm : m.val % 2 = 0) :
    W1 LW m j = lwRow LW (featRow m) (by have := featRow_lt m; omega) j := by
  unfold W1; rw [if_pos hm]

theorem W1_odd (m : Fin 784) (hm : m.val % 2 = 1) : W1 LW m j = 0 := by
  unfold W1; rw [if_neg (by omega), zeroW_eq]

theorem W2_even (m : Fin 784) (hm : m.val % 2 = 0) :
    W2 LW m j = lwRow LW (featRow m + 1) (featRow_lt m) j := by
  unfold W2; rw [if_pos hm]

theorem W2_odd (m : Fin 784) (hm : m.val % 2 = 1) : W2 LW m j = 0 := by
  unfold W2; rw [if_neg (by omega), zeroW_eq]

end Arrays

/-! ## The scattered products are the product with the table's first 784 rows -/

/-- Even pixel `2 n = 28 (2 i + a) + 2 jj` carries the feature pair `2 (14 i + jj) + a`; -/
def pfNat (n : ℕ) : ℕ := 2 * (14 * (n / 28) + n % 14) + n / 14 % 2

/-- feature pair `r = 2 (14 i + jj) + a` is read at the even pixel `2 ((2 i + a) 14 + jj)`. -/
def pfInv (r : ℕ) : ℕ := (2 * (r / 28) + r % 2) * 14 + r / 2 % 14

/-- The two maps are inverse permutations of the 392 pairs, and they match the table row an even pixel carries with
    the pixel a feature reads: 392 cases, each a computation on numerals. -/
theorem pf_facts : ∀ n : Fin 392,
    pfNat n.val < 392 ∧ pfInv n.val < 392 ∧ pfInv (pfNat n.val) = n.val ∧ pfNat (pfInv n.val) = n.val
    ∧ (2 * (2 * pfNat n.val / 4 / 14) + 2 * pfNat n.val % 4 / 2) * 28 + 2 * (2 * pfNat n.val / 4 % 14) = 2 * n.val
    ∧ (2 * ((2 * pfNat n.val + 1) / 4 / 14) + (2 * pfNat n.val + 1) % 4 / 2) * 28
        + 2 * ((2 * pfNat n.val + 1) / 4 % 14) = 2 * n.val
    ∧ 4 * (14 * (2 * n.val / 56) + 2 * n.val % 28 / 2) + 2 * (2 * n.val / 28 % 2) = 2 * pfNat n.val := by
  decide

/-- The permutation of the 392 pairs. -/
def pixFeat : Fin 392 ≃ Fin 392 where
  toFun n := ⟨pfNat n.val, (pf_facts n).1⟩
  invFun r := ⟨pfInv r.val, (pf_facts r).2.1⟩
  left_inv n := Fin.ext (pf_facts n).2.2.1
  right_inv r := Fin.ext (pf_facts r).2.2.2.1

section Scatter

variable (X : SX.Idx → EReal) (LW : SLW.Idx → EReal) (b : Fin 32768) (j : Fin 10)

/-- What an even pixel and its odd neighbour contribute to the two scattered products is what the pixel's feature
    pair contributes to the product with the table. -/
theorem pair_term (n : Fin 392) (h0 : 2 * n.val < 784) (h1 : 2 * n.val + 1 < 784)
    (g0 : 2 * (pixFeat n).val < 784) (g1 : 2 * (pixFeat n).val + 1 < 784) :
    (cosPix (pixRow X b) ⟨2 * n.val, h0⟩ * W1 LW ⟨2 * n.val, h0⟩ j
        + cosPix (pixRow X b) ⟨2 * n.val + 1, h1⟩ * W1 LW ⟨2 * n.val + 1, h1⟩ j)
      + (cosPair (pixRow X b) ⟨2 * n.val, h0⟩ * W2 LW ⟨2 * n.val, h0⟩ j
        + cosPair (pixRow X b) ⟨2 * n.val + 1, h1⟩ * W2 LW ⟨2 * n.val + 1, h1⟩ j)
      = qfeat X b ⟨2 * (pixFeat n).val, g0⟩ * lwRow LW (2 * (pixFeat n).val) (by omega) j
        + qfeat X b ⟨2 * (pixFeat n).val + 1, g1⟩ * lwRow LW (2 * (pixFeat n).val + 1) (by omega) j := by
  obtain ⟨-, -, -, -, e0, e1, e2⟩ := pf_facts n
  rw [W1_odd LW j ⟨2 * n.val + 1, h1⟩ (by show (2 * n.val + 1) % 2 = 1; omega),
    W2_odd LW j ⟨2 * n.val + 1, h1⟩ (by show (2 * n.val + 1) % 2 = 1; omega),
    mul_zero, mul_zero, add_zero, add_zero,
    W1_even LW j ⟨2 * n.val, h0⟩ (by show (2 * n.val) % 2 = 0; omega),
    W2_even LW j ⟨2 * n.val, h0⟩ (by show (2 * n.val) % 2 = 0; omega),
    cosPair_even _ ⟨2 * n.val, h0⟩ ⟨2 * n.val + 1, h1⟩ (by show (2 * n.val) % 2 = 0; omega) rfl,
    qfeat_even X b ⟨2 * (pixFeat n).val, g0⟩ (by show (2 * (pixFeat n).val) % 2 = 0; omega) ⟨2 * n.val, h0⟩
      e0,
    qfeat_odd X b ⟨2 * (pixFeat n).val + 1, g1⟩ (by show (2 * (pixFeat n).val + 1) % 2 = 1; omega) ⟨2 * n.val, h0⟩
      ⟨2 * n.val + 1, h1⟩ e1 (congrArg (· + 1) e1)]
  congr 1
  · congr 1
    apply lwRow_congr
    exact e2
  · congr 1
    apply lwRow_congr
    exact congrArg (· + 1) e2

/-- The product of the cosines with the first scattered matrix plus that of the pair products with the second is the
    product of the 784 features with the table's first 784 rows. -/
theorem sum_scatter :
    (∑ mm : Fin 784, cosPix (pixRow X b) mm * W1 LW mm j) + (∑ mm : Fin 784, cosPair (pixRow X b) mm * W2 LW mm j)
      = ∑ k : Fin 784, qfeat X b k * lwRow LW k.val (by have := k.isLt; omega) j := by
  rw [sum_pairs (fun mm => cosPix (pixRow X b) mm * W1 LW mm j),
    sum_pairs (fun mm => cosPair (pixRow X b) mm * W2 LW mm j),
    sum_pairs (fun k => qfeat X b k * lwRow LW k.val (by have := k.isLt; omega) j),
    ← Finset.sum_add_distrib]
  refine Eq.trans ?_ (pixFeat.sum_comp _)
  refine Finset.sum_congr rfl fun n _ => ?_
  exact pair_term X LW b j n _ _ _ _

end Scatter

/-! ## The two rows of logits -/

section Final

variable (X : SX.Idx → EReal) (LW : SLW.Idx → EReal) (BIAS : SB.Idx → EReal) (SW : SSW.Idx → EReal)
variable (b : Fin 32768) (j : Fin 10)

theorem comb_lt (k : Fin 787) (h : k.val < 784) : comb X SW b k = qfeat X b ⟨k.val, h⟩ := by
  unfold comb; exact dif_pos h

theorem comb_784 : comb X SW b (⟨784, by norm_num⟩ : Fin 787)
    = Ideal.div (qSum (qfeat X b 0) (qfeat X b 1) (qfeat X b 2) (qfeat X b 3)) four := by
  unfold comb; rw [dif_neg (by simp), if_pos rfl]

theorem comb_785 : comb X SW b (⟨785, by norm_num⟩ : Fin 787) = softPair X SW b 0 := by
  unfold comb; rw [dif_neg (by simp), if_neg (by simp)]; rfl

theorem comb_786 : comb X SW b (⟨786, by norm_num⟩ : Fin 787) = softPair X SW b 1 := by
  unfold comb; rw [dif_neg (by simp), if_neg (by simp)]; rfl

/-- The first patch's four features are the cosines and pair products at pixels 0 and 28. -/
theorem qfeat_0 : qfeat X b 0 = cosPix (pixRow X b) 0 := qfeat_even X b 0 rfl 0 rfl

theorem qfeat_1 : qfeat X b 1 = cosPair (pixRow X b) 0 := by
  rw [qfeat_odd X b 1 rfl 0 1 rfl rfl, cosPair_even _ 0 1 rfl rfl]

theorem qfeat_2 : qfeat X b 2 = cosPix (pixRow X b) pix28 := qfeat_even X b 2 rfl pix28 rfl

theorem qfeat_3 : qfeat X b 3 = cosPair (pixRow X b) pix28 := by
  rw [qfeat_odd X b 3 rfl pix28 ⟨29, by norm_num⟩ rfl rfl, cosPair_even _ pix28 ⟨29, by norm_num⟩ rfl rfl]

/-- Adding the two angles one after the other is adding their sum. -/
theorem sampPair_0 : sampPair X SW b 0 = samp0 (cosPix (pixRow X b) 0) (angs SW 0) := by
  show Ideal.cos ((qfeat X b 0 + SW (ix1 (0 : Fin 4))) + SW (ix1 (2 : Fin 4)))
    = Ideal.cos (cosPix (pixRow X b) 0 + (SW (ix1 (0 : Fin 4)) + SW (ix1 (2 : Fin 4))))
  rw [qfeat_0, add_assoc]

theorem sampPair_1 : sampPair X SW b 1
    = samp1 (cosPix (pixRow X b) 0) (angs SW 0) (cosPair (pixRow X b) 0) (angs SW 1) := by
  show Ideal.cos ((qfeat X b 0 + SW (ix1 (0 : Fin 4))) + SW (ix1 (2 : Fin 4)))
      * Ideal.cos ((qfeat X b 1 + SW (ix1 (1 : Fin 4))) + SW (ix1 (3 : Fin 4)))
    = Ideal.cos (cosPix (pixRow X b) 0 + (SW (ix1 (0 : Fin 4)) + SW (ix1 (2 : Fin 4))))
      * Ideal.cos (cosPair (pixRow X b) 0 + (SW (ix1 (1 : Fin 4)) + SW (ix1 (3 : Fin 4))))
  rw [qfeat_0, qfeat_1, add_assoc, add_assoc]

/-- The softmax of the pair with its maximum and its sum written out. -/
theorem softPair_eq (e : Fin 2) :
    softPair X SW b e
      = Ideal.div (Ideal.exp (sampPair X SW b e - max (sampPair X SW b 0) (sampPair X SW b 1)))
          (Ideal.exp (sampPair X SW b 0 - max (sampPair X SW b 0) (sampPair X SW b 1))
            + Ideal.exp (sampPair X SW b 1 - max (sampPair X SW b 0) (sampPair X SW b 1))) := by
  unfold softPair
  rw [max_fold_two, Fin.sum_univ_two, zeroW_eq, zero_add]

/-- The product with the table, cut after its first 784 rows. -/
theorem rLogit_split :
    rLogit X LW BIAS SW b j
      = ((((∑ k : Fin 784, qfeat X b k * lwRow LW k.val (by have := k.isLt; omega) j)
            + Ideal.div (qSum (qfeat X b 0) (qfeat X b 1) (qfeat X b 2) (qfeat X b 3)) four
                * lwRow LW 784 (by norm_num) j)
          + softPair X SW b 0 * lwRow LW 785 (by norm_num) j)
        + softPair X SW b 1 * lwRow LW 786 (by norm_num) j) + BIAS (ix1 j) := by
  unfold rLogit
  rw [Fin.sum_univ_castSucc, Fin.sum_univ_castSucc, Fin.sum_univ_castSucc, ← comb_784, ← comb_785, ← comb_786]
  refine congrArg (· + BIAS (ix1 j)) ?_
  refine congrArg₂ (· + ·) (congrArg₂ (· + ·) (congrArg₂ (· + ·) ?_ rfl) rfl) rfl
  exact Finset.sum_congr rfl fun i _ => by rw [comb_lt X SW b _ i.isLt]; rfl

end Final

end Algebra

open Algebra in
theorem kLogit_eq_rLogit (X : SX.Idx → EReal) (LW : SLW.Idx → EReal) (BIAS : SB.Idx → EReal) (SW : SSW.Idx → EReal)
    (b : Fin 32768) (j : Fin 10) : kLogit X LW BIAS SW b j = rLogit X LW BIAS SW b j := by
  rw [rLogit_split, ← sum_scatter, ← mul_quarter, softPair_eq, softPair_eq, sampPair_0, sampPair_1, qfeat_0, qfeat_1,
    qfeat_2, qfeat_3]
  rfl

end Cert.Spec

end
-- ==== Proof.lean ====
/-
  A classifier head over 28 × 28 images: cosines of the pixels, products of neighbouring cosines in 2 × 2 patches,
  one averaged feature, a two-way softmax of two sampled angles, a 787 × 10 linear layer and a log-softmax.

  The reference forms the 787 features of every image and multiplies them by the weight table. The kernel never
  forms them: it multiplies the cosines and the neighbour products by two pixel-indexed copies of the table's first
  784 rows (zero at the pixels that carry no feature) and adds the three remaining terms. Over the extended reals
  the two rows of logits are equal term by term (Proof/Algebra.lean: a re-indexing of a finite sum, `x · 0 = 0`,
  `x / 4 = x · ¼`, associativity of a sum of angles, and `max(-∞, x) = x`), and both programs then apply the same
  log-softmax to the row.

  The kernel program's run — its 54 host operations, then one region of 32 grid points each overwriting its own 1024
  rows of the result — is Proof/KernelIdealRun.lean (and, for the program as printed at the word level,
  Proof/KernelRun.lean); what its result array holds is Proof/KernelValue.lean over Proof/KernelPayload.lean (the
  body's stored value at an entry) and Proof/KernelHost.lean (the staged arrays at an entry). The reference's run is
  Proof/RefRun.lean and its result at an entry Proof/RefRead.lean.
-/
import proofs.«421675_j65481071397824_3_alg».proof.Defs
import proofs.«421675_j65481071397824_3_alg».proof.Proof.Gen.Kernel
import proofs.«421675_j65481071397824_3_alg».proof.Proof.Gen.KernelIdeal
import proofs.«421675_j65481071397824_3_alg».proof.Proof.Gen.ReferenceIdeal
import proofs.«421675_j65481071397824_3_alg».proof.Proof.Gen.Pre_finite_inputs
import proofs.«421675_j65481071397824_3_alg».proof.Proof.KernelRun
import proofs.«421675_j65481071397824_3_alg».proof.Proof.KernelIdealRun
import proofs.«421675_j65481071397824_3_alg».proof.Proof.KernelValue
import proofs.«421675_j65481071397824_3_alg».proof.Proof.RefRun
import proofs.«421675_j65481071397824_3_alg».proof.Proof.RefRead
import proofs.«421675_j65481071397824_3_alg».proof.Proof.Algebra
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs to the end and leaves its four arguments as launched. -/
theorem frame_kernel [Cert.Kernel.Facts] [Cert.Pre_finite_inputs.Facts] : Cert.frame_Kernel :=
  fun m ρ _ => Cert.Kernel.Hand.frame m ρ

/-- So does the idealized kernel program. -/
theorem frame_kernelIdeal [Cert.KernelIdeal.Facts] [Cert.Pre_finite_inputs.Facts] : Cert.frame_KernelIdeal :=
  fun m ρ _ => Cert.KernelIdeal.Hand.frame m ρ

/-- The reference's run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.RefRun.run (F := Ideal) m ρ)

/-- Both programs end with the log-softmax of the same row of logits at every entry. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Final.resultOf (Cert.KernelIdeal.HostRead.argX m c) (Cert.KernelIdeal.HostRead.argLW m c)
      (Cert.KernelIdeal.HostRead.argB m c) (Cert.KernelIdeal.HostRead.argSW m c),
    Cert.KernelIdeal.Final.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  funext i
  obtain ⟨b, j, rfl⟩ : ∃ (b : Fin 32768) (j : Fin 10), i = ix2 b j := ⟨i 0, i 1, eq_ix2 i⟩
  refine (Cert.ReferenceIdeal.RefRead.result_apply _ _ _ _ b j).trans ?_
  unfold Cert.KernelIdeal.Final.resultOf
  show Cert.Spec.logSoftmaxRow _ j = Cert.Spec.logSoftmaxRow _ j
  congr 1
  funext j'
  exact (Cert.Spec.kLogit_eq_rLogit _ _ _ _ b j').symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
